-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S4096 : Shape := ⟨1, ![4096]⟩
abbrev S2048x2 : Shape := ⟨2, ![2048, 2]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S4096 : S_.BroadcastsInDim S4096 (![] : Fin 0 → Fin S4096.rank)
  reducesTo_S4096_S_d0 : S4096.ReducesTo [0] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v13 : IVec S_ 1) (main_v16 : IVec S2048x2 1) : IVec S_ 1 :=
  let main_c_5 : IVec S_ 1 := constantI S_ 1 1#1
  let main_v17 : IVec S_ 1 := (fun x v => Host.reduce IntOp.andi x v reducesTo_S2048x2_S_d0_1 h_S_) main_v16 main_c_5
  let main_v18 : IVec S_ 1 := andi main_v13 main_v17
  main_v18

def fn {F : FTy → Type} [FloatOps F] (main_arg0 : FVec F S4096x2 .f32) (main_arg1 : FVec F S4096 .f32) (main_arg2 : FVec F S2048x2 .f32) (main_arg3 : FVec F S2048x2 .f32) : IVec S_ 1 :=
  let main_v0 : FVec F S4096x2 .f32 := Host.absf main_arg0
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S2048x2 .f32 := Host.absf main_arg2
  let main_cst_2 : FVec F S_ .f32 := constant S_ .f32 0x7F800000#32
  let main_v10 : FVec F S2048x2 .f32 := broadcastInDim S2048x2 ![] bcast_S_S2048x2 main_cst_2
  let main_v11 : IVec S2048x2 1 := cmpf .olt main_v9 main_v10
  let main_c_3 : IVec S_ 1 := constantI S_ 1 1#1
  let main_v12 : IVec S_ 1 := (fun x v => Host.reduce IntOp.andi x v reducesTo_S2048x2_S_d0_1 h_S_) main_v11 main_c_3
  let main_v13 : IVec S_ 1 := andi main_v8 main_v12
  let main_v14 : FVec F S2048x2 .f32 := Host.absf main_arg3
  let main_cst_4 : FVec F S_ .f32 := constant S_ .f32 0x7F800000#32
  let main_v15 : FVec F S2048x2 .f32 := broadcastInDim S2048x2 ![] bcast_S_S2048x2 main_cst_4
  let main_v16 : IVec S2048x2 1 := cmpf .olt main_v14 main_v15
  fn_part1 (F := F) main_v13 main_v16
-- ==== Kernel.lean ====
abbrev S4096x2 : Shape := ⟨2, ![4096, 2]⟩
abbrev S4096 : Shape := ⟨1, ![4096]⟩
abbrev S2048x2 : Shape := ⟨2, ![2048, 2]⟩
abbrev S4096x1 : Shape := ⟨2, ![4096, 1]⟩
abbrev S1x4096 : Shape := ⟨2, ![1, 4096]⟩
abbrev S128x1 : Shape := ⟨2, ![128, 1]⟩
abbrev S128x2 : Shape := ⟨2, ![128, 2]⟩
abbrev S128x4096 : Shape := ⟨2, ![128, 4096]⟩
abbrev S128 : Shape := ⟨1, ![128]⟩
abbrev S2048x1 : Shape := ⟨2, ![2048, 1]⟩
abbrev S2048 : Shape := ⟨1, ![2048]⟩
abbrev S1x2048 : Shape := ⟨2, ![1, 2048]⟩
abbrev S128x2048 : Shape := ⟨2, ![128, 2048]⟩
abbrev S6144x2 : Shape := ⟨2, ![6144, 2]⟩

abbrev nBuf : Space → Nat
  | .hbm => 77
  | .vmem => 50
  | .smem => 0
  | _ => 0

abbrev bufTy : (tb : Table) → Fin (tcTables nBuf tb) → BufTy
  | .hbm, ⟨0, _⟩ => ⟨S4096x2, .f32⟩
  | .hbm, ⟨1, _⟩ => ⟨S4096, .f32⟩
  | .hbm, ⟨2, _⟩ => ⟨S2048x2, .f32⟩
  | .hbm, ⟨3, _⟩ => ⟨S2048x2, .f32⟩
  | .hbm, ⟨4, _⟩ => ⟨S4096x1, .f32⟩
  | .hbm, ⟨5, _⟩ => ⟨S4096, .f32⟩
  | .hbm, ⟨6, _⟩ => ⟨S4096x1, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S4096x2, .f32⟩
  | .hbm, ⟨15, _⟩ => ⟨S2048x1, .f32⟩
  | .hbm, ⟨16, _⟩ => ⟨S2048, .f32⟩
  | .hbm, ⟨17, _⟩ => ⟨S2048x1, .f32⟩
  | .hbm, ⟨18, _⟩ => ⟨S2048, .f32⟩
  | .hbm, ⟨19, _⟩ => ⟨S2048x1, .f32⟩
  | .hbm, ⟨20, _⟩ => ⟨S2048, .f32⟩
  | .hbm, ⟨21, _⟩ => ⟨S2048x1, .f32⟩
  | .hbm, ⟨22, _⟩ => ⟨S2048, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S2048x2, .f32⟩
  | .hbm, ⟨32, _⟩ => ⟨S4096x1, .f32⟩
  | .hbm, ⟨33, _⟩ => ⟨S4096, .f32⟩
  | .hbm, ⟨34, _⟩ => ⟨S4096x1, .f32⟩
  | .hbm, ⟨35, _⟩ => ⟨S4096, .f32⟩
  | .hbm, ⟨36, _⟩ => ⟨S2048x1, .f32⟩
  | .hbm, ⟨37, _⟩ => ⟨S2048, .f32⟩
  | .hbm, ⟨38, _⟩ => ⟨S2048x1, .f32⟩
  | .hbm, ⟨39, _⟩ => ⟨S2048, .f32⟩
  | .hbm, ⟨40, _⟩ => ⟨S2048x1, .f32⟩
  | .hbm, ⟨41, _⟩ => ⟨S2048, .f32⟩
  | .hbm, ⟨42, _⟩ => ⟨S2048x1, .f32⟩
  | .hbm, ⟨43, _⟩ => ⟨S2048, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S1x2048, .f32⟩
  | .hbm, ⟨51, _⟩ => ⟨S4096x2, .f32⟩
  | .hbm, ⟨52, _⟩ => ⟨S4096x1, .f32⟩
  | .hbm, ⟨53, _⟩ => ⟨S4096, .f32⟩
  | .hbm, ⟨54, _⟩ => ⟨S4096x1, .f32⟩
  | .hbm, ⟨55, _⟩ => ⟨S4096, .f32⟩
  | .hbm, ⟨56, _⟩ => ⟨S2048x1, .f32⟩
  | .hbm, ⟨57, _⟩ => ⟨S2048, .f32⟩
  | .hbm, ⟨58, _⟩ => ⟨S2048x1, .f32⟩
  | .hbm, ⟨59, _⟩ => ⟨S2048, .f32⟩
  | .hbm, ⟨60, _⟩ => ⟨S2048x1, .f32⟩
  | .hbm, ⟨61, _⟩ => ⟨S2048, .f32⟩
  | .hbm, ⟨62, _⟩ => ⟨S2048x1, .f32⟩
  | .hbm, ⟨63, _⟩ => ⟨S2048, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x1, .f32⟩
  | .hbm, ⟨68, _⟩ => ⟨S1x4096, .f32⟩
  | .hbm, ⟨69, _⟩ => ⟨S1x4096, .f32⟩
  | .hbm, ⟨70, _⟩ => ⟨S1x4096, .f32⟩
  | .hbm, ⟨71, _⟩ => ⟨S2048x2, .f32⟩
  | .hbm, ⟨72, _⟩ => ⟨S4096x2, .f32⟩
  | .hbm, ⟨73, _⟩ => ⟨S4096x2, .f32⟩
  | .hbm, ⟨74, _⟩ => ⟨S2048x2, .f32⟩
  | .hbm, ⟨75, _⟩ => ⟨S2048x2, .f32⟩
  | .hbm, ⟨76, _⟩ => ⟨S6144x2, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S128x2, .f32⟩
  | .local _ .vmem, ⟨10, _⟩ => ⟨S128x2, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S128x1, .f32⟩
  | .local _ .vmem, ⟨17, _⟩ => ⟨S128x1, .f32⟩
  | .local _ .vmem, ⟨18, _⟩ => ⟨S128x1, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S128x2, .f32⟩
  | .local _ .vmem, ⟨24, _⟩ => ⟨S128x2, .f32⟩
  | .local _ .vmem, ⟨25, _⟩ => ⟨S128x1, .f32⟩
  | .local _ .vmem, ⟨26, _⟩ => ⟨S128x1, .f32⟩
  | .local _ .vmem, ⟨27, _⟩ => ⟨S128x1, .f32⟩
  | .local _ .vmem, ⟨28, _⟩ => ⟨S128x1, .f32⟩
  | .local _ .vmem, ⟨29, _⟩ => ⟨S128x1, .f32⟩
  | .local _ .vmem, ⟨30, _⟩ => ⟨S128x1, .f32⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | .local _ .vmem, ⟨34, _⟩ => ⟨S1x2048, .f32⟩
  | .local _ .vmem, ⟨35, _⟩ => ⟨S128x2, .f32⟩
  | .local _ .vmem, ⟨36, _⟩ => ⟨S128x2, .f32⟩
  | .local _ .vmem, ⟨37, _⟩ => ⟨S128x1, .f32⟩
  | .local _ .vmem, ⟨38, _⟩ => ⟨S128x1, .f32⟩
  | .local _ .vmem, ⟨39, _⟩ => ⟨S128x1, .f32⟩
  | .local _ .vmem, ⟨40, _⟩ => ⟨S128x1, .f32⟩
  | .local _ .vmem, ⟨41, _⟩ => ⟨S128x1, .f32⟩
  | .local _ .vmem, ⟨42, _⟩ => ⟨S128x1, .f32⟩
  | .local _ .vmem, ⟨43, _⟩ => ⟨S128x1, .f32⟩
  | .local _ .vmem, ⟨44, _⟩ => ⟨S128x1, .f32⟩
  | .local _ .vmem, ⟨45, _⟩ => ⟨S1x4096, .f32⟩
  | .local _ .vmem, ⟨46, _⟩ => ⟨S1x4096, .f32⟩
  | .local _ .vmem, ⟨47, _⟩ => ⟨S1x4096, .f32⟩
  | .local _ .vmem, ⟨48, _⟩ => ⟨S128x2, .f32⟩
  | .local _ .vmem, ⟨49, _⟩ => ⟨S128x2, .f32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg7_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem7_1 : DmaSem sig := 49

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x4096 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x4096 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x4096 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S128x2 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  shapeCasts_S4096_S4096x1 : S4096.ShapeCasts S4096x1
  shapeCasts_S4096_S1x4096 : S4096.ShapeCasts S1x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  reduces_S128x4096_S128 : S128x4096.Reduces [1] S128
  shapeCasts_S128_S128x1 : S128.ShapeCasts S128x1
  concatenates_S128x1_S128x1_S128x2_d1 : Shape.Concatenates [S128x1, S128x1] S128x2 1
  inb_S128x2_S128x2_0_0 : ∀ a, (![0, 0] : Fin 2 → Nat) a + S128x2.size a ≤ S128x2.size a
  h_S128x2 : 0 < S128x2.numel
  slices_S2048x2_S2048x1_0_0 : S2048x2.Slices ![0, 0] S2048x1
  shapeCasts_S2048x1_S2048 : S2048x1.ShapeCasts S2048
  slices_S2048x2_S2048x1_0_1 : S2048x2.Slices ![0, 1] S2048x1
  shapeCasts_S2048_S2048x1 : S2048.ShapeCasts S2048x1
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S128x1_S128x2048 : S128x1.Broadcasts S128x2048
  broadcasts_S1x2048_S128x2048 : S1x2048.Broadcasts S128x2048
  iota_S128x1_d0_w32 : S128x1.Iotas .tc 32 [0]
  iota_S1x2048_d1_w32 : S1x2048.Iotas .tc 32 [1]
  reduces_S128x2048_S128 : S128x2048.Reduces [1] S128
  concatenates_S4096x2_S2048x2_S6144x2_d0 : Shape.Concatenates [S4096x2, S2048x2] S6144x2 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S4096x1.size a
  hwx0_0 : ∀ i : grid0.Coords, EltTy.bits .f32 = 32 ∨ (Rect.block (s := S4096x1) S128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .f32 = 32 ∨ (Rect.block (s := S4096x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2.size a ≤ S4096x2.size a
  hwx0_6 : ∀ i : grid0.Coords, EltTy.bits .f32 = 32 ∨ (Rect.block (s := S4096x2) S128x2.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1.size a ≤ S2048x1.size a
  hwx1_0 : ∀ i : grid1.Coords, EltTy.bits .f32 = 32 ∨ (Rect.block (s := S2048x1) S128x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S2048x1.size a
  hwx1_1 : ∀ i : grid1.Coords, EltTy.bits .f32 = 32 ∨ (Rect.block (s := S2048x1) S128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S2048x1.size a
  hwx1_2 : ∀ i : grid1.Coords, EltTy.bits .f32 = 32 ∨ (Rect.block (s := S2048x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S2048x1.size a
  hwx1_3 : ∀ i : grid1.Coords, EltTy.bits .f32 = 32 ∨ (Rect.block (s := S2048x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .f32 = 32 ∨ (Rect.block (s := S1x2048) S1x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x2.size a ≤ S2048x2.size a
  hwx1_8 : ∀ i : grid1.Coords, EltTy.bits .f32 = 32 ∨ (Rect.block (s := S2048x2) S128x2.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x1.size a ≤ S4096x1.size a
  hwx2_0 : ∀ i : grid2.Coords, EltTy.bits .f32 = 32 ∨ (Rect.block (s := S4096x1) S128x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S4096x1.size a
  hwx2_1 : ∀ i : grid2.Coords, EltTy.bits .f32 = 32 ∨ (Rect.block (s := S4096x1) S128x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S4096x1.size a
  hwx2_2 : ∀ i : grid2.Coords, EltTy.bits .f32 = 32 ∨ (Rect.block (s := S4096x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2048.size a ≤ S1x2048.size a
  hwx2_5 : ∀ i : grid2.Coords, EltTy.bits .f32 = 32 ∨ (Rect.block (s := S1x2048) S1x2048.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x2.size a ≤ S4096x2.size a
  hwx2_7 : ∀ i : grid2.Coords, EltTy.bits .f32 = 32 ∨ (Rect.block (s := S4096x2) S128x2.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x1.size a ≤ S2048x1.size a
  hwx3_0 : ∀ i : grid3.Coords, EltTy.bits .f32 = 32 ∨ (Rect.block (s := S2048x1) S128x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S2048x1.size a
  hwx3_1 : ∀ i : grid3.Coords, EltTy.bits .f32 = 32 ∨ (Rect.block (s := S2048x1) S128x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S2048x1.size a
  hwx3_2 : ∀ i : grid3.Coords, EltTy.bits .f32 = 32 ∨ (Rect.block (s := S2048x1) S128x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S2048x1.size a
  hwx3_3 : ∀ i : grid3.Coords, EltTy.bits .f32 = 32 ∨ (Rect.block (s := S2048x1) S128x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x4096.size a ≤ S1x4096.size a
  hwx3_4 : ∀ i : grid3.Coords, EltTy.bits .f32 = 32 ∨ (Rect.block (s := S1x4096) S1x4096.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x4096.size a ≤ S1x4096.size a
  hwx3_5 : ∀ i : grid3.Coords, EltTy.bits .f32 = 32 ∨ (Rect.block (s := S1x4096) S1x4096.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x4096.size a ≤ S1x4096.size a
  hwx3_6 : ∀ i : grid3.Coords, EltTy.bits .f32 = 32 ∨ (Rect.block (s := S1x4096) S1x4096.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S128x2.size a ≤ S2048x2.size a
  hwx3_7 : ∀ i : grid3.Coords, EltTy.bits .f32 = 32 ∨ (Rect.block (s := S2048x2) S128x2.size (cc3_transform_7 i) (hinb3_7 i)).WholeWords (EltTy.packing .f32)

variable [Facts₀]

abbrev win0_0 : Pipeline.Window sig grid0 :=
  Pipeline.Window.ofSpec (Memref.whole main_v4) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S128x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S128x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S128x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v40) S128x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S128x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S128x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S128x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v60) S128x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S128x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S128x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S128x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x4096.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x4096.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x4096.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v67) S128x2.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S4096x2 : Shape := ⟨2, ![4096, 2]⟩
abbrev S4096 : Shape := ⟨1, ![4096]⟩
abbrev S2048x2 : Shape := ⟨2, ![2048, 2]⟩
abbrev S4096x1x2 : Shape := ⟨3, ![4096, 1, 2]⟩
abbrev S1x4096x2 : Shape := ⟨3, ![1, 4096, 2]⟩
abbrev S4096x4096x2 : Shape := ⟨3, ![4096, 4096, 2]⟩
abbrev S_ : Shape := ⟨0, ![]⟩
abbrev S4096x4096 : Shape := ⟨2, ![4096, 4096]⟩
abbrev S4096x1 : Shape := ⟨2, ![4096, 1]⟩
abbrev S1x4096 : Shape := ⟨2, ![1, 4096]⟩
abbrev S4096x4096x1 : Shape := ⟨3, ![4096, 4096, 1]⟩
abbrev S2048x1x2 : Shape := ⟨3, ![2048, 1, 2]⟩
abbrev S1x2048x2 : Shape := ⟨3, ![1, 2048, 2]⟩
abbrev S2048x2048x2 : Shape := ⟨3, ![2048, 2048, 2]⟩
abbrev S2048x2048 : Shape := ⟨2, ![2048, 2048]⟩
abbrev S2048x2048x1 : Shape := ⟨3, ![2048, 2048, 1]⟩
abbrev S4096x2048x2 : Shape := ⟨3, ![4096, 2048, 2]⟩
abbrev S4096x2048 : Shape := ⟨2, ![4096, 2048]⟩
abbrev S4096x2048x1 : Shape := ⟨3, ![4096, 2048, 1]⟩
abbrev S6144x2 : Shape := ⟨2, ![6144, 2]⟩

abbrev nBuf : Space → Nat
  | .hbm => 200
  | .vmem => 0
  | .smem => 0
  | _ => 0

abbrev hbmTy0_0 (i : Nat) : BufTy := match i % 128 with
  | 0 => ⟨S4096x2, .f32⟩
  | 1 => ⟨S4096, .f32⟩
  | 2 => ⟨S2048x2, .f32⟩
  | 3 => ⟨S2048x2, .f32⟩
  | 4 => ⟨S4096x1x2, .f32⟩
  | 5 => ⟨S1x4096x2, .f32⟩
  | 6 => ⟨S4096x4096x2, .f32⟩
  | 7 => ⟨S4096x4096x2, .f32⟩
  | 8 => ⟨S4096x4096x2, .f32⟩
  | 9 => ⟨S4096x4096x2, .f32⟩
  | 10 => ⟨S_, .f32⟩
  | 11 => ⟨S4096x4096, .f32⟩
  | 12 => ⟨S4096x4096, .i32⟩
  | 13 => ⟨S4096x4096, .i32⟩
  | 14 => ⟨S_, .i32⟩
  | 15 => ⟨S4096x4096, .i32⟩
  | 16 => ⟨S4096x4096, .i32⟩
  | 17 => ⟨S4096x4096, .i1⟩
  | 18 => ⟨S4096x4096, .i1⟩
  | 19 => ⟨S_, .f32⟩
  | 20 => ⟨S4096x4096, .f32⟩
  | 21 => ⟨S4096x4096, .i1⟩
  | 22 => ⟨S_, .f32⟩
  | 23 => ⟨S_, .f32⟩
  | 24 => ⟨S4096x4096, .f32⟩
  | 25 => ⟨S4096x4096, .f32⟩
  | 26 => ⟨S4096x4096, .f32⟩
  | 27 => ⟨S4096x1, .f32⟩
  | 28 => ⟨S1x4096, .f32⟩
  | 29 => ⟨S4096x4096, .f32⟩
  | 30 => ⟨S4096x4096, .f32⟩
  | 31 => ⟨S4096x4096, .f32⟩
  | 32 => ⟨S4096x4096, .f32⟩
  | 33 => ⟨S_, .f32⟩
  | 34 => ⟨S4096x4096, .f32⟩
  | 35 => ⟨S4096x4096, .i1⟩
  | 36 => ⟨S4096x4096, .i1⟩
  | 37 => ⟨S_, .f32⟩
  | 38 => ⟨S4096x4096, .f32⟩
  | 39 => ⟨S4096x4096, .i1⟩
  | 40 => ⟨S4096x4096, .i1⟩
  | 41 => ⟨S4096x4096x1, .f32⟩
  | 42 => ⟨S4096x4096x2, .f32⟩
  | 43 => ⟨S4096x4096x2, .f32⟩
  | 44 => ⟨S4096x4096x1, .i1⟩
  | 45 => ⟨S4096x4096x1, .f32⟩
  | 46 => ⟨S_, .f32⟩
  | 47 => ⟨S4096x4096x1, .f32⟩
  | 48 => ⟨S4096x4096x1, .f32⟩
  | 49 => ⟨S4096x4096x2, .f32⟩
  | 50 => ⟨S4096x4096x2, .f32⟩
  | 51 => ⟨S_, .f32⟩
  | 52 => ⟨S_, .f32⟩
  | 53 => ⟨S4096x4096x2, .i1⟩
  | 54 => ⟨S4096x4096x2, .f32⟩
  | 55 => ⟨S4096x4096x2, .f32⟩
  | 56 => ⟨S_, .f32⟩
  | 57 => ⟨S4096x2, .f32⟩
  | 58 => ⟨S2048x1x2, .f32⟩
  | 59 => ⟨S1x2048x2, .f32⟩
  | 60 => ⟨S2048x2048x2, .f32⟩
  | 61 => ⟨S2048x2048x2, .f32⟩
  | 62 => ⟨S2048x2048x2, .f32⟩
  | 63 => ⟨S2048x1x2, .f32⟩
  | 64 => ⟨S1x2048x2, .f32⟩
  | 65 => ⟨S2048x2048x2, .f32⟩
  | 66 => ⟨S2048x2048x2, .f32⟩
  | 67 => ⟨S2048x2048x2, .f32⟩
  | 68 => ⟨S2048x2048x2, .f32⟩
  | 69 => ⟨S2048x2048x2, .f32⟩
  | 70 => ⟨S2048x2048, .i32⟩
  | 71 => ⟨S2048x2048, .i32⟩
  | 72 => ⟨S_, .i32⟩
  | 73 => ⟨S2048x2048, .i32⟩
  | 74 => ⟨S2048x2048, .i32⟩
  | 75 => ⟨S2048x2048, .i1⟩
  | 76 => ⟨S2048x2048, .i1⟩
  | 77 => ⟨S2048x2048x1, .f32⟩
  | 78 => ⟨S2048x2048, .f32⟩
  | 79 => ⟨S_, .f32⟩
  | 80 => ⟨S2048x2048, .f32⟩
  | 81 => ⟨S2048x2048, .i1⟩
  | 82 => ⟨S2048x2048, .i1⟩
  | 83 => ⟨S2048x2048x1, .f32⟩
  | 84 => ⟨S2048x2048, .f32⟩
  | 85 => ⟨S_, .f32⟩
  | 86 => ⟨S2048x2048, .f32⟩
  | 87 => ⟨S2048x2048, .i1⟩
  | 88 => ⟨S2048x2048, .i1⟩
  | 89 => ⟨S_, .f32⟩
  | 90 => ⟨S2048x2048x2, .f32⟩
  | 91 => ⟨S2048x2048x2, .i1⟩
  | 92 => ⟨S_, .f32⟩
  | 93 => ⟨S_, .f32⟩
  | 94 => ⟨S2048x2048x2, .f32⟩
  | 95 => ⟨S2048x2048x2, .f32⟩
  | 96 => ⟨S2048x2048x2, .f32⟩
  | 97 => ⟨S2048x2048x1, .f32⟩
  | 98 => ⟨S2048x2048, .f32⟩
  | 99 => ⟨S2048x2048x1, .f32⟩
  | 100 => ⟨S2048x2048, .f32⟩
  | 101 => ⟨S2048x2048, .i1⟩
  | 102 => ⟨S2048x2048x1, .f32⟩
  | 103 => ⟨S2048x2048, .f32⟩
  | 104 => ⟨S_, .f32⟩
  | 105 => ⟨S2048x2048, .f32⟩
  | 106 => ⟨S2048x2048x1, .f32⟩
  | 107 => ⟨S2048x2048, .f32⟩
  | 108 => ⟨S_, .f32⟩
  | 109 => ⟨S2048x2048, .f32⟩
  | 110 => ⟨S2048x2048, .f32⟩
  | 111 => ⟨S2048x2048x1, .f32⟩
  | 112 => ⟨S2048x2048, .f32⟩
  | 113 => ⟨S2048x2048, .f32⟩
  | 114 => ⟨S2048x2048, .f32⟩
  | 115 => ⟨S2048x2048x1, .f32⟩
  | 116 => ⟨S2048x2048x1, .f32⟩
  | 117 => ⟨S2048x2048x2, .f32⟩
  | 118 => ⟨S2048x2048x1, .f32⟩
  | 119 => ⟨S2048x2048, .f32⟩
  | 120 => ⟨S_, .f32⟩
  | 121 => ⟨S2048x2048, .f32⟩
  | 122 => ⟨S2048x2048, .f32⟩
  | 123 => ⟨S2048x2048x1, .f32⟩
  | 124 => ⟨S2048x2048, .f32⟩
  | 125 => ⟨S2048x2048, .f32⟩
  | 126 => ⟨S2048x2048, .f32⟩
  | 127 => ⟨S2048x2048x1, .f32⟩
  | _ => ⟨S4096x2, .f32⟩

abbrev hbmTy0_1 (i : Nat) : BufTy := match i % 128 with
  | 0 => ⟨S2048x2048x1, .f32⟩
  | 1 => ⟨S2048x2048x2, .f32⟩
  | 2 => ⟨S2048x2048x1, .i1⟩
  | 3 => ⟨S2048x2048x2, .i1⟩
  | 4 => ⟨S2048x2048x2, .f32⟩
  | 5 => ⟨S2048x2048x1, .i1⟩
  | 6 => ⟨S_, .f32⟩
  | 7 => ⟨S_, .f32⟩
  | 8 => ⟨S2048x2048x2, .i1⟩
  | 9 => ⟨S2048x2048x2, .f32⟩
  | 10 => ⟨S2048x2048x2, .f32⟩
  | 11 => ⟨S_, .f32⟩
  | 12 => ⟨S2048x2, .f32⟩
  | 13 => ⟨S4096x1x2, .f32⟩
  | 14 => ⟨S1x2048x2, .f32⟩
  | 15 => ⟨S4096x2048x2, .f32⟩
  | 16 => ⟨S4096x2048x2, .f32⟩
  | 17 => ⟨S4096x2048x2, .f32⟩
  | 18 => ⟨S1x2048x2, .f32⟩
  | 19 => ⟨S1x2048x2, .f32⟩
  | 20 => ⟨S1x2048x2, .f32⟩
  | 21 => ⟨S4096x2048x2, .f32⟩
  | 22 => ⟨S4096x2048x2, .f32⟩
  | 23 => ⟨S4096x2048x2, .f32⟩
  | 24 => ⟨S4096x2048x2, .f32⟩
  | 25 => ⟨S4096x2048x2, .f32⟩
  | 26 => ⟨S4096x2048x2, .f32⟩
  | 27 => ⟨S_, .f32⟩
  | 28 => ⟨S4096x2048, .f32⟩
  | 29 => ⟨S_, .f32⟩
  | 30 => ⟨S4096x2048, .f32⟩
  | 31 => ⟨S4096x2048, .i1⟩
  | 32 => ⟨S_, .f32⟩
  | 33 => ⟨S_, .f32⟩
  | 34 => ⟨S4096x2048, .f32⟩
  | 35 => ⟨S4096x2048, .f32⟩
  | 36 => ⟨S4096x2048, .f32⟩
  | 37 => ⟨S4096x1, .f32⟩
  | 38 => ⟨S4096x2048, .f32⟩
  | 39 => ⟨S4096x2048, .f32⟩
  | 40 => ⟨S_, .f32⟩
  | 41 => ⟨S4096x2048, .f32⟩
  | 42 => ⟨S4096x2048, .i1⟩
  | 43 => ⟨S_, .f32⟩
  | 44 => ⟨S4096x2048, .f32⟩
  | 45 => ⟨S4096x2048, .i1⟩
  | 46 => ⟨S4096x2048, .i1⟩
  | 47 => ⟨S4096x2048x1, .f32⟩
  | 48 => ⟨S4096x2048x2, .f32⟩
  | 49 => ⟨S4096x2048x2, .f32⟩
  | 50 => ⟨S4096x2048x1, .i1⟩
  | 51 => ⟨S4096x2048x1, .f32⟩
  | 52 => ⟨S_, .f32⟩
  | 53 => ⟨S4096x2048x1, .f32⟩
  | 54 => ⟨S4096x2048x1, .f32⟩
  | 55 => ⟨S4096x2048x2, .f32⟩
  | 56 => ⟨S4096x2048x2, .f32⟩
  | 57 => ⟨S_, .f32⟩
  | 58 => ⟨S_, .f32⟩
  | 59 => ⟨S4096x2048x2, .i1⟩
  | 60 => ⟨S4096x2048x2, .f32⟩
  | 61 => ⟨S4096x2048x2, .f32⟩
  | 62 => ⟨S_, .f32⟩
  | 63 => ⟨S4096x2, .f32⟩
  | 64 => ⟨S_, .f32⟩
  | 65 => ⟨S2048x2, .f32⟩
  | 66 => ⟨S2048x2, .f32⟩
  | 67 => ⟨S4096x2, .f32⟩
  | 68 => ⟨S4096x2, .f32⟩
  | 69 => ⟨S2048x2, .f32⟩
  | 70 => ⟨S2048x2, .f32⟩
  | 71 => ⟨S6144x2, .f32⟩
  | _ => ⟨S4096x2, .f32⟩

abbrev hbmTy (i : Nat) : BufTy := match i / 128 with
  | 0 => hbmTy0_0 i
  | 1 => hbmTy0_1 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_15 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_call3_v0 : Ref sig .tc := ⟨.hbm, 131, rfl⟩
abbrev main_v102 : Ref sig .tc := ⟨.hbm, 132, rfl⟩
abbrev main_v103 : Ref sig .tc := ⟨.hbm, 133, rfl⟩
abbrev main_cst_16 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v104 : Ref sig .tc := ⟨.hbm, 138, rfl⟩
abbrev main_cst_17 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_18 : Ref sig .tc := ⟨.hbm, 155, rfl⟩
abbrev main_v117 : Ref sig .tc := ⟨.hbm, 156, rfl⟩
abbrev main_cst_19 : Ref sig .tc := ⟨.hbm, 157, rfl⟩
abbrev main_v118 : Ref sig .tc := ⟨.hbm, 158, rfl⟩
abbrev main_v119 : Ref sig .tc := ⟨.hbm, 159, rfl⟩
abbrev main_cst_20 : Ref sig .tc := ⟨.hbm, 160, rfl⟩
abbrev main_call6_v0 : Ref sig .tc := ⟨.hbm, 161, rfl⟩
abbrev main_call6_v1 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_21 : Ref sig .tc := ⟨.hbm, 168, rfl⟩
abbrev main_v125 : Ref sig .tc := ⟨.hbm, 169, rfl⟩
abbrev main_v126 : Ref sig .tc := ⟨.hbm, 170, rfl⟩
abbrev main_cst_22 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_23 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_24 : Ref sig .tc := ⟨.hbm, 185, rfl⟩
abbrev main_call7_v0 : Ref sig .tc := ⟨.hbm, 186, rfl⟩
abbrev main_call7_v1 : Ref sig .tc := ⟨.hbm, 187, rfl⟩
abbrev main_call7_v2 : Ref sig .tc := ⟨.hbm, 188, rfl⟩
abbrev main_v139 : Ref sig .tc := ⟨.hbm, 189, rfl⟩
abbrev main_cst_25 : Ref sig .tc := ⟨.hbm, 190, rfl⟩
abbrev main_v140 : Ref sig .tc := ⟨.hbm, 191, rfl⟩
abbrev main_cst_26 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩

abbrev nD : Nat := 1
abbrev τ : Topo := Topo.v7x

variable {F : FTy → Type} [FloatOps F]

class Facts₀ : Prop where
  bcast_S4096x2_S4096x1x2_0_2 : S4096x2.BroadcastsInDim S4096x1x2 (![0, 2] : Fin 2 → Fin S4096x1x2.rank)
  bcast_S4096x2_S1x4096x2_1_2 : S4096x2.BroadcastsInDim S1x4096x2 (![1, 2] : Fin 2 → Fin S1x4096x2.rank)
  bcast_S4096x1x2_S4096x4096x2_0_1_2 : S4096x1x2.BroadcastsInDim S4096x4096x2 (![0, 1, 2] : Fin 3 → Fin S4096x4096x2.rank)
  bcast_S1x4096x2_S4096x4096x2_0_1_2 : S1x4096x2.BroadcastsInDim S4096x4096x2 (![0, 1, 2] : Fin 3 → Fin S4096x4096x2.rank)
  reducesTo_S4096x4096x2_S4096x4096_d2 : S4096x4096x2.ReducesTo [2] S4096x4096
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4096x4096_S4096x4096x1_0_1 : S4096x4096.BroadcastsInDim S4096x4096x1 (![0, 1] : Fin 2 → Fin S4096x4096x1.rank)
  bcast_S4096x4096x1_S4096x4096x2_0_1_2 : S4096x4096x1.BroadcastsInDim S4096x4096x2 (![0, 1, 2] : Fin 3 → Fin S4096x4096x2.rank)
  bcast_S_S4096x4096x1 : S_.BroadcastsInDim S4096x4096x1 (![] : Fin 0 → Fin S4096x4096x1.rank)
  bcast_S_S4096x4096x2 : S_.BroadcastsInDim S4096x4096x2 (![] : Fin 0 → Fin S4096x4096x2.rank)
  reducesTo_S4096x4096x2_S4096x2_d1 : S4096x4096x2.ReducesTo [1] S4096x2
  bcast_S2048x2_S2048x1x2_0_2 : S2048x2.BroadcastsInDim S2048x1x2 (![0, 2] : Fin 2 → Fin S2048x1x2.rank)
  bcast_S2048x2_S1x2048x2_1_2 : S2048x2.BroadcastsInDim S1x2048x2 (![1, 2] : Fin 2 → Fin S1x2048x2.rank)
  bcast_S2048x1x2_S2048x2048x2_0_1_2 : S2048x1x2.BroadcastsInDim S2048x2048x2 (![0, 1, 2] : Fin 3 → Fin S2048x2048x2.rank)
  bcast_S1x2048x2_S2048x2048x2_0_1_2 : S1x2048x2.BroadcastsInDim S2048x2048x2 (![0, 1, 2] : Fin 3 → Fin S2048x2048x2.rank)
  bcast_S_S2048x2048 : S_.BroadcastsInDim S2048x2048 (![] : Fin 0 → Fin S2048x2048.rank)
  slices_S2048x2048x2_S2048x2048x1_0_0_0 : S2048x2048x2.Slices ![0, 0, 0] S2048x2048x1
  shapeCasts_S2048x2048x1_S2048x2048 : S2048x2048x1.ShapeCasts S2048x2048
  slices_S2048x2048x2_S2048x2048x1_0_0_1 : S2048x2048x2.Slices ![0, 0, 1] S2048x2048x1
  bcast_S_S2048x2048x2 : S_.BroadcastsInDim S2048x2048x2 (![] : Fin 0 → Fin S2048x2048x2.rank)
  bcast_S2048x2048_S2048x2048x1_0_1 : S2048x2048.BroadcastsInDim S2048x2048x1 (![0, 1] : Fin 2 → Fin S2048x2048x1.rank)
  concatenates_S2048x2048x1_S2048x2048x1_S2048x2048x2_d2 : Shape.Concatenates [S2048x2048x1, S2048x2048x1] S2048x2048x2 2
  bcast_S2048x2048x1_S2048x2048x2_0_1_2 : S2048x2048x1.BroadcastsInDim S2048x2048x2 (![0, 1, 2] : Fin 3 → Fin S2048x2048x2.rank)
  reducesTo_S2048x2048x2_S2048x2_d1 : S2048x2048x2.ReducesTo [1] S2048x2
  bcast_S4096x1x2_S4096x2048x2_0_1_2 : S4096x1x2.BroadcastsInDim S4096x2048x2 (![0, 1, 2] : Fin 3 → Fin S4096x2048x2.rank)
  bcast_S1x2048x2_S4096x2048x2_0_1_2 : S1x2048x2.BroadcastsInDim S4096x2048x2 (![0, 1, 2] : Fin 3 → Fin S4096x2048x2.rank)
  reducesTo_S4096x2048x2_S4096x2048_d2 : S4096x2048x2.ReducesTo [2] S4096x2048
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  bcast_S4096x2048_S4096x2048x1_0_1 : S4096x2048.BroadcastsInDim S4096x2048x1 (![0, 1] : Fin 2 → Fin S4096x2048x1.rank)
  bcast_S4096x2048x1_S4096x2048x2_0_1_2 : S4096x2048x1.BroadcastsInDim S4096x2048x2 (![0, 1, 2] : Fin 3 → Fin S4096x2048x2.rank)
  bcast_S_S4096x2048x1 : S_.BroadcastsInDim S4096x2048x1 (![] : Fin 0 → Fin S4096x2048x1.rank)
  bcast_S_S4096x2048x2 : S_.BroadcastsInDim S4096x2048x2 (![] : Fin 0 → Fin S4096x2048x2.rank)
  reducesTo_S4096x2048x2_S4096x2_d1 : S4096x2048x2.ReducesTo [1] S4096x2
  reducesTo_S4096x2048x2_S2048x2_d0 : S4096x2048x2.ReducesTo [0] S2048x2
  concatenates_S4096x2_S2048x2_S6144x2_d0 : Shape.Concatenates [S4096x2, S2048x2] S6144x2 0

variable [Facts₀]

class Facts : Prop extends Facts₀ where

variable [Facts]
-- ==== Proof.Spec.lean ====
/-
  The collision step's arithmetic, as functions of extended reals, with no program in sight.

  A PAIR is a body of the kept axis (index `p`) against a body of the scanned axis (index `a`). For a pair at offset
  `(dx, dy)` with squared length `d² = dx² + dy²` and REACH `s` (two radii summed, or one radius), the step takes
  `dist = √(d² if d² > ε else 1)`, the penetration `s − dist`, and pushes by half the penetration along the unit
  offset where `d² > ε` and the penetration is positive, and by nothing elsewhere. Two box bodies overlap by
  `ov = (hᵢ + hₐ) − |d|` on each axis and are pushed along the axis of least overlap by half of it, signed by the offset.

  Each quantity is written twice, in the two groupings the two programs use, because on the extended reals the groupings
  are different terms: the tiled program multiplies the selected coefficient by the unit offset, `select(hit, ½·pen, 0) ·
  (d / dist)`, writes a negation as `0 − x`, and has no diagonal mask in the circle–circle term; the array program
  selects the product, `select(hit, (½·pen) · (d / dist), 0)`, writes `−x`, starts every sum from the zero word's value,
  and masks the diagonal. `Algebra.lean` proves the two readings equal (the diagonal needs finite positions).
-/
import Idealize.ShloMosaic.PureOps.Ideal
import Idealize.ShloMosaic.PureOps.Ideal.Laws
import Idealize.ShloMosaic.Lib.ValueIdx

noncomputable section

namespace Cert.Collide

open Idealize.ShloMosaic Idealize.ShloMosaic.ValueIdx

/-! ## Arrays -/

/-- An `[n, k]` array of extended reals. -/
abbrev Arr (n k : Nat) : Type := FVec Ideal ⟨2, ![n, k]⟩ .f32
/-- A length-`n` array of extended reals. -/
abbrev Arr1 (n : Nat) : Type := FVec Ideal ⟨1, ![n]⟩ .f32

/-- Coordinate `k` of every row of an `[n, 2]` array, as a column `[n, 1]`. -/
def colOf {n : Nat} (P : Arr n 2) (k : Fin 2) : Arr n 1 := fun j => P (ix2 (j 0) k)
/-- Coordinate `k` of every row of an `[n, 2]` array, as a row `[1, n]`. -/
def rowOf {n : Nat} (P : Arr n 2) (k : Fin 2) : Arr 1 n := fun j => P (ix2 (j 1) k)
/-- A length-`n` array as a column `[n, 1]`. -/
def colOf1 {n : Nat} (R : Arr1 n) : Arr n 1 := fun j => R (ix1 (j 0))
/-- A length-`n` array as a row `[1, n]`. -/
def rowOf1 {n : Nat} (R : Arr1 n) : Arr 1 n := fun j => R (ix1 (j 1))

/-! ## The five constants, each the value of its word -/

/-- The threshold on a squared distance: the value of the word both programs carry for `1e-9`. -/
def ε : EReal := Ideal.ofBits .f32 0x3089705F#32
def c1 : EReal := Ideal.ofBits .f32 0x3F800000#32
def ch : EReal := Ideal.ofBits .f32 0x3F000000#32
def c0 : EReal := Ideal.ofBits .f32 0x00000000#32
def cm1 : EReal := Ideal.ofBits .f32 0xBF800000#32

/-- `x > y`, `x ≥ y`, `x ≤ y` as one-bit words. -/
def gt (x y : EReal) : BitVec 1 := Ideal.cmp .ogt x y
def ge (x y : EReal) : BitVec 1 := Ideal.cmp .oge x y
def le (x y : EReal) : BitVec 1 := Ideal.cmp .ole x y

/-- The off-diagonal mask: one unless the two indices are the same number. -/
def offdiag (p a : Nat) : BitVec 1 := if p = a then 0#1 else 1#1

/-! ## A pair that is pushed along its offset (circle–circle, circle–box) -/

/-- The distance a squared offset gives: its root where it exceeds `ε`, else the root of one. -/
def dist (d2 : EReal) : EReal := Ideal.sqrt (Scalar.select (gt d2 ε) d2 c1)
/-- The penetration of a pair of reach `s`. -/
def pen (d2 s : EReal) : EReal := s - dist d2
/-- The pair is pushed: apart by more than `ε` squared, and penetrating. -/
def hit (d2 s : EReal) : BitVec 1 := IntOp.andi (gt d2 ε) (gt (pen d2 s) c0)
/-- Half the penetration where the pair is pushed, else zero. -/
def coef (d2 s : EReal) : EReal := Scalar.select (hit d2 s) (ch * pen d2 s) c0

/-- TILED reading. The push along the axis whose offset is `d`, of a pair at offset `(dx, dy)` and reach `s`:
    the selected coefficient times the unit offset. -/
def pushK (dx dy s d : EReal) : EReal := coef (dx * dx + dy * dy) s * Ideal.div d (dist (dx * dx + dy * dy))

/-- ARRAY reading. The squared length of an offset vector, summed from the zero word's value. -/
def d2R (D : Fin 2 → EReal) : EReal := c0 + ∑ k : Fin 2, D k * D k
/-- ARRAY reading. The push along axis `q` under the mask `od` (the off-diagonal bit, or one): the selected product. -/
def pushR (od : BitVec 1) (D : Fin 2 → EReal) (s : EReal) (q : Fin 2) : EReal :=
  Scalar.select (IntOp.andi (IntOp.andi od (gt (d2R D) ε)) (gt (pen (d2R D) s) c0))
    ((ch * pen (d2R D) s) * Ideal.div (D q) (dist (d2R D))) c0
/-- ARRAY reading without a diagonal mask (circle–box). -/
def pushR' (D : Fin 2 → EReal) (s : EReal) (q : Fin 2) : EReal :=
  Scalar.select (IntOp.andi (gt (d2R D) ε) (gt (pen (d2R D) s) c0))
    ((ch * pen (d2R D) s) * Ideal.div (D q) (dist (d2R D))) c0

/-! ## Two boxes -/

/-- The overlap on one axis of two boxes of half-extents `hp`, `ha` at offset `d`. -/
def ov (hp ha d : EReal) : EReal := (hp + ha) - FloatOps.absf (F := Ideal) (φ := .f32) d
/-- The sign of an offset: one where it is at least zero, else minus one. -/
def sgn (d : EReal) : EReal := Scalar.select (ge d c0) c1 cm1
/-- The boxes are pushed: off the diagonal and overlapping on both axes. -/
def boxHit (od : BitVec 1) (ovx ovy : EReal) : BitVec 1 := IntOp.andi (IntOp.andi od (gt ovx c0)) (gt ovy c0)
/-- The push along x: half the x overlap, signed, where x is the axis of least overlap. -/
def boxX (od : BitVec 1) (dx dy ovx ovy : EReal) : EReal :=
  Scalar.select (boxHit od ovx ovy) (Scalar.select (le ovx ovy) ((ch * ovx) * sgn dx) c0) c0
/-- The push along y: half the y overlap, signed, where y is. -/
def boxY (od : BitVec 1) (dx dy ovx ovy : EReal) : EReal :=
  Scalar.select (boxHit od ovx ovy) (Scalar.select (le ovx ovy) c0 ((ch * ovy) * sgn dy)) c0

/-! ## A circle against a box: the offset from the box's closest point -/

/-- TILED reading: the offset `rel` clamped to `[0 − h, h]`, taken off it. -/
def diffK (rel h : EReal) : EReal := rel - min h (max (c0 - h) rel)
/-- ARRAY reading: the offset `rel` clamped to `[−h, h]`, taken off it. -/
def diffR (rel h : EReal) : EReal := rel - min h (max (-h) rel)

/-! ## The four corrections, TILED reading: over columns `[n, 1]` and rows `[1, n]` -/

/-- Circle `p` against every circle: columns `x y r` of the kept circles, rows of all. -/
def ccK (xc yc rc : Arr 4096 1) (xr yr rr : Arr 1 4096) (p : Fin 4096) (q : Fin 2) : EReal :=
  if q.val = 0 then
    ∑ a : Fin 4096, pushK (xc (ix2 p 0) - xr (ix2 0 a)) (yc (ix2 p 0) - yr (ix2 0 a)) (rc (ix2 p 0) + rr (ix2 0 a)) (xc (ix2 p 0) - xr (ix2 0 a))
  else
    ∑ a : Fin 4096, pushK (xc (ix2 p 0) - xr (ix2 0 a)) (yc (ix2 p 0) - yr (ix2 0 a)) (rc (ix2 p 0) + rr (ix2 0 a)) (yc (ix2 p 0) - yr (ix2 0 a))

/-- Box `p` against every other box: columns `x y hx hy` of the kept boxes, rows of all. -/
def aaK (xc yc hxc hyc : Arr 2048 1) (xr yr hxr hyr : Arr 1 2048) (p : Fin 2048) (q : Fin 2) : EReal :=
  if q.val = 0 then
    ∑ a : Fin 2048, boxX (offdiag p.val a.val) (xc (ix2 p 0) - xr (ix2 0 a)) (yc (ix2 p 0) - yr (ix2 0 a))
      (ov (hxc (ix2 p 0)) (hxr (ix2 0 a)) (xc (ix2 p 0) - xr (ix2 0 a))) (ov (hyc (ix2 p 0)) (hyr (ix2 0 a)) (yc (ix2 p 0) - yr (ix2 0 a)))
  else
    ∑ a : Fin 2048, boxY (offdiag p.val a.val) (xc (ix2 p 0) - xr (ix2 0 a)) (yc (ix2 p 0) - yr (ix2 0 a))
      (ov (hxc (ix2 p 0)) (hxr (ix2 0 a)) (xc (ix2 p 0) - xr (ix2 0 a))) (ov (hyc (ix2 p 0)) (hyr (ix2 0 a)) (yc (ix2 p 0) - yr (ix2 0 a)))

/-- Circle `p` against every box: columns `x y r` of the kept circles, rows `x y hx hy` of the boxes. -/
def cacK (xc yc rc : Arr 4096 1) (xr yr hxr hyr : Arr 1 2048) (p : Fin 4096) (q : Fin 2) : EReal :=
  if q.val = 0 then
    ∑ a : Fin 2048, pushK (diffK (xc (ix2 p 0) - xr (ix2 0 a)) (hxr (ix2 0 a))) (diffK (yc (ix2 p 0) - yr (ix2 0 a)) (hyr (ix2 0 a)))
      (rc (ix2 p 0)) (diffK (xc (ix2 p 0) - xr (ix2 0 a)) (hxr (ix2 0 a)))
  else
    ∑ a : Fin 2048, pushK (diffK (xc (ix2 p 0) - xr (ix2 0 a)) (hxr (ix2 0 a))) (diffK (yc (ix2 p 0) - yr (ix2 0 a)) (hyr (ix2 0 a)))
      (rc (ix2 p 0)) (diffK (yc (ix2 p 0) - yr (ix2 0 a)) (hyr (ix2 0 a)))

/-- Box `p` against every circle, the equal and opposite push: columns `x y hx hy` of the kept boxes, rows `x y r`
    of the circles; the offset is circle minus box, and the sum is taken off zero. -/
def caaK (xc yc hxc hyc : Arr 2048 1) (xr yr rr : Arr 1 4096) (p : Fin 2048) (q : Fin 2) : EReal :=
  if q.val = 0 then
    c0 - ∑ a : Fin 4096, pushK (diffK (xr (ix2 0 a) - xc (ix2 p 0)) (hxc (ix2 p 0))) (diffK (yr (ix2 0 a) - yc (ix2 p 0)) (hyc (ix2 p 0)))
      (rr (ix2 0 a)) (diffK (xr (ix2 0 a) - xc (ix2 p 0)) (hxc (ix2 p 0)))
  else
    c0 - ∑ a : Fin 4096, pushK (diffK (xr (ix2 0 a) - xc (ix2 p 0)) (hxc (ix2 p 0))) (diffK (yr (ix2 0 a) - yc (ix2 p 0)) (hyc (ix2 p 0)))
      (rr (ix2 0 a)) (diffK (yr (ix2 0 a) - yc (ix2 p 0)) (hyc (ix2 p 0)))

/-! ## The four corrections, ARRAY reading: over positions `[n, 2]`, radii `[n]`, half-extents `[n, 2]` -/

/-- Circle `p` against every circle. -/
def ccR (P : Arr 4096 2) (R : Arr1 4096) (p : Fin 4096) (q : Fin 2) : EReal :=
  c0 + ∑ a : Fin 4096, pushR (offdiag p.val a.val) (fun k => P (ix2 p k) - P (ix2 a k)) (R (ix1 p) + R (ix1 a)) q

/-- Box `p` against every other box. -/
def aaR (A H : Arr 2048 2) (p : Fin 2048) (q : Fin 2) : EReal :=
  c0 + ∑ a : Fin 2048,
    (if q.val = 0 then boxX else boxY) (offdiag p.val a.val) (A (ix2 p 0) - A (ix2 a 0)) (A (ix2 p 1) - A (ix2 a 1))
      (ov (H (ix2 p 0)) (H (ix2 a 0)) (A (ix2 p 0) - A (ix2 a 0))) (ov (H (ix2 p 1)) (H (ix2 a 1)) (A (ix2 p 1) - A (ix2 a 1)))

/-- The circle–box push of circle `p` by box `a` along axis `q`. -/
def caTerm (P : Arr 4096 2) (R : Arr1 4096) (A H : Arr 2048 2) (p : Fin 4096) (a : Fin 2048) (q : Fin 2) : EReal :=
  pushR' (fun k => diffR (P (ix2 p k) - A (ix2 a k)) (H (ix2 a k))) (R (ix1 p)) q

/-- Circle `p` against every box. -/
def cacR (P : Arr 4096 2) (R : Arr1 4096) (A H : Arr 2048 2) (p : Fin 4096) (q : Fin 2) : EReal :=
  c0 + ∑ a : Fin 2048, caTerm P R A H p a q

/-- Box `a` against every circle: the equal and opposite push. -/
def caaR (P : Arr 4096 2) (R : Arr1 4096) (A H : Arr 2048 2) (a : Fin 2048) (q : Fin 2) : EReal :=
  -(c0 + ∑ p : Fin 4096, caTerm P R A H p a q)

/-! ## The step's result -/

/-- The new positions: circles then boxes, each its position plus its two corrections. -/
theorem hcat : Shape.Concatenates [(⟨2, ![4096, 2]⟩ : Shape), ⟨2, ![2048, 2]⟩] ⟨2, ![6144, 2]⟩ 0 := by decide

def result (P cc cac : Arr 4096 2) (A aa caa : Arr 2048 2) : Arr 6144 2 :=
  concatenate ⟨2, ![6144, 2]⟩ 0 [⟨⟨2, ![4096, 2]⟩, addf (addf P cc) cac⟩, ⟨⟨2, ![2048, 2]⟩, addf (addf A aa) caa⟩] hcat

end Cert.Collide

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KernelArgs.lean ====
/-
  Names for the four launch arrays of the tiled program on a core, at their literal shapes.
-/
import proofs.«173810_j58935541236175_1_alg».proof.Proof.KernelIdealFrame
import proofs.«173810_j58935541236175_1_alg».proof.Proof.Spec
import proofs.«173810_j58935541236175_1_alg».proof.Proof.LibRowwise

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Host

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Collide

variable (m : (ℓ : Loc nD τ sig) → Buf (Elt Ideal) ℓ) (ρ : Dev nD → PrngReg)

/-- The launch arrays on core `c`: circle positions, circle radii, box positions, box half-extents. -/
abbrev Pc (c : Dev nD) : Arr 4096 2 := m ((c : Thread nD τ).loc main_arg0)
abbrev Rc (c : Dev nD) : Arr1 4096 := m ((c : Thread nD τ).loc main_arg1)
abbrev Ab (c : Dev nD) : Arr 2048 2 := m ((c : Thread nD τ).loc main_arg2)
abbrev Hb (c : Dev nD) : Arr 2048 2 := m ((c : Thread nD τ).loc main_arg3)

end Cert.KernelIdeal.Host

end
-- ==== Proof.KernelCols01.lean ====
/-
  The window arrays of regions 0 and 1 as the regions find them, in terms of the launch arrays: each is a coordinate of a
  position or half-extent array (a unit slice, flattened, then cast to a column or a row), or the radius vector cast to a
  column or a row. No host operation and no region writes an argument, so the fold of boundary contents reads each
  argument back to the launch memory.
-/
import proofs.«173810_j58935541236175_1_alg».proof.Proof.KernelIdealFrame
import proofs.«173810_j58935541236175_1_alg».proof.Proof.Spec
import proofs.«173810_j58935541236175_1_alg».proof.Proof.LibRowwise
import proofs.«173810_j58935541236175_1_alg».proof.Proof.KernelArgs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Host

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Collide

/-! ## The four chains of layout operations, at any length

A unit slice of axis 1 of an `[n, 2]` array from offset `k` is the `[n, 1]` array of coordinate `k`; flattened it is the
length-`n` vector `p ↦ P (p, k)` (row-major position `p · 1 + 0 = p`); cast to `[n, 1]` it is read at `(p, 0)` (position
`p · 1 + 0`) and cast to `[1, n]` at `(0, p)` (position `0 · n + p`). -/

section Chains

variable {n : Nat}

/-- The flattened unit slice from offset `o = k` reads, at `p`, the array at `(p, k)`. -/
private theorem flat_apply (o : Nat) (k : Fin 2) (hk : k.val = o) (P : Arr n 2)
    (h1 : (⟨2, ![n, 2]⟩ : Shape).Slices ![0, o] ⟨2, ![n, 1]⟩)
    (h2 : (⟨2, ![n, 1]⟩ : Shape).ShapeCasts ⟨1, ![n]⟩) (p : Fin n) :
    shapeCast ⟨1, ![n]⟩ (extractStridedSlice ⟨2, ![n, 1]⟩ ![0, o] P h1) h2 (ix1 p) = P (ix2 p k) := by
  rw [shapeCast_apply _ h2 (ix1 p) (ix2 p (0 : Fin 1)) (by
    rw [Shape.rowMajor_val_two, Shape.rowMajor_val_one]
    show p.val * 1 + 0 = p.val
    omega)]
  exact slice2_axis1_apply o P h1 p 0 k (by rw [hk]; rfl)

/-- Coordinate `k` of an `[n, 2]` array, sliced out, flattened and cast to a column, is its column `k`. -/
private theorem col_chain (o : Nat) (k : Fin 2) (hk : k.val = o) (P : Arr n 2)
    (h1 : (⟨2, ![n, 2]⟩ : Shape).Slices ![0, o] ⟨2, ![n, 1]⟩)
    (h2 : (⟨2, ![n, 1]⟩ : Shape).ShapeCasts ⟨1, ![n]⟩)
    (h3 : (⟨1, ![n]⟩ : Shape).ShapeCasts ⟨2, ![n, 1]⟩) :
    shapeCast ⟨2, ![n, 1]⟩ (shapeCast ⟨1, ![n]⟩ (extractStridedSlice ⟨2, ![n, 1]⟩ ![0, o] P h1) h2) h3 = colOf P k := by
  funext j
  obtain ⟨p, u, rfl⟩ : ∃ (p : Fin n) (u : Fin 1), j = ix2 p u := ⟨j 0, j 1, eq_ix2 j⟩
  rw [Cert.Lib.Rowwise.column_apply, flat_apply o k hk P h1 h2 p]
  rfl

/-- Coordinate `k` of an `[n, 2]` array, sliced out, flattened and cast to a row, is its row `k`. -/
private theorem row_chain (o : Nat) (k : Fin 2) (hk : k.val = o) (P : Arr n 2)
    (h1 : (⟨2, ![n, 2]⟩ : Shape).Slices ![0, o] ⟨2, ![n, 1]⟩)
    (h2 : (⟨2, ![n, 1]⟩ : Shape).ShapeCasts ⟨1, ![n]⟩)
    (h3 : (⟨1, ![n]⟩ : Shape).ShapeCasts ⟨2, ![1, n]⟩) :
    shapeCast ⟨2, ![1, n]⟩ (shapeCast ⟨1, ![n]⟩ (extractStridedSlice ⟨2, ![n, 1]⟩ ![0, o] P h1) h2) h3 = rowOf P k := by
  funext j
  obtain ⟨u, p, rfl⟩ : ∃ (u : Fin 1) (p : Fin n), j = ix2 u p := ⟨j 0, j 1, eq_ix2 j⟩
  rw [shapeCast_a_1a_apply, flat_apply o k hk P h1 h2 p]
  rfl

/-- A length-`n` vector cast to `[n, 1]` is the vector as a column. -/
private theorem col1_chain (R : Arr1 n) (h : (⟨1, ![n]⟩ : Shape).ShapeCasts ⟨2, ![n, 1]⟩) :
    shapeCast ⟨2, ![n, 1]⟩ R h = colOf1 R := by
  funext j
  obtain ⟨p, u, rfl⟩ : ∃ (p : Fin n) (u : Fin 1), j = ix2 p u := ⟨j 0, j 1, eq_ix2 j⟩
  exact Cert.Lib.Rowwise.column_apply R h p u

/-- A length-`n` vector cast to `[1, n]` is the vector as a row. -/
private theorem row1_chain (R : Arr1 n) (h : (⟨1, ![n]⟩ : Shape).ShapeCasts ⟨2, ![1, n]⟩) :
    shapeCast ⟨2, ![1, n]⟩ R h = rowOf1 R := by
  funext j
  obtain ⟨u, p, rfl⟩ : ∃ (u : Fin 1) (p : Fin n), j = ix2 u p := ⟨j 0, j 1, eq_ix2 j⟩
  exact shapeCast_a_1a_apply R h u p

end Chains

variable (m : (ℓ : Loc nD τ sig) → Buf (Elt Ideal) ℓ) (ρ : Dev nD → PrngReg)

/-! ## The box arrays at region 0's exit

Region 0 stages neither box array and the first stretch of host operations writes neither, so at region 0's exit each
still holds its launch contents. -/

private theorem W2_arg2 (c : Dev nD) : W2 m ρ c (Proc.devRef .tc main_arg2) = Ab m c :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Ab m c := rfl

private theorem W2_arg3 (c : Dev nD) : W2 m ρ c (Proc.devRef .tc main_arg3) = Hb m c :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Hb m c := rfl

theorem V1_v4 (c : Dev nD) : V1 m ρ c main_v4 = colOf (Pc m c) 0 := by
  refine Eq.trans ?_ (col_chain 0 0 rfl (Pc m c) slices_S4096x2_S4096x1_0_0 shapeCasts_S4096x1_S4096 shapeCasts_S4096_S4096x1)
  show StableHlo.after hostOps0 (W0 m ρ c) (Proc.devRef .tc main_v4) = _
  after_results
  rfl

theorem V1_v5 (c : Dev nD) : V1 m ρ c main_v5 = colOf (Pc m c) 1 := by
  refine Eq.trans ?_ (col_chain 1 1 rfl (Pc m c) slices_S4096x2_S4096x1_0_1 shapeCasts_S4096x1_S4096 shapeCasts_S4096_S4096x1)
  show StableHlo.after hostOps0 (W0 m ρ c) (Proc.devRef .tc main_v5) = _
  after_results
  rfl

theorem V1_v6 (c : Dev nD) : V1 m ρ c main_v6 = colOf1 (Rc m c) := by
  refine Eq.trans ?_ (col1_chain (Rc m c) shapeCasts_S4096_S4096x1)
  show StableHlo.after hostOps0 (W0 m ρ c) (Proc.devRef .tc main_v6) = _
  after_results
  rfl

theorem V1_v7 (c : Dev nD) : V1 m ρ c main_v7 = rowOf (Pc m c) 0 := by
  refine Eq.trans ?_ (row_chain 0 0 rfl (Pc m c) slices_S4096x2_S4096x1_0_0 shapeCasts_S4096x1_S4096 shapeCasts_S4096_S1x4096)
  show StableHlo.after hostOps0 (W0 m ρ c) (Proc.devRef .tc main_v7) = _
  after_results
  rfl

theorem V1_v8 (c : Dev nD) : V1 m ρ c main_v8 = rowOf (Pc m c) 1 := by
  refine Eq.trans ?_ (row_chain 1 1 rfl (Pc m c) slices_S4096x2_S4096x1_0_1 shapeCasts_S4096x1_S4096 shapeCasts_S4096_S1x4096)
  show StableHlo.after hostOps0 (W0 m ρ c) (Proc.devRef .tc main_v8) = _
  after_results
  rfl

theorem V1_v9 (c : Dev nD) : V1 m ρ c main_v9 = rowOf1 (Rc m c) := by
  refine Eq.trans ?_ (row1_chain (Rc m c) shapeCasts_S4096_S1x4096)
  show StableHlo.after hostOps0 (W0 m ρ c) (Proc.devRef .tc main_v9) = _
  after_results
  rfl

theorem V3_v19 (c : Dev nD) : V3 m ρ c main_v19 = colOf (Ab m c) 0 := by
  refine Eq.trans ?_ (col_chain 0 0 rfl (Ab m c) slices_S2048x2_S2048x1_0_0 shapeCasts_S2048x1_S2048 shapeCasts_S2048_S2048x1)
  rw [← W2_arg2 m ρ c]
  show StableHlo.after hostOps1 (W2 m ρ c) (Proc.devRef .tc main_v19) = _
  after_results
  rfl

theorem V3_v20 (c : Dev nD) : V3 m ρ c main_v20 = colOf (Ab m c) 1 := by
  refine Eq.trans ?_ (col_chain 1 1 rfl (Ab m c) slices_S2048x2_S2048x1_0_1 shapeCasts_S2048x1_S2048 shapeCasts_S2048_S2048x1)
  rw [← W2_arg2 m ρ c]
  show StableHlo.after hostOps1 (W2 m ρ c) (Proc.devRef .tc main_v20) = _
  after_results
  rfl

theorem V3_v21 (c : Dev nD) : V3 m ρ c main_v21 = colOf (Hb m c) 0 := by
  refine Eq.trans ?_ (col_chain 0 0 rfl (Hb m c) slices_S2048x2_S2048x1_0_0 shapeCasts_S2048x1_S2048 shapeCasts_S2048_S2048x1)
  rw [← W2_arg3 m ρ c]
  show StableHlo.after hostOps1 (W2 m ρ c) (Proc.devRef .tc main_v21) = _
  after_results
  rfl

theorem V3_v22 (c : Dev nD) : V3 m ρ c main_v22 = colOf (Hb m c) 1 := by
  refine Eq.trans ?_ (col_chain 1 1 rfl (Hb m c) slices_S2048x2_S2048x1_0_1 shapeCasts_S2048x1_S2048 shapeCasts_S2048_S2048x1)
  rw [← W2_arg3 m ρ c]
  show StableHlo.after hostOps1 (W2 m ρ c) (Proc.devRef .tc main_v22) = _
  after_results
  rfl

theorem V3_v23 (c : Dev nD) : V3 m ρ c main_v23 = rowOf (Ab m c) 0 := by
  refine Eq.trans ?_ (row_chain 0 0 rfl (Ab m c) slices_S2048x2_S2048x1_0_0 shapeCasts_S2048x1_S2048 shapeCasts_S2048_S1x2048)
  rw [← W2_arg2 m ρ c]
  show StableHlo.after hostOps1 (W2 m ρ c) (Proc.devRef .tc main_v23) = _
  after_results
  rfl

theorem V3_v24 (c : Dev nD) : V3 m ρ c main_v24 = rowOf (Ab m c) 1 := by
  refine Eq.trans ?_ (row_chain 1 1 rfl (Ab m c) slices_S2048x2_S2048x1_0_1 shapeCasts_S2048x1_S2048 shapeCasts_S2048_S1x2048)
  rw [← W2_arg2 m ρ c]
  show StableHlo.after hostOps1 (W2 m ρ c) (Proc.devRef .tc main_v24) = _
  after_results
  rfl

theorem V3_v25 (c : Dev nD) : V3 m ρ c main_v25 = rowOf (Hb m c) 0 := by
  refine Eq.trans ?_ (row_chain 0 0 rfl (Hb m c) slices_S2048x2_S2048x1_0_0 shapeCasts_S2048x1_S2048 shapeCasts_S2048_S1x2048)
  rw [← W2_arg3 m ρ c]
  show StableHlo.after hostOps1 (W2 m ρ c) (Proc.devRef .tc main_v25) = _
  after_results
  rfl

theorem V3_v26 (c : Dev nD) : V3 m ρ c main_v26 = rowOf (Hb m c) 1 := by
  refine Eq.trans ?_ (row_chain 1 1 rfl (Hb m c) slices_S2048x2_S2048x1_0_1 shapeCasts_S2048x1_S2048 shapeCasts_S2048_S1x2048)
  rw [← W2_arg3 m ρ c]
  show StableHlo.after hostOps1 (W2 m ρ c) (Proc.devRef .tc main_v26) = _
  after_results
  rfl

end Cert.KernelIdeal.Host

end
-- ==== Proof.KernelCols23.lean ====
/-
  The window arrays of regions 2 and 3 as the regions find them, in terms of the launch arrays: each is a coordinate of a
  position or half-extent array (a unit slice, flattened, then cast to a column or a row), or the radius vector cast to a
  column or a row. No host operation and no region writes an argument, so the fold of boundary contents reads each
  argument back to the launch memory.
-/
import proofs.«173810_j58935541236175_1_alg».proof.Proof.KernelIdealFrame
import proofs.«173810_j58935541236175_1_alg».proof.Proof.Spec
import proofs.«173810_j58935541236175_1_alg».proof.Proof.LibRowwise
import proofs.«173810_j58935541236175_1_alg».proof.Proof.KernelArgs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Host

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Collide

/-! ## Chains of layout operations read at an index

Every window array of the two regions is one of four chains applied to a launch array: coordinate `k` of an `[n, 2]`
array cut out as `[n, 1]`, flattened to `[n]`, and cast to a column `[n, 1]` or to a row `[1, n]`; or a length-`n`
vector cast to a column or to a row. A cast keeps the row-major position, and on a unit axis the coordinate is `0`, so
each chain read at `(p, u)` (a column) or `(u, p)` (a row) is the source at row `p`. -/

section Chains

variable {n : Nat} {α : Type}

/-- A length-`n` vector cast to a row reads, at `(u, p)`, the vector at `p`. -/
private theorem rowVec_apply (v : (⟨1, ![n]⟩ : Shape).Idx → α) (h : (⟨1, ![n]⟩ : Shape).ShapeCasts ⟨2, ![1, n]⟩)
    (u : Fin 1) (p : Fin n) : shapeCast ⟨2, ![1, n]⟩ v h (ix2 u p) = v (ix1 p) := by
  refine shapeCast_apply v h (ix2 u p) (ix1 p) ?_
  rw [Shape.rowMajor_val_one, Shape.rowMajor_val_two]
  have hu : u.val = 0 := by omega
  show p.val = u.val * n + p.val
  rw [hu, Nat.zero_mul, Nat.zero_add]

/-- Coordinate `k` of an `[n, 2]` array, cut out as `[n, 1]` and flattened, reads at `p` the array at `(p, k)`. -/
private theorem flatCoord_apply (o : Nat) (k : Fin 2) (hk : k.val = o) (X : (⟨2, ![n, 2]⟩ : Shape).Idx → α)
    (hs : (⟨2, ![n, 2]⟩ : Shape).Slices ![0, o] ⟨2, ![n, 1]⟩) (h1 : (⟨2, ![n, 1]⟩ : Shape).ShapeCasts ⟨1, ![n]⟩)
    (p : Fin n) :
    shapeCast ⟨1, ![n]⟩ (extractStridedSlice ⟨2, ![n, 1]⟩ ![0, o] X hs) h1 (ix1 p) = X (ix2 p k) := by
  refine (shapeCast_apply _ h1 (ix1 p) (ix2 p (0 : Fin 1)) ?_).trans ?_
  · rw [Shape.rowMajor_val_one, Shape.rowMajor_val_two]
    show p.val * 1 + 0 = p.val
    omega
  · exact slice2_axis1_apply o X hs p (0 : Fin 1) k (hk.trans (Nat.add_zero o).symm)

/-- The column chain: at `(p, u)`, the array at `(p, k)`. -/
private theorem colChain_apply (o : Nat) (k : Fin 2) (hk : k.val = o) (X : (⟨2, ![n, 2]⟩ : Shape).Idx → α)
    (hs : (⟨2, ![n, 2]⟩ : Shape).Slices ![0, o] ⟨2, ![n, 1]⟩) (h1 : (⟨2, ![n, 1]⟩ : Shape).ShapeCasts ⟨1, ![n]⟩)
    (h2 : (⟨1, ![n]⟩ : Shape).ShapeCasts ⟨2, ![n, 1]⟩) (p : Fin n) (u : Fin 1) :
    shapeCast ⟨2, ![n, 1]⟩ (shapeCast ⟨1, ![n]⟩ (extractStridedSlice ⟨2, ![n, 1]⟩ ![0, o] X hs) h1) h2 (ix2 p u)
      = X (ix2 p k) :=
  (Cert.Lib.Rowwise.column_apply _ h2 p u).trans (flatCoord_apply o k hk X hs h1 p)

/-- The row chain: at `(u, p)`, the array at `(p, k)`. -/
private theorem rowChain_apply (o : Nat) (k : Fin 2) (hk : k.val = o) (X : (⟨2, ![n, 2]⟩ : Shape).Idx → α)
    (hs : (⟨2, ![n, 2]⟩ : Shape).Slices ![0, o] ⟨2, ![n, 1]⟩) (h1 : (⟨2, ![n, 1]⟩ : Shape).ShapeCasts ⟨1, ![n]⟩)
    (h2 : (⟨1, ![n]⟩ : Shape).ShapeCasts ⟨2, ![1, n]⟩) (u : Fin 1) (p : Fin n) :
    shapeCast ⟨2, ![1, n]⟩ (shapeCast ⟨1, ![n]⟩ (extractStridedSlice ⟨2, ![n, 1]⟩ ![0, o] X hs) h1) h2 (ix2 u p)
      = X (ix2 p k) :=
  (rowVec_apply _ h2 u p).trans (flatCoord_apply o k hk X hs h1 p)

end Chains

variable (m : (ℓ : Loc nD τ sig) → Buf (Elt Ideal) ℓ) (ρ : Dev nD → PrngReg)

/-! ## The arguments at the two regions' entries

A host stretch writes only its own results and a region only its output arrays, none of them an argument: read at an
argument's buffer, the contents at region 1's exit and at region 2's exit are the launch memory's. -/

/-- A stretch of host operations none of which writes the buffer `b` leaves it as it was. -/
local macro "host_keeps " ops:ident " at " b:term : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

private theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by host_keeps hostOps1 at main_arg0
    _ = W1 m ρ c (Proc.devRef .tc main_arg0) := W2_of_ne m ρ c main_arg0 (by decide)
    _ = W0 m ρ c (Proc.devRef .tc main_arg0) := by host_keeps hostOps0 at main_arg0
    _ = m ((c : Thread nD τ).loc main_arg0) := rfl

private theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by host_keeps hostOps1 at main_arg1
    _ = W1 m ρ c (Proc.devRef .tc main_arg1) := W2_of_ne m ρ c main_arg1 (by decide)
    _ = W0 m ρ c (Proc.devRef .tc main_arg1) := by host_keeps hostOps0 at main_arg1
    _ = m ((c : Thread nD τ).loc main_arg1) := rfl

private theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by host_keeps hostOps1 at main_arg2
    _ = W1 m ρ c (Proc.devRef .tc main_arg2) := W2_of_ne m ρ c main_arg2 (by decide)
    _ = W0 m ρ c (Proc.devRef .tc main_arg2) := by host_keeps hostOps0 at main_arg2
    _ = m ((c : Thread nD τ).loc main_arg2) := rfl

private theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps1 at main_arg3
    _ = W1 m ρ c (Proc.devRef .tc main_arg3) := W2_of_ne m ρ c main_arg3 (by decide)
    _ = W0 m ρ c (Proc.devRef .tc main_arg3) := by host_keeps hostOps0 at main_arg3
    _ = m ((c : Thread nD τ).loc main_arg3) := rfl

private theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := by host_keeps hostOps2 at main_arg0
    _ = m ((c : Thread nD τ).loc main_arg0) := W4_arg0 m ρ c

private theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by host_keeps hostOps2 at main_arg1
    _ = m ((c : Thread nD τ).loc main_arg1) := W4_arg1 m ρ c

private theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by host_keeps hostOps2 at main_arg2
    _ = m ((c : Thread nD τ).loc main_arg2) := W4_arg2 m ρ c

private theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by host_keeps hostOps2 at main_arg3
    _ = m ((c : Thread nD τ).loc main_arg3) := W4_arg3 m ρ c

/-! ## Region 2's window arrays (read where region 1 ends) -/

theorem V5_v40 (c : Dev nD) : V5 m ρ c main_v40 = colOf (Pc m c) 0 := by
  show StableHlo.after hostOps2 (W4 m ρ c) (Proc.devRef .tc main_v40) = _
  after_results
  rw [W4_arg0]
  funext j
  obtain ⟨p, u, rfl⟩ : ∃ (p : Fin 4096) (u : Fin 1), j = ix2 p u := ⟨j 0, j 1, eq_ix2 j⟩
  exact colChain_apply 0 0 rfl (Pc m c) _ _ _ p u

theorem V5_v41 (c : Dev nD) : V5 m ρ c main_v41 = colOf (Pc m c) 1 := by
  show StableHlo.after hostOps2 (W4 m ρ c) (Proc.devRef .tc main_v41) = _
  after_results
  rw [W4_arg0]
  funext j
  obtain ⟨p, u, rfl⟩ : ∃ (p : Fin 4096) (u : Fin 1), j = ix2 p u := ⟨j 0, j 1, eq_ix2 j⟩
  exact colChain_apply 1 1 rfl (Pc m c) _ _ _ p u

theorem V5_v42 (c : Dev nD) : V5 m ρ c main_v42 = colOf1 (Rc m c) := by
  show StableHlo.after hostOps2 (W4 m ρ c) (Proc.devRef .tc main_v42) = _
  after_results
  rw [W4_arg1]
  funext j
  obtain ⟨p, u, rfl⟩ : ∃ (p : Fin 4096) (u : Fin 1), j = ix2 p u := ⟨j 0, j 1, eq_ix2 j⟩
  exact Cert.Lib.Rowwise.column_apply (Rc m c) _ p u

theorem V5_v43 (c : Dev nD) : V5 m ρ c main_v43 = rowOf (Ab m c) 0 := by
  show StableHlo.after hostOps2 (W4 m ρ c) (Proc.devRef .tc main_v43) = _
  after_results
  rw [W4_arg2]
  funext j
  obtain ⟨u, p, rfl⟩ : ∃ (u : Fin 1) (p : Fin 2048), j = ix2 u p := ⟨j 0, j 1, eq_ix2 j⟩
  exact rowChain_apply 0 0 rfl (Ab m c) _ _ _ u p

theorem V5_v44 (c : Dev nD) : V5 m ρ c main_v44 = rowOf (Ab m c) 1 := by
  show StableHlo.after hostOps2 (W4 m ρ c) (Proc.devRef .tc main_v44) = _
  after_results
  rw [W4_arg2]
  funext j
  obtain ⟨u, p, rfl⟩ : ∃ (u : Fin 1) (p : Fin 2048), j = ix2 u p := ⟨j 0, j 1, eq_ix2 j⟩
  exact rowChain_apply 1 1 rfl (Ab m c) _ _ _ u p

theorem V5_v45 (c : Dev nD) : V5 m ρ c main_v45 = rowOf (Hb m c) 0 := by
  show StableHlo.after hostOps2 (W4 m ρ c) (Proc.devRef .tc main_v45) = _
  after_results
  rw [W4_arg3]
  funext j
  obtain ⟨u, p, rfl⟩ : ∃ (u : Fin 1) (p : Fin 2048), j = ix2 u p := ⟨j 0, j 1, eq_ix2 j⟩
  exact rowChain_apply 0 0 rfl (Hb m c) _ _ _ u p

theorem V5_v46 (c : Dev nD) : V5 m ρ c main_v46 = rowOf (Hb m c) 1 := by
  show StableHlo.after hostOps2 (W4 m ρ c) (Proc.devRef .tc main_v46) = _
  after_results
  rw [W4_arg3]
  funext j
  obtain ⟨u, p, rfl⟩ : ∃ (u : Fin 1) (p : Fin 2048), j = ix2 u p := ⟨j 0, j 1, eq_ix2 j⟩
  exact rowChain_apply 1 1 rfl (Hb m c) _ _ _ u p

/-! ## Region 3's window arrays (read where region 2 ends) -/

theorem V7_v60 (c : Dev nD) : V7 m ρ c main_v60 = colOf (Ab m c) 0 := by
  show StableHlo.after hostOps3 (W6 m ρ c) (Proc.devRef .tc main_v60) = _
  after_results
  rw [W6_arg2]
  funext j
  obtain ⟨p, u, rfl⟩ : ∃ (p : Fin 2048) (u : Fin 1), j = ix2 p u := ⟨j 0, j 1, eq_ix2 j⟩
  exact colChain_apply 0 0 rfl (Ab m c) _ _ _ p u

theorem V7_v61 (c : Dev nD) : V7 m ρ c main_v61 = colOf (Ab m c) 1 := by
  show StableHlo.after hostOps3 (W6 m ρ c) (Proc.devRef .tc main_v61) = _
  after_results
  rw [W6_arg2]
  funext j
  obtain ⟨p, u, rfl⟩ : ∃ (p : Fin 2048) (u : Fin 1), j = ix2 p u := ⟨j 0, j 1, eq_ix2 j⟩
  exact colChain_apply 1 1 rfl (Ab m c) _ _ _ p u

theorem V7_v62 (c : Dev nD) : V7 m ρ c main_v62 = colOf (Hb m c) 0 := by
  show StableHlo.after hostOps3 (W6 m ρ c) (Proc.devRef .tc main_v62) = _
  after_results
  rw [W6_arg3]
  funext j
  obtain ⟨p, u, rfl⟩ : ∃ (p : Fin 2048) (u : Fin 1), j = ix2 p u := ⟨j 0, j 1, eq_ix2 j⟩
  exact colChain_apply 0 0 rfl (Hb m c) _ _ _ p u

theorem V7_v63 (c : Dev nD) : V7 m ρ c main_v63 = colOf (Hb m c) 1 := by
  show StableHlo.after hostOps3 (W6 m ρ c) (Proc.devRef .tc main_v63) = _
  after_results
  rw [W6_arg3]
  funext j
  obtain ⟨p, u, rfl⟩ : ∃ (p : Fin 2048) (u : Fin 1), j = ix2 p u := ⟨j 0, j 1, eq_ix2 j⟩
  exact colChain_apply 1 1 rfl (Hb m c) _ _ _ p u

theorem V7_v64 (c : Dev nD) : V7 m ρ c main_v64 = rowOf (Pc m c) 0 := by
  show StableHlo.after hostOps3 (W6 m ρ c) (Proc.devRef .tc main_v64) = _
  after_results
  rw [W6_arg0]
  funext j
  obtain ⟨u, p, rfl⟩ : ∃ (u : Fin 1) (p : Fin 4096), j = ix2 u p := ⟨j 0, j 1, eq_ix2 j⟩
  exact rowChain_apply 0 0 rfl (Pc m c) _ _ _ u p

theorem V7_v65 (c : Dev nD) : V7 m ρ c main_v65 = rowOf (Pc m c) 1 := by
  show StableHlo.after hostOps3 (W6 m ρ c) (Proc.devRef .tc main_v65) = _
  after_results
  rw [W6_arg0]
  funext j
  obtain ⟨u, p, rfl⟩ : ∃ (u : Fin 1) (p : Fin 4096), j = ix2 u p := ⟨j 0, j 1, eq_ix2 j⟩
  exact rowChain_apply 1 1 rfl (Pc m c) _ _ _ u p

theorem V7_v66 (c : Dev nD) : V7 m ρ c main_v66 = rowOf1 (Rc m c) := by
  show StableHlo.after hostOps3 (W6 m ρ c) (Proc.devRef .tc main_v66) = _
  after_results
  rw [W6_arg1]
  funext j
  obtain ⟨u, p, rfl⟩ : ∃ (u : Fin 1) (p : Fin 4096), j = ix2 u p := ⟨j 0, j 1, eq_ix2 j⟩
  exact rowVec_apply (Rc m c) _ u p

end Cert.KernelIdeal.Host

end
-- ==== Proof.KernelTail.lean ====
/-
  The tiled program's result buffer at the last boundary: the host tail adds to each position array its two corrections —
  the output arrays of regions 0 and 2 for the circles, of regions 1 and 3 for the boxes, each as its region left it — and
  stacks circles over boxes. No later region or host operation writes an earlier region's output, so the fold of boundary
  contents reads each back to its region's exit.
-/
import proofs.«173810_j58935541236175_1_alg».proof.Proof.KernelIdealFrame
import proofs.«173810_j58935541236175_1_alg».proof.Proof.Spec
import proofs.«173810_j58935541236175_1_alg».proof.Proof.LibRowwise
import proofs.«173810_j58935541236175_1_alg».proof.Proof.KernelArgs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Host

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Collide

variable (m : (ℓ : Loc nD τ sig) → Buf (Elt Ideal) ℓ) (ρ : Dev nD → PrngReg)

/-- A stretch of host operations keeps a buffer none of its operations writes: each operation writes its one result
    buffer, and that is another reference than `b`. -/
local macro "keeps " b:term " across " ops:ident : tactic =>
  `(tactic| exact StableHlo.after_of_forall_not_mem (b := Proc.devRef .tc $b) _ _ (List.forall_iff_forall_mem.mp (by
      simp only [$ops:ident, List.Forall, StableHlo.unary_writes, StableHlo.binary_writes, StableHlo.reshape_writes,
        Finset.mem_singleton]
      repeat' apply And.intro
      all_goals exact StableHlo.devRef_ne_of_ne (by decide))))

/-! ## Each operand of the host tail, read at the last region's exit

An output array of region `k` is staged by no later region and written by no later host operation, so from the last
region's exit it reads back, boundary by boundary, to what region `k`'s write-backs left in it. -/

/-- Region 3's output (the boxes' correction from the circles) is as region 3 left it. -/
private theorem W8_v67 (c : Dev nD) :
    W8 m ρ c (Proc.devRef .tc main_v67) = (dat3 (V7 m ρ) c).arrAt 7 cfg3.N :=
  W8_arr m ρ c 7

/-- Region 2's output (the circles' correction from the boxes): region 3 does not stage it and the stretch before
    region 3 does not write it. -/
private theorem W8_v47 (c : Dev nD) :
    W8 m ρ c (Proc.devRef .tc main_v47) = (dat2 (V5 m ρ) c).arrAt 7 cfg2.N :=
  calc W8 m ρ c (Proc.devRef .tc main_v47)
    _ = W7 m ρ c (Proc.devRef .tc main_v47) := W8_of_ne m ρ c main_v47 (by decide)
    _ = W6 m ρ c (Proc.devRef .tc main_v47) := by keeps main_v47 across hostOps3
    _ = (dat2 (V5 m ρ) c).arrAt 7 cfg2.N := W6_arr m ρ c 7

/-- Region 1's output (the boxes' correction from the boxes): two regions and two stretches further back. -/
private theorem W8_v27 (c : Dev nD) :
    W8 m ρ c (Proc.devRef .tc main_v27) = (dat1 (V3 m ρ) c).arrAt 8 cfg1.N :=
  calc W8 m ρ c (Proc.devRef .tc main_v27)
    _ = W7 m ρ c (Proc.devRef .tc main_v27) := W8_of_ne m ρ c main_v27 (by decide)
    _ = W6 m ρ c (Proc.devRef .tc main_v27) := by keeps main_v27 across hostOps3
    _ = W5 m ρ c (Proc.devRef .tc main_v27) := W6_of_ne m ρ c main_v27 (by decide)
    _ = W4 m ρ c (Proc.devRef .tc main_v27) := by keeps main_v27 across hostOps2
    _ = (dat1 (V3 m ρ) c).arrAt 8 cfg1.N := W4_arr m ρ c 8

/-- Region 0's output (the circles' correction from the circles): three regions and three stretches further back. -/
private theorem W8_v10 (c : Dev nD) :
    W8 m ρ c (Proc.devRef .tc main_v10) = (dat0 (V1 m ρ) c).arrAt 6 cfg0.N :=
  calc W8 m ρ c (Proc.devRef .tc main_v10)
    _ = W7 m ρ c (Proc.devRef .tc main_v10) := W8_of_ne m ρ c main_v10 (by decide)
    _ = W6 m ρ c (Proc.devRef .tc main_v10) := by keeps main_v10 across hostOps3
    _ = W5 m ρ c (Proc.devRef .tc main_v10) := W6_of_ne m ρ c main_v10 (by decide)
    _ = W4 m ρ c (Proc.devRef .tc main_v10) := by keeps main_v10 across hostOps2
    _ = W3 m ρ c (Proc.devRef .tc main_v10) := W4_of_ne m ρ c main_v10 (by decide)
    _ = W2 m ρ c (Proc.devRef .tc main_v10) := by keeps main_v10 across hostOps1
    _ = (dat0 (V1 m ρ) c).arrAt 6 cfg0.N := W2_arr m ρ c 6

/-- The circles' positions: the host tail does not write an argument, and at the last boundary an argument holds its
    launch contents. -/
private theorem W8_arg0 (c : Dev nD) :
    W8 m ρ c (Proc.devRef .tc main_arg0) = m ((c : Thread nD τ).loc main_arg0) :=
  calc W8 m ρ c (Proc.devRef .tc main_arg0)
    _ = W9 m ρ c (Proc.devRef .tc main_arg0) := Eq.symm (by keeps main_arg0 across hostOps4)
    _ = m ((c : Thread nD τ).loc main_arg0) := W9_main_arg0 m ρ c

/-- The boxes' positions, likewise. -/
private theorem W8_arg2 (c : Dev nD) :
    W8 m ρ c (Proc.devRef .tc main_arg2) = m ((c : Thread nD τ).loc main_arg2) :=
  calc W8 m ρ c (Proc.devRef .tc main_arg2)
    _ = W9 m ρ c (Proc.devRef .tc main_arg2) := Eq.symm (by keeps main_arg2 across hostOps4)
    _ = m ((c : Thread nD τ).loc main_arg2) := W9_main_arg2 m ρ c

/-! ## The result buffer

The tail's five operations over ANY contents `V` of the buffers before it: two sums over the circles' arrays, two over
the boxes', and the stacking of the two — the step's result at `V`'s six operand buffers. Stated over a variable `V`, so
that the operations are read off without the boundary's contents in sight. -/

private theorem tail_of (V : Valuation τ sig (Elt Ideal)) :
    StableHlo.after hostOps4 V (Proc.devRef .tc main_v72)
      = result (V (Proc.devRef .tc main_arg0)) (V (Proc.devRef .tc main_v10)) (V (Proc.devRef .tc main_v47))
          (V (Proc.devRef .tc main_arg2)) (V (Proc.devRef .tc main_v27)) (V (Proc.devRef .tc main_v67)) := by
  after_results
  rfl

/-- At the last region's exit the six operands are the two launch arrays and the four regions' outputs. -/
theorem W9_v72 (c : Dev nD) :
    W9 m ρ c (Proc.devRef .tc main_v72)
      = result (Pc m c) ((dat0 (V1 m ρ) c).arrAt 6 cfg0.N) ((dat2 (V5 m ρ) c).arrAt 7 cfg2.N)
          (Ab m c) ((dat1 (V3 m ρ) c).arrAt 8 cfg1.N) ((dat3 (V7 m ρ) c).arrAt 7 cfg3.N) := by
  refine (tail_of (W8 m ρ c)).trans ?_
  rw [W8_arg0 m ρ c, W8_v10 m ρ c, W8_v47 m ρ c, W8_arg2 m ρ c, W8_v27 m ρ c, W8_v67 m ρ c]

end Cert.KernelIdeal.Host

end
-- ==== Proof.Region0.lean ====
/-
  Region 0 (circle against circle), at any contents `V` the region is entered from: its output array after the last grid
  point is the tiled reading `ccK` of its six window arrays — block `t` holds rows `128·t … 128·t + 127`, each row's two
  entries the lane sums of the pair pushes along x and along y.

  The steps. (1) The body's stored value at `(p, 0)` and `(p, 1)`, over any six blocks: two columns side by side, each a
  lane sum cast to a column, each summand the selected coefficient times the unit offset, the offsets and the reach read
  through a column broadcast along the lanes and a row broadcast down the rows. (2) A column window's block at point `t`
  is rows `128·t + p` of its `[4096, 1]` array; a row window's block is its whole `[1, 4096]` array. (3) What point `t`
  writes back is therefore block `t` of `ccK` of the arrays. (4) Row `r` lies in the block of point `r / 128`, so the
  blocks fill the array.
-/
import proofs.«173810_j58935541236175_1_alg».proof.Proof.KernelIdealFrame
import proofs.«173810_j58935541236175_1_alg».proof.Proof.Spec
import proofs.«173810_j58935541236175_1_alg».proof.Proof.LibRowwise

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Collide
open Cert.Lib.Rowwise

/-! ## Two layout operations read at an index -/

section Layout

variable {α : Type}

/-- A row `[1, B]` broadcast down the rows to `[A, B]` reads, at `(p, q)`, the row at `(0, q)`. -/
private theorem rowBroadcast_apply {A B : Nat} (v : (⟨2, ![1, B]⟩ : Shape).Idx → α)
    (h : (⟨2, ![1, B]⟩ : Shape).Broadcasts ⟨2, ![A, B]⟩) (hB : B ≠ 1) (p : Fin A) (q : Fin B) :
    broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

/-- Two columns `[A, 1]` put side by side along axis 1 read, at `(p, 0)`, the first column at `(p, 0)` … -/
private theorem columnPair_left {A : Nat} (x₁ x₂ : (⟨2, ![A, 1]⟩ : Shape).Idx → α)
    (h : Shape.Concatenates [(⟨2, ![A, 1]⟩ : Shape), ⟨2, ![A, 1]⟩] ⟨2, ![A, 2]⟩ 1) (p : Fin A) :
    concatenate ⟨2, ![A, 2]⟩ 1 [⟨⟨2, ![A, 1]⟩, x₁⟩, ⟨⟨2, ![A, 1]⟩, x₂⟩] h (ix2 p 0) = x₁ (ix2 p 0) := by
  refine concatenate_pair_apply_left (t := ⟨2, ![A, 2]⟩) (s₁ := ⟨2, ![A, 1]⟩) (s₂ := ⟨2, ![A, 1]⟩) 1 x₁ x₂ h (ix2 p 0) rfl (ix2 p 0) fun b => ?_
  match b with
  | ⟨0, _⟩ => rfl
  | ⟨1, _⟩ => rfl

/-- … and, at `(p, 1)`, the second column at `(p, 0)`. -/
private theorem columnPair_right {A : Nat} (x₁ x₂ : (⟨2, ![A, 1]⟩ : Shape).Idx → α)
    (h : Shape.Concatenates [(⟨2, ![A, 1]⟩ : Shape), ⟨2, ![A, 1]⟩] ⟨2, ![A, 2]⟩ 1) (p : Fin A) :
    concatenate ⟨2, ![A, 2]⟩ 1 [⟨⟨2, ![A, 1]⟩, x₁⟩, ⟨⟨2, ![A, 1]⟩, x₂⟩] h (ix2 p 1) = x₂ (ix2 p 0) := by
  refine concatenate_pair_apply_right (t := ⟨2, ![A, 2]⟩) (s₁ := ⟨2, ![A, 1]⟩) (s₂ := ⟨2, ![A, 1]⟩) 1 x₁ x₂ h (ix2 p 1) rfl rfl (ix2 p 0) (fun b hb => ?_) rfl
  match b, hb with
  | ⟨0, _⟩, _ => rfl
  | ⟨1, _⟩, hb => exact absurd (Fin.ext rfl) hb

end Layout

/-! ## The body's stored value at an index, over any six blocks -/

section Payload

variable (x0 x1 x2 : FVec Ideal S128x1 .f32) (x3 x4 x5 : FVec Ideal S1x4096 .f32)

/-- A kept body's column entry met along the lanes: the column at `(p, 0)`. -/
private theorem col_apply (x : FVec Ideal S128x1 .f32) (p : Fin 128) (a : Fin 4096) :
    broadcastTo S128x4096 (shapeCast S128x1 x shapeCasts_S128x1_S128x1) broadcasts_S128x1_S128x4096 (ix2 p a) = x (ix2 p 0) :=
  (columnBroadcast_apply _ broadcasts_S128x1_S128x4096 (by decide) p a).trans
    (congrFun (shapeCast_self x shapeCasts_S128x1_S128x1) (ix2 p 0))

/-- A scanned body's row entry met down the rows: the row at `(0, a)`. -/
private theorem row_apply (x : FVec Ideal S1x4096 .f32) (p : Fin 128) (a : Fin 4096) :
    broadcastTo S128x4096 (shapeCast S1x4096 x shapeCasts_S1x4096_S1x4096) broadcasts_S1x4096_S128x4096 (ix2 p a) = x (ix2 0 a) :=
  (rowBroadcast_apply _ broadcasts_S1x4096_S128x4096 (by decide) p a).trans
    (congrFun (shapeCast_self x shapeCasts_S1x4096_S1x4096) (ix2 0 a))

/-- The offset along x of body `p` from body `a`. -/
private theorem dx_apply (p : Fin 128) (a : Fin 4096) :
    k0_pay2 (F := Ideal) x0 x3 (ix2 p a) = x0 (ix2 p 0) - x3 (ix2 0 a) := by
  unfold k0_pay2
  exact congrArg₂ (· - ·) (col_apply x0 p a) (row_apply x3 p a)

/-- The offset along y. -/
private theorem dy_apply (p : Fin 128) (a : Fin 4096) :
    k0_pay3 (F := Ideal) x1 x4 (ix2 p a) = x1 (ix2 p 0) - x4 (ix2 0 a) := by
  unfold k0_pay3
  exact congrArg₂ (· - ·) (col_apply x1 p a) (row_apply x4 p a)

/-- The squared length of the offset. -/
private theorem d2_apply (p : Fin 128) (a : Fin 4096) :
    k0_pay4 (F := Ideal) x0 x1 x3 x4 (ix2 p a)
      = (x0 (ix2 p 0) - x3 (ix2 0 a)) * (x0 (ix2 p 0) - x3 (ix2 0 a)) + (x1 (ix2 p 0) - x4 (ix2 0 a)) * (x1 (ix2 p 0) - x4 (ix2 0 a)) := by
  unfold k0_pay4
  exact congrArg₂ (· + ·) (congrArg₂ (· * ·) (dx_apply x0 x3 p a) (dx_apply x0 x3 p a))
    (congrArg₂ (· * ·) (dy_apply x1 x4 p a) (dy_apply x1 x4 p a))

/-- The distance the squared length gives. -/
private theorem dist_apply (p : Fin 128) (a : Fin 4096) :
    k0_pay5 (F := Ideal) x0 x1 x3 x4 (ix2 p a)
      = dist ((x0 (ix2 p 0) - x3 (ix2 0 a)) * (x0 (ix2 p 0) - x3 (ix2 0 a)) + (x1 (ix2 p 0) - x4 (ix2 0 a)) * (x1 (ix2 p 0) - x4 (ix2 0 a))) := by
  unfold k0_pay5
  exact congrArg dist (d2_apply x0 x1 x3 x4 p a)

/-- The unit offset along x. -/
private theorem ux_apply (p : Fin 128) (a : Fin 4096) :
    k0_pay6 (F := Ideal) x0 x1 x3 x4 (ix2 p a)
      = Ideal.div (x0 (ix2 p 0) - x3 (ix2 0 a))
          (dist ((x0 (ix2 p 0) - x3 (ix2 0 a)) * (x0 (ix2 p 0) - x3 (ix2 0 a)) + (x1 (ix2 p 0) - x4 (ix2 0 a)) * (x1 (ix2 p 0) - x4 (ix2 0 a)))) := by
  unfold k0_pay6
  exact congrArg₂ Ideal.div (dx_apply x0 x3 p a) (dist_apply x0 x1 x3 x4 p a)

/-- The unit offset along y. -/
private theorem uy_apply (p : Fin 128) (a : Fin 4096) :
    k0_pay7 (F := Ideal) x0 x1 x3 x4 (ix2 p a)
      = Ideal.div (x1 (ix2 p 0) - x4 (ix2 0 a))
          (dist ((x0 (ix2 p 0) - x3 (ix2 0 a)) * (x0 (ix2 p 0) - x3 (ix2 0 a)) + (x1 (ix2 p 0) - x4 (ix2 0 a)) * (x1 (ix2 p 0) - x4 (ix2 0 a)))) := by
  unfold k0_pay7
  exact congrArg₂ Ideal.div (dy_apply x1 x4 p a) (dist_apply x0 x1 x3 x4 p a)

/-- The selected coefficient: half the penetration where the pair is pushed. -/
private theorem coef_apply (p : Fin 128) (a : Fin 4096) :
    k0_pay8 (F := Ideal) x0 x1 x2 x3 x4 x5 (ix2 p a)
      = coef ((x0 (ix2 p 0) - x3 (ix2 0 a)) * (x0 (ix2 p 0) - x3 (ix2 0 a)) + (x1 (ix2 p 0) - x4 (ix2 0 a)) * (x1 (ix2 p 0) - x4 (ix2 0 a)))
          (x2 (ix2 p 0) + x5 (ix2 0 a)) := by
  unfold k0_pay8
  exact congrArg₂ coef (d2_apply x0 x1 x3 x4 p a) (congrArg₂ (· + ·) (col_apply x2 p a) (row_apply x5 p a))

/-- The stored value at `(p, 0)`: the pushes along x of body `p`'s pairs, summed over the lanes. -/
private theorem stored_x (p : Fin 128) :
    k0_pay1 (F := Ideal) (k0_pay6 x0 x1 x3 x4) (k0_pay7 x0 x1 x3 x4) (k0_pay8 x0 x1 x2 x3 x4 x5) (ix2 p 0)
      = ∑ a : Fin 4096, pushK (x0 (ix2 p 0) - x3 (ix2 0 a)) (x1 (ix2 p 0) - x4 (ix2 0 a)) (x2 (ix2 p 0) + x5 (ix2 0 a))
          (x0 (ix2 p 0) - x3 (ix2 0 a)) := by
  unfold k0_pay1
  refine (columnPair_left _ _ concatenates_S128x1_S128x1_S128x2_d1 p).trans ?_
  refine (column_apply _ shapeCasts_S128_S128x1 p 0).trans ?_
  refine (laneSum_apply _ 0x00000000#32 reduces_S128x4096_S128 (.inl rfl) rfl p).trans ?_
  refine Finset.sum_congr rfl fun a _ => ?_
  exact congrArg₂ (· * ·) (coef_apply x0 x1 x2 x3 x4 x5 p a) (ux_apply x0 x1 x3 x4 p a)

/-- The stored value at `(p, 1)`: the pushes along y. -/
private theorem stored_y (p : Fin 128) :
    k0_pay1 (F := Ideal) (k0_pay6 x0 x1 x3 x4) (k0_pay7 x0 x1 x3 x4) (k0_pay8 x0 x1 x2 x3 x4 x5) (ix2 p 1)
      = ∑ a : Fin 4096, pushK (x0 (ix2 p 0) - x3 (ix2 0 a)) (x1 (ix2 p 0) - x4 (ix2 0 a)) (x2 (ix2 p 0) + x5 (ix2 0 a))
          (x1 (ix2 p 0) - x4 (ix2 0 a)) := by
  unfold k0_pay1
  refine (columnPair_right _ _ concatenates_S128x1_S128x1_S128x2_d1 p).trans ?_
  refine (column_apply _ shapeCasts_S128_S128x1 p 0).trans ?_
  refine (laneSum_apply _ 0x00000000#32 reduces_S128x4096_S128 (.inl rfl) rfl p).trans ?_
  refine Finset.sum_congr rfl fun a _ => ?_
  exact congrArg₂ (· * ·) (coef_apply x0 x1 x2 x3 x4 x5 p a) (uy_apply x0 x1 x3 x4 p a)

/-- The stored value at `(p, q)` is the tiled reading at row `P` of any arrays the blocks are read off: the column
    blocks' row `p` being the column arrays' row `P`, the row blocks being the row arrays. -/
theorem stored_eq (xc yc rc : Arr 4096 1) (xr yr rr : Arr 1 4096) (P : Fin 4096) (p : Fin 128) (q : Fin 2)
    (h0 : x0 (ix2 p 0) = xc (ix2 P 0)) (h1 : x1 (ix2 p 0) = yc (ix2 P 0)) (h2 : x2 (ix2 p 0) = rc (ix2 P 0))
    (h3 : ∀ a : Fin 4096, x3 (ix2 0 a) = xr (ix2 0 a)) (h4 : ∀ a : Fin 4096, x4 (ix2 0 a) = yr (ix2 0 a))
    (h5 : ∀ a : Fin 4096, x5 (ix2 0 a) = rr (ix2 0 a)) :
    k0_pay1 (F := Ideal) (k0_pay6 x0 x1 x3 x4) (k0_pay7 x0 x1 x3 x4) (k0_pay8 x0 x1 x2 x3 x4 x5) (ix2 p q)
      = ccK xc yc rc xr yr rr P q := by
  match q with
  | ⟨0, _⟩ =>
    refine (stored_x x0 x1 x2 x3 x4 x5 p).trans ?_
    unfold ccK
    rw [if_pos rfl]
    refine Finset.sum_congr rfl fun a _ => ?_
    rw [h0, h1, h2, h3 a, h4 a, h5 a]
  | ⟨1, _⟩ =>
    refine (stored_y x0 x1 x2 x3 x4 x5 p).trans ?_
    unfold ccK
    rw [if_neg Nat.one_ne_zero]
    refine Finset.sum_congr rfl fun a _ => ?_
    rw [h0, h1, h2, h3 a, h4 a, h5 a]

end Payload

/-! ## From the blocks to the array -/

variable (V : (c : Dev nD) → (b : Ref sig .tc) → Buf (Elt Ideal) ((c : Thread nD τ).loc b))

private theorem hz : (![0, 0] : Fin 2 → Nat) = fun _ => 0 := funext fun a => by fin_cases a <;> rfl

/-- The index maps, decided once over the grid's 32 points: at point `t` a column window and the output are on block
    `(t, 0)`, a row window on block `(0, 0)`. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The x column's block at point `t`, at `(p, 0)`: row `128·t + p` of the array. -/
private theorem xcol_apply (c : Dev nD) (t : Fin cfg0.N) (p : Fin 128) (P : Fin 4096) (hP : P.val = t.val * 128 + p.val) :
    (iblk0 V c 0 t : FVec Ideal S128x1 .f32) (ix2 p 0) = (V c main_v4 : Arr 4096 1) (ix2 P 0) := by
  obtain ⟨e0, e1, -⟩ := idx_facts t
  show (V c main_v4 : Arr 4096 1) (((cfg0.win 0).blk t).view.emb (ix2 p 0)) = (V c main_v4 : Arr 4096 1) (ix2 P 0)
  refine congrArg (V c main_v4 : Arr 4096 1) (funext fun a => Fin.ext ?_)
  match a with
  | ⟨0, _⟩ => show win0_0.index t (0 : Fin 2) * 128 + 1 * p.val = P.val; rw [e0, hP]; omega
  | ⟨1, _⟩ => show win0_0.index t (1 : Fin 2) * 1 + 1 * 0 = 0; rw [e1]

/-- The y column's block, likewise. -/
private theorem ycol_apply (c : Dev nD) (t : Fin cfg0.N) (p : Fin 128) (P : Fin 4096) (hP : P.val = t.val * 128 + p.val) :
    (iblk0 V c 1 t : FVec Ideal S128x1 .f32) (ix2 p 0) = (V c main_v5 : Arr 4096 1) (ix2 P 0) := by
  obtain ⟨-, -, e0, e1, -⟩ := idx_facts t
  show (V c main_v5 : Arr 4096 1) (((cfg0.win 1).blk t).view.emb (ix2 p 0)) = (V c main_v5 : Arr 4096 1) (ix2 P 0)
  refine congrArg (V c main_v5 : Arr 4096 1) (funext fun a => Fin.ext ?_)
  match a with
  | ⟨0, _⟩ => show win0_1.index t (0 : Fin 2) * 128 + 1 * p.val = P.val; rw [e0, hP]; omega
  | ⟨1, _⟩ => show win0_1.index t (1 : Fin 2) * 1 + 1 * 0 = 0; rw [e1]

/-- The radius column's block, likewise. -/
private theorem rcol_apply (c : Dev nD) (t : Fin cfg0.N) (p : Fin 128) (P : Fin 4096) (hP : P.val = t.val * 128 + p.val) :
    (iblk0 V c 2 t : FVec Ideal S128x1 .f32) (ix2 p 0) = (V c main_v6 : Arr 4096 1) (ix2 P 0) := by
  obtain ⟨-, -, -, -, e0, e1, -⟩ := idx_facts t
  show (V c main_v6 : Arr 4096 1) (((cfg0.win 2).blk t).view.emb (ix2 p 0)) = (V c main_v6 : Arr 4096 1) (ix2 P 0)
  refine congrArg (V c main_v6 : Arr 4096 1) (funext fun a => Fin.ext ?_)
  match a with
  | ⟨0, _⟩ => show win0_2.index t (0 : Fin 2) * 128 + 1 * p.val = P.val; rw [e0, hP]; omega
  | ⟨1, _⟩ => show win0_2.index t (1 : Fin 2) * 1 + 1 * 0 = 0; rw [e1]

/-- The x row's block at any point is the whole row. -/
private theorem xrow_apply (c : Dev nD) (t : Fin cfg0.N) (a : Fin 4096) :
    (iblk0 V c 3 t : FVec Ideal S1x4096 .f32) (ix2 0 a) = (V c main_v7 : Arr 1 4096) (ix2 0 a) := by
  obtain ⟨-, -, -, -, -, -, e0, e1, -⟩ := idx_facts t
  show (V c main_v7 : Arr 1 4096) (((cfg0.win 3).blk t).view.emb (ix2 0 a)) = (V c main_v7 : Arr 1 4096) (ix2 0 a)
  refine congrArg (V c main_v7 : Arr 1 4096) (funext fun b => Fin.ext ?_)
  match b with
  | ⟨0, _⟩ => show win0_3.index t (0 : Fin 2) * 1 + 1 * 0 = 0; rw [e0]
  | ⟨1, _⟩ => show win0_3.index t (1 : Fin 2) * 4096 + 1 * a.val = a.val; rw [e1]; omega

/-- The y row's block, likewise. -/
private theorem yrow_apply (c : Dev nD) (t : Fin cfg0.N) (a : Fin 4096) :
    (iblk0 V c 4 t : FVec Ideal S1x4096 .f32) (ix2 0 a) = (V c main_v8 : Arr 1 4096) (ix2 0 a) := by
  obtain ⟨-, -, -, -, -, -, -, -, e0, e1, -⟩ := idx_facts t
  show (V c main_v8 : Arr 1 4096) (((cfg0.win 4).blk t).view.emb (ix2 0 a)) = (V c main_v8 : Arr 1 4096) (ix2 0 a)
  refine congrArg (V c main_v8 : Arr 1 4096) (funext fun b => Fin.ext ?_)
  match b with
  | ⟨0, _⟩ => show win0_4.index t (0 : Fin 2) * 1 + 1 * 0 = 0; rw [e0]
  | ⟨1, _⟩ => show win0_4.index t (1 : Fin 2) * 4096 + 1 * a.val = a.val; rw [e1]; omega

/-- The radius row's block, likewise. -/
private theorem rrow_apply (c : Dev nD) (t : Fin cfg0.N) (a : Fin 4096) :
    (iblk0 V c 5 t : FVec Ideal S1x4096 .f32) (ix2 0 a) = (V c main_v9 : Arr 1 4096) (ix2 0 a) := by
  obtain ⟨-, -, -, -, -, -, -, -, -, -, e0, e1, -⟩ := idx_facts t
  show (V c main_v9 : Arr 1 4096) (((cfg0.win 5).blk t).view.emb (ix2 0 a)) = (V c main_v9 : Arr 1 4096) (ix2 0 a)
  refine congrArg (V c main_v9 : Arr 1 4096) (funext fun b => Fin.ext ?_)
  match b with
  | ⟨0, _⟩ => show win0_5.index t (0 : Fin 2) * 1 + 1 * 0 = 0; rw [e0]
  | ⟨1, _⟩ => show win0_5.index t (1 : Fin 2) * 4096 + 1 * a.val = a.val; rw [e1]; omega

/-- The body's stored value at point `t`, at `(p, q)`: the tiled reading of the arrays at row `128·t + p`. -/
private theorem stored_at (c : Dev nD) (t : Fin cfg0.N) (p : Fin 128) (q : Fin 2) (P : Fin 4096) (hP : P.val = t.val * 128 + p.val) :
    k0_pay1 (F := Ideal) (k0_pay6 (iblk0 V c 0 t) (iblk0 V c 1 t) (iblk0 V c 3 t) (iblk0 V c 4 t))
        (k0_pay7 (iblk0 V c 0 t) (iblk0 V c 1 t) (iblk0 V c 3 t) (iblk0 V c 4 t))
        (k0_pay8 (iblk0 V c 0 t) (iblk0 V c 1 t) (iblk0 V c 2 t) (iblk0 V c 3 t) (iblk0 V c 4 t) (iblk0 V c 5 t)) (ix2 p q)
      = ccK (V c main_v4) (V c main_v5) (V c main_v6) (V c main_v7) (V c main_v8) (V c main_v9) P q :=
  stored_eq (iblk0 V c 0 t) (iblk0 V c 1 t) (iblk0 V c 2 t) (iblk0 V c 3 t) (iblk0 V c 4 t) (iblk0 V c 5 t)
    (V c main_v4) (V c main_v5) (V c main_v6) (V c main_v7) (V c main_v8) (V c main_v9) P p q
    (xcol_apply V c t p P hP) (ycol_apply V c t p P hP) (rcol_apply V c t p P hP)
    (xrow_apply V c t) (yrow_apply V c t) (rrow_apply V c t)

/-- What point `t` writes back is block `t` of the tiled reading of the arrays. -/
private theorem flushed_eq (c : Dev nD) (t : Fin cfg0.N) :
    (dat0 (F := Ideal) V c).flushed 6 t
      = ((cfg0.win 6).blk t).view.read (Elt Ideal)
          (fun j => ccK (V c main_v4) (V c main_v5) (V c main_v6) (V c main_v7) (V c main_v8) (V c main_v9) (j 0) (j 1)) := by
  show (cfg0.win 6).cut (grid0.coords t) ((dat0 (F := Ideal) V c).after 6 t) = _
  rw [after0_6]
  unfold out0_6
  rw [View.canon_unit_zero hz]
  simp only [View.ld_unit_zero (S := S128x1) hz, View.ld_unit_zero (S := S1x4096) hz]
  obtain ⟨-, -, -, -, -, -, -, -, -, -, -, -, e0, e1⟩ := idx_facts t
  funext j
  obtain ⟨p, q, rfl⟩ : ∃ (p : Fin 128) (q : Fin 2), j = ix2 p q := ⟨j 0, j 1, eq_ix2 (n0 := 128) (n1 := 2) j⟩
  have hP : ((((cfg0.win 6).blk t).view.emb (ix2 p q)) 0).val = t.val * 128 + p.val := by
    show win0_6.index t (0 : Fin 2) * 128 + 1 * p.val = _
    rw [e0]; omega
  have hQ : q = (((cfg0.win 6).blk t).view.emb (ix2 p q)) 1 := Fin.ext (by
    show q.val = win0_6.index t (1 : Fin 2) * 2 + 1 * q.val
    rw [e1]; omega)
  exact (stored_at V c t p q _ hP).trans
    (congrArg (ccK (V c main_v4) (V c main_v5) (V c main_v6) (V c main_v7) (V c main_v8) (V c main_v9) _) hQ)

/-- An index of the array lies in point `t`'s block iff each coordinate lies in the block's range on its axis. -/
private theorem mem_blk (t : Fin cfg0.N) (i : S4096x2.Idx) :
    i ∈ ((cfg0.win 6).blk t).view.set ↔ ∀ a : Fin 2, win0_6.index t a * S128x2.size a ≤ (i a).val ∧ (i a).val < win0_6.index t a * S128x2.size a + S128x2.size a := by
  show i ∈ ((View.whole main_v10).slice (win0_6.rect t)).set ↔ _
  rw [View.set_slice_whole, Rect.mem_set_unit]
  exact Iff.rfl

/-- Row `r` of the array lies in the block of point `r / 128`: the blocks fill the array. -/
private theorem covered (i : S4096x2.Idx) :
    ∃ t : Fin cfg0.N, (cfg0.win 6).flush t = true ∧ i ∈ ((cfg0.win 6).blk t).view.set := by
  have hi0 : (i 0).val < 4096 := (i 0).isLt
  have hi1 : (i 1).val < 2 := (i 1).isLt
  have hN : cfg0.N = 32 := N_0
  obtain ⟨t, ht⟩ : ∃ t : Fin cfg0.N, t.val = (i 0).val / 128 := ⟨⟨(i 0).val / 128, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 128 ≤ (i 0).val ∧ (i 0).val < win0_6.index t (0 : Fin 2) * 128 + 128
    rw [e0, ht]; omega
  | ⟨1, _⟩ =>
    show win0_6.index t (1 : Fin 2) * 2 ≤ (i 1).val ∧ (i 1).val < win0_6.index t (1 : Fin 2) * 2 + 2
    rw [e1]; omega

/-- The region's output array after its last grid point. -/
theorem final (c : Dev nD) :
    (dat0 (F := Ideal) V c).arrAt 6 cfg0.N
      = fun j => ccK (V c main_v4) (V c main_v5) (V c main_v6) (V c main_v7) (V c main_v8) (V c main_v9) (j 0) (j 1) :=
  (dat0 (F := Ideal) V c).arrAt_eq_of_cover 6 _ (fun t _ => flushed_eq V c t) (fun i => covered i)

end Cert.KernelIdeal.Region0

end
-- ==== Proof.Region1.lean ====
/-
  Region 1 (box against box), at any contents `V` the region is entered from: its output array after the last grid point
  is the tiled reading `aaK` of its eight window arrays. The body's diagonal mask compares the words `128·t + p` and `a`
  (row iota off the block's first row, against the lane iota): for rows below 2048 that is `offdiag (128·t + p) a`.

  The grid has 16 points. At point `t` the four column windows hold rows `128·t … 128·t + 127` of their `[2048, 1]`
  arrays, the four row windows hold the whole of their `[1, 2048]` arrays, and the body writes rows
  `128·t … 128·t + 127` of the `[2048, 2]` output: at row `p` of the block, coordinate 0 is the sum over all boxes `a`
  of the push along x of box `128·t + p` by box `a`, coordinate 1 the same along y. The sixteen blocks tile the
  output, so after the last point it is `aaK` at every row.
-/
import proofs.«173810_j58935541236175_1_alg».proof.Proof.KernelIdealFrame
import proofs.«173810_j58935541236175_1_alg».proof.Proof.Spec
import proofs.«173810_j58935541236175_1_alg».proof.Proof.LibRowwise

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Collide

/-! ## Two layout operations read at an index -/

section Layout

variable {A B : Nat} {α : Type}

/-- A row `[1, B]` broadcast down the rows to `[A, B]` reads, at `(p, q)`, the row at `(0, q)`. -/
private theorem rowBroadcast_apply (v : (⟨2, ![1, B]⟩ : Shape).Idx → α) (h : (⟨2, ![1, B]⟩ : Shape).Broadcasts ⟨2, ![A, B]⟩)
    (hB : B ≠ 1) (p : Fin A) (q : Fin B) : broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

/-- Two columns `[A, 1]` laid side by side read, at `(p, 0)`, the first column at row `p` … -/
private theorem sideBySide_apply_zero (x₁ x₂ : (⟨2, ![A, 1]⟩ : Shape).Idx → α)
    (h : Shape.Concatenates [(⟨2, ![A, 1]⟩ : Shape), ⟨2, ![A, 1]⟩] ⟨2, ![A, 2]⟩ 1) (p : Fin A) :
    concatenate ⟨2, ![A, 2]⟩ 1 [⟨⟨2, ![A, 1]⟩, x₁⟩, ⟨⟨2, ![A, 1]⟩, x₂⟩] h (ix2 p 0) = x₁ (ix2 p 0) := by
  refine concatenate_pair_apply_left 1 x₁ x₂ h (ix2 p 0) rfl (ix2 p 0) fun b => ?_
  match b with
  | ⟨0, _⟩ => rfl
  | ⟨1, _⟩ => rfl

/-- … and, at `(p, 1)`, the second column at row `p`. -/
private theorem sideBySide_apply_one (x₁ x₂ : (⟨2, ![A, 1]⟩ : Shape).Idx → α)
    (h : Shape.Concatenates [(⟨2, ![A, 1]⟩ : Shape), ⟨2, ![A, 1]⟩] ⟨2, ![A, 2]⟩ 1) (p : Fin A) :
    concatenate ⟨2, ![A, 2]⟩ 1 [⟨⟨2, ![A, 1]⟩, x₁⟩, ⟨⟨2, ![A, 1]⟩, x₂⟩] h (ix2 p 1) = x₂ (ix2 p 0) := by
  refine concatenate_pair_apply_right 1 x₁ x₂ h (ix2 p 1) rfl rfl (ix2 p 0) (fun b hb => ?_) rfl
  match b with
  | ⟨0, _⟩ => rfl
  | ⟨1, _⟩ => exact absurd rfl hb

end Layout

/-! ## The diagonal mask: words below `2³²` compare as the numbers they hold -/

/-- For a block `t < 16`, a row `p < 128` of it and a lane `a < 2048`, the words `t · 128 + p` and `a` differ exactly
    when the numbers `128·t + p` and `a` do: nothing wraps. -/
private theorem mask_word (t p a : Nat) (ht : t < 16) (hp : p < 128) (ha : a < 2048) :
    IntOp.cmpi .ne (IntOp.addi (Scalar.muli (BitVec.ofNat 32 t) 128#32) (BitVec.ofNat 32 p)) (BitVec.ofNat 32 a)
      = offdiag (128 * t + p) a := by
  have hx : IntOp.addi (Scalar.muli (BitVec.ofNat 32 t) 128#32) (BitVec.ofNat 32 p) = BitVec.ofNat 32 (t * 128 + p) := by
    show BitVec.ofNat 32 t * BitVec.ofNat 32 128 + BitVec.ofNat 32 p = _
    rw [BitVec.ofNat_add, BitVec.ofNat_mul]
  rw [hx]
  unfold offdiag
  by_cases h : 128 * t + p = a
  · rw [if_pos h]
    have e : t * 128 + p = a := by omega
    rw [e]
    show BitVec.ofBool (BitVec.ofNat 32 a != BitVec.ofNat 32 a) = 0#1
    rw [bne_self_eq_false]
    rfl
  · rw [if_neg h]
    have hne : BitVec.ofNat 32 (t * 128 + p) ≠ BitVec.ofNat 32 a := fun e => h (by
      have e' := congrArg BitVec.toNat e
      rw [BitVec.toNat_ofNat, BitVec.toNat_ofNat] at e'
      omega)
    show BitVec.ofBool (BitVec.ofNat 32 (t * 128 + p) != BitVec.ofNat 32 a) = 1#1
    rw [bne_iff_ne.mpr hne]
    rfl

/-- The grid has one axis, so a point's one coordinate is the point's number. -/
private theorem coords_val : ∀ t : Fin cfg1.N, (grid1.coords t 0).val = t.val :=
  (by decide +kernel : ∀ t : Fin grid1.N, (grid1.coords t 0).val = t.val)

/-! ## The body's values at an index -/

section Body

open Cert.Lib.Rowwise

/-- The row word `w + p` (a block's first row plus the row iota) broadcast along the lanes. -/
private theorem rowWord_apply (w : BitVec 32) (p : Fin 128) (a : Fin 2048) :
    broadcastTo S128x2048 (addi (broadcast S128x1 w) (iota .tc S128x1 32 [0] iota_S128x1_d0_w32)) broadcasts_S128x1_S128x2048 (ix2 p a)
      = IntOp.addi w (BitVec.ofNat 32 p.val) :=
  (columnBroadcast_apply _ _ (by decide) p a).trans
    (congrArg (IntOp.addi w) (iota_single_apply .tc S128x1 32 0 iota_S128x1_d0_w32 (ix2 p 0)))

/-- The lane iota broadcast down the rows. -/
private theorem laneWord_apply (p : Fin 128) (a : Fin 2048) :
    broadcastTo S128x2048 (iota .tc S1x2048 32 [1] iota_S1x2048_d1_w32) broadcasts_S1x2048_S128x2048 (ix2 p a)
      = BitVec.ofNat 32 a.val :=
  (rowBroadcast_apply _ _ (by decide) p a).trans (iota_single_apply .tc S1x2048 32 1 iota_S1x2048_d1_w32 (ix2 0 a))

/-- The mask at row `p` of the block at coordinate `i` and lane `a`: off the diagonal of rows `128·i + p` against `a`. -/
private theorem mask_apply (i : grid1.Coords) (p : Fin 128) (a : Fin 2048) :
    k1_pay6 i (ix2 p a) = offdiag (128 * (i 0).val + p.val) a.val :=
  (congrArg₂ (IntOp.cmpi .ne) (rowWord_apply _ p a) (laneWord_apply p a)).trans
    (mask_word (i 0).val p.val a.val (i 0).isLt p.isLt a.isLt)

variable (x h : FVec Ideal S128x1 .f32) (y g : FVec Ideal S1x2048 .f32)

/-- The x offsets: kept box `p` minus scanned box `a`. -/
private theorem offsetX_apply (p : Fin 128) (a : Fin 2048) :
    k1_pay2 (F := Ideal) x y (ix2 p a) = x (ix2 p 0) - y (ix2 0 a) := by
  unfold k1_pay2
  rw [shapeCast_self, shapeCast_self]
  exact congrArg₂ (· - ·) (columnBroadcast_apply x _ (by decide) p a) (rowBroadcast_apply y _ (by decide) p a)

/-- The y offsets. -/
private theorem offsetY_apply (p : Fin 128) (a : Fin 2048) :
    k1_pay3 (F := Ideal) x y (ix2 p a) = x (ix2 p 0) - y (ix2 0 a) := by
  unfold k1_pay3
  rw [shapeCast_self, shapeCast_self]
  exact congrArg₂ (· - ·) (columnBroadcast_apply x _ (by decide) p a) (rowBroadcast_apply y _ (by decide) p a)

/-- The overlap on x: the half-extents summed, less the offset's absolute value. -/
private theorem overlapX_apply (p : Fin 128) (a : Fin 2048) :
    k1_pay4 (F := Ideal) x h y g (ix2 p a) = ov (h (ix2 p 0)) (g (ix2 0 a)) (x (ix2 p 0) - y (ix2 0 a)) := by
  unfold k1_pay4
  rw [shapeCast_self, shapeCast_self]
  exact congrArg₂ (· - ·)
    (congrArg₂ (· + ·) (columnBroadcast_apply h _ (by decide) p a) (rowBroadcast_apply g _ (by decide) p a))
    (congrArg (FloatOps.absf (F := Ideal) (φ := .f32)) (offsetX_apply x y p a))

/-- The overlap on y. -/
private theorem overlapY_apply (p : Fin 128) (a : Fin 2048) :
    k1_pay5 (F := Ideal) x h y g (ix2 p a) = ov (h (ix2 p 0)) (g (ix2 0 a)) (x (ix2 p 0) - y (ix2 0 a)) := by
  unfold k1_pay5
  rw [shapeCast_self, shapeCast_self]
  exact congrArg₂ (· - ·)
    (congrArg₂ (· + ·) (columnBroadcast_apply h _ (by decide) p a) (rowBroadcast_apply g _ (by decide) p a))
    (congrArg (FloatOps.absf (F := Ideal) (φ := .f32)) (offsetY_apply x y p a))

variable (dx dy ox oy : FVec Ideal S128x2048 .f32) (m : IVec S128x2048 1)

/-- The stored value at `(p, 0)`: the pushes along x of row `p`, summed over the lanes. -/
private theorem pushes_apply_zero (p : Fin 128) :
    k1_pay1 dx dy ox oy m (k1_pay7 (F := Ideal)) (ix2 p 0)
      = ∑ a : Fin 2048, boxX (m (ix2 p a)) (dx (ix2 p a)) (dy (ix2 p a)) (ox (ix2 p a)) (oy (ix2 p a)) := by
  unfold k1_pay1
  dsimp only
  refine (sideBySide_apply_zero _ _ _ p).trans ?_
  refine (column_apply _ _ p 0).trans ?_
  refine (laneSum_apply _ _ _ _ _ p).trans ?_
  exact Finset.sum_congr rfl fun a _ => rfl

/-- The stored value at `(p, 1)`: the pushes along y. -/
private theorem pushes_apply_one (p : Fin 128) :
    k1_pay1 dx dy ox oy m (k1_pay7 (F := Ideal)) (ix2 p 1)
      = ∑ a : Fin 2048, boxY (m (ix2 p a)) (dx (ix2 p a)) (dy (ix2 p a)) (ox (ix2 p a)) (oy (ix2 p a)) := by
  unfold k1_pay1
  dsimp only
  refine (sideBySide_apply_one _ _ _ p).trans ?_
  refine (column_apply _ _ p 0).trans ?_
  refine (laneSum_apply _ _ _ _ _ p).trans ?_
  exact Finset.sum_congr rfl fun a _ => rfl

end Body

/-! ## What one grid point leaves in the output's buffer -/

private theorem hz : (![0, 0] : Fin 2 → Nat) = fun _ => 0 := funext fun a => by fin_cases a <;> rfl

section Block

variable (i : grid1.Coords) (x0 x1 x2 x3 : FVec Ideal S128x1 .f32) (x4 x5 x6 x7 : FVec Ideal S1x2048 .f32)

/-- Row `p` of the buffer after the body, coordinate 0: the pushes along x of box `128·i + p` by every box `a`, from the
    loaded blocks (columns `x hx` / `y hy` of the kept boxes, rows of all). -/
private theorem block_apply_zero (p : Fin 128) :
    out1_8 (F := Ideal) i x0 x1 x2 x3 x4 x5 x6 x7 (ix2 p 0)
      = ∑ a : Fin 2048, boxX (offdiag (128 * (i 0).val + p.val) a.val) (x0 (ix2 p 0) - x4 (ix2 0 a)) (x1 (ix2 p 0) - x5 (ix2 0 a))
          (ov (x2 (ix2 p 0)) (x6 (ix2 0 a)) (x0 (ix2 p 0) - x4 (ix2 0 a))) (ov (x3 (ix2 p 0)) (x7 (ix2 0 a)) (x1 (ix2 p 0) - x5 (ix2 0 a))) := by
  unfold out1_8
  rw [View.canon_unit_zero hz]
  simp only [View.ld_unit_zero (S := S128x1) hz, View.ld_unit_zero (S := S1x2048) hz]
  refine (pushes_apply_zero _ _ _ _ _ p).trans ?_
  refine Finset.sum_congr rfl fun a _ => ?_
  rw [mask_apply, offsetX_apply, offsetY_apply, overlapX_apply, overlapY_apply]

/-- Coordinate 1: the pushes along y. -/
private theorem block_apply_one (p : Fin 128) :
    out1_8 (F := Ideal) i x0 x1 x2 x3 x4 x5 x6 x7 (ix2 p 1)
      = ∑ a : Fin 2048, boxY (offdiag (128 * (i 0).val + p.val) a.val) (x0 (ix2 p 0) - x4 (ix2 0 a)) (x1 (ix2 p 0) - x5 (ix2 0 a))
          (ov (x2 (ix2 p 0)) (x6 (ix2 0 a)) (x0 (ix2 p 0) - x4 (ix2 0 a))) (ov (x3 (ix2 p 0)) (x7 (ix2 0 a)) (x1 (ix2 p 0) - x5 (ix2 0 a))) := by
  unfold out1_8
  rw [View.canon_unit_zero hz]
  simp only [View.ld_unit_zero (S := S128x1) hz, View.ld_unit_zero (S := S1x2048) hz]
  refine (pushes_apply_one _ _ _ _ _ p).trans ?_
  refine Finset.sum_congr rfl fun a _ => ?_
  rw [mask_apply, offsetX_apply, offsetY_apply, overlapX_apply, overlapY_apply]

/-- Both coordinates at once, in the specification's form. -/
private theorem block_apply (p : Fin 128) (q : Fin 2) :
    out1_8 (F := Ideal) i x0 x1 x2 x3 x4 x5 x6 x7 (ix2 p q)
      = if q.val = 0 then
          ∑ a : Fin 2048, boxX (offdiag (128 * (i 0).val + p.val) a.val) (x0 (ix2 p 0) - x4 (ix2 0 a)) (x1 (ix2 p 0) - x5 (ix2 0 a))
            (ov (x2 (ix2 p 0)) (x6 (ix2 0 a)) (x0 (ix2 p 0) - x4 (ix2 0 a))) (ov (x3 (ix2 p 0)) (x7 (ix2 0 a)) (x1 (ix2 p 0) - x5 (ix2 0 a)))
        else
          ∑ a : Fin 2048, boxY (offdiag (128 * (i 0).val + p.val) a.val) (x0 (ix2 p 0) - x4 (ix2 0 a)) (x1 (ix2 p 0) - x5 (ix2 0 a))
            (ov (x2 (ix2 p 0)) (x6 (ix2 0 a)) (x0 (ix2 p 0) - x4 (ix2 0 a))) (ov (x3 (ix2 p 0)) (x7 (ix2 0 a)) (x1 (ix2 p 0) - x5 (ix2 0 a))) := by
  match q with
  | ⟨0, _⟩ => exact (block_apply_zero i x0 x1 x2 x3 x4 x5 x6 x7 p).trans (if_pos rfl).symm
  | ⟨1, _⟩ => exact (block_apply_one i x0 x1 x2 x3 x4 x5 x6 x7 p).trans (if_neg Nat.one_ne_zero).symm

end Block

/-! ## The windows' blocks, as rows of their arrays -/

variable (V : (c : Dev nD) → (b : Ref sig .tc) → Buf (Elt Ideal) ((c : Thread nD τ).loc b))

/-- The printed index maps over the grid: a column window's block and the output's block at point `t` are block `t` of
    the rows; a row window's block is always the whole array. -/
private theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-- Row `p` of block `t`, as a row of the whole array. -/
private def blockRow (t : Fin cfg1.N) (p : Fin 128) : Fin 2048 :=
  ⟨128 * t.val + p.val, by have ht : t.val < 16 := lt_of_lt_of_eq t.isLt N_1; have hp := p.isLt; omega⟩

section Inputs

variable (c : Dev nD) (t : Fin cfg1.N)

/-- The kept boxes' x column at point `t`: rows `128·t …` of the array. -/
private theorem col0_apply (p : Fin 128) :
    (iblk1 V c 0 t : FVec Ideal S128x1 .f32) (ix2 p 0) = (V c main_v19 : Arr 2048 1) (ix2 (blockRow t p) 0) := by
  obtain ⟨⟨e0, e1⟩, -⟩ := idx_facts t
  unfold iblk1
  rw [View.read_apply]
  refine congrArg (V c main_v19 : Arr 2048 1) ?_
  funext a; apply Fin.ext
  match a with
  | ⟨0, _⟩ => show win1_0.index t (0 : Fin 2) * 128 + 1 * p.val = 128 * t.val + p.val; rw [e0]; omega
  | ⟨1, _⟩ => show win1_0.index t (1 : Fin 2) * 1 + 1 * 0 = 0; rw [e1]

/-- Their y column. -/
private theorem col1_apply (p : Fin 128) :
    (iblk1 V c 1 t : FVec Ideal S128x1 .f32) (ix2 p 0) = (V c main_v20 : Arr 2048 1) (ix2 (blockRow t p) 0) := by
  obtain ⟨-, ⟨e0, e1⟩, -⟩ := idx_facts t
  unfold iblk1
  rw [View.read_apply]
  refine congrArg (V c main_v20 : Arr 2048 1) ?_
  funext a; apply Fin.ext
  match a with
  | ⟨0, _⟩ => show win1_1.index t (0 : Fin 2) * 128 + 1 * p.val = 128 * t.val + p.val; rw [e0]; omega
  | ⟨1, _⟩ => show win1_1.index t (1 : Fin 2) * 1 + 1 * 0 = 0; rw [e1]

/-- Their half-extents on x. -/
private theorem col2_apply (p : Fin 128) :
    (iblk1 V c 2 t : FVec Ideal S128x1 .f32) (ix2 p 0) = (V c main_v21 : Arr 2048 1) (ix2 (blockRow t p) 0) := by
  obtain ⟨-, -, ⟨e0, e1⟩, -⟩ := idx_facts t
  unfold iblk1
  rw [View.read_apply]
  refine congrArg (V c main_v21 : Arr 2048 1) ?_
  funext a; apply Fin.ext
  match a with
  | ⟨0, _⟩ => show win1_2.index t (0 : Fin 2) * 128 + 1 * p.val = 128 * t.val + p.val; rw [e0]; omega
  | ⟨1, _⟩ => show win1_2.index t (1 : Fin 2) * 1 + 1 * 0 = 0; rw [e1]

/-- Their half-extents on y. -/
private theorem col3_apply (p : Fin 128) :
    (iblk1 V c 3 t : FVec Ideal S128x1 .f32) (ix2 p 0) = (V c main_v22 : Arr 2048 1) (ix2 (blockRow t p) 0) := by
  obtain ⟨-, -, -, ⟨e0, e1⟩, -⟩ := idx_facts t
  unfold iblk1
  rw [View.read_apply]
  refine congrArg (V c main_v22 : Arr 2048 1) ?_
  funext a; apply Fin.ext
  match a with
  | ⟨0, _⟩ => show win1_3.index t (0 : Fin 2) * 128 + 1 * p.val = 128 * t.val + p.val; rw [e0]; omega
  | ⟨1, _⟩ => show win1_3.index t (1 : Fin 2) * 1 + 1 * 0 = 0; rw [e1]

/-- All boxes' x row: the whole array at every point. -/
private theorem row4_eq : (iblk1 V c 4 t : FVec Ideal S1x2048 .f32) = (V c main_v23 : Arr 1 2048) := by
  obtain ⟨-, -, -, -, ⟨e0, e1⟩, -⟩ := idx_facts t
  funext y
  unfold iblk1
  rw [View.read_apply]
  refine congrArg (V c main_v23 : Arr 1 2048) ?_
  funext a; apply Fin.ext
  match a with
  | ⟨0, _⟩ => show win1_4.index t (0 : Fin 2) * 1 + 1 * (y 0).val = (y 0).val; rw [e0]; omega
  | ⟨1, _⟩ => show win1_4.index t (1 : Fin 2) * 2048 + 1 * (y 1).val = (y 1).val; rw [e1]; omega

/-- Their y row. -/
private theorem row5_eq : (iblk1 V c 5 t : FVec Ideal S1x2048 .f32) = (V c main_v24 : Arr 1 2048) := by
  obtain ⟨-, -, -, -, -, ⟨e0, e1⟩, -⟩ := idx_facts t
  funext y
  unfold iblk1
  rw [View.read_apply]
  refine congrArg (V c main_v24 : Arr 1 2048) ?_
  funext a; apply Fin.ext
  match a with
  | ⟨0, _⟩ => show win1_5.index t (0 : Fin 2) * 1 + 1 * (y 0).val = (y 0).val; rw [e0]; omega
  | ⟨1, _⟩ => show win1_5.index t (1 : Fin 2) * 2048 + 1 * (y 1).val = (y 1).val; rw [e1]; omega

/-- Their half-extents on x. -/
private theorem row6_eq : (iblk1 V c 6 t : FVec Ideal S1x2048 .f32) = (V c main_v25 : Arr 1 2048) := by
  obtain ⟨-, -, -, -, -, -, ⟨e0, e1⟩, -⟩ := idx_facts t
  funext y
  unfold iblk1
  rw [View.read_apply]
  refine congrArg (V c main_v25 : Arr 1 2048) ?_
  funext a; apply Fin.ext
  match a with
  | ⟨0, _⟩ => show win1_6.index t (0 : Fin 2) * 1 + 1 * (y 0).val = (y 0).val; rw [e0]; omega
  | ⟨1, _⟩ => show win1_6.index t (1 : Fin 2) * 2048 + 1 * (y 1).val = (y 1).val; rw [e1]; omega

/-- Their half-extents on y. -/
private theorem row7_eq : (iblk1 V c 7 t : FVec Ideal S1x2048 .f32) = (V c main_v26 : Arr 1 2048) := by
  obtain ⟨-, -, -, -, -, -, -, ⟨e0, e1⟩, -⟩ := idx_facts t
  funext y
  unfold iblk1
  rw [View.read_apply]
  refine congrArg (V c main_v26 : Arr 1 2048) ?_
  funext a; apply Fin.ext
  match a with
  | ⟨0, _⟩ => show win1_7.index t (0 : Fin 2) * 1 + 1 * (y 0).val = (y 0).val; rw [e0]; omega
  | ⟨1, _⟩ => show win1_7.index t (1 : Fin 2) * 2048 + 1 * (y 1).val = (y 1).val; rw [e1]; omega

end Inputs

/-! ## From the blocks to the array -/

/-- WHAT POINT `t` WRITES BACK is block `t` of the tiled reading of the eight arrays: rows `128·t … 128·t + 127`. -/
private theorem written_block (c : Dev nD) (t : Fin cfg1.N) :
    (dat1 (F := Ideal) V c).flushed 8 t
      = ((cfg1.win 8).blk t).view.read (Elt Ideal)
          (fun j => aaK (V c main_v19) (V c main_v20) (V c main_v21) (V c main_v22) (V c main_v23) (V c main_v24) (V c main_v25) (V c main_v26) (j 0) (j 1)) := by
  show (cfg1.win 8).cut (grid1.coords t) ((dat1 V c).after 8 t) = _
  rw [after1_8]
  funext y
  obtain ⟨p, q, rfl⟩ : ∃ (p : Fin 128) (q : Fin 2), y = ix2 p q := ⟨y 0, y 1, eq_ix2 (n0 := 128) (n1 := 2) y⟩
  obtain ⟨-, -, -, -, -, -, -, -, e0, e1⟩ := idx_facts t
  have hrow : ((cfg1.win 8).blk t).view.emb (ix2 p q) = ix2 (blockRow t p) q := by
    funext a; apply Fin.ext
    match a with
    | ⟨0, _⟩ => show win1_8.index t (0 : Fin 2) * 128 + 1 * p.val = 128 * t.val + p.val; rw [e0]; omega
    | ⟨1, _⟩ => show win1_8.index t (1 : Fin 2) * 2 + 1 * q.val = q.val; rw [e1]; omega
  rw [View.read_apply, hrow]
  refine (block_apply (grid1.coords t) (iblk1 V c 0 t) (iblk1 V c 1 t) (iblk1 V c 2 t) (iblk1 V c 3 t)
    (iblk1 V c 4 t) (iblk1 V c 5 t) (iblk1 V c 6 t) (iblk1 V c 7 t) p q).trans ?_
  rw [coords_val t, col0_apply V c t p, col1_apply V c t p, col2_apply V c t p, col3_apply V c t p,
    row4_eq V c t, row5_eq V c t, row6_eq V c t, row7_eq V c t]
  rfl

/-- An index of the array is in point `t`'s block iff each coordinate is in the block's range on its axis. -/
private theorem mem_blk (t : Fin cfg1.N) (i : S2048x2.Idx) :
    i ∈ ((cfg1.win 8).blk t).view.set ↔ ∀ a : Fin 2, win1_8.index t a * S128x2.size a ≤ (i a).val ∧ (i a).val < win1_8.index t a * S128x2.size a + S128x2.size a := by
  show i ∈ ((View.whole main_v27).slice (win1_8.rect t)).set ↔ _
  rw [View.set_slice_whole, Rect.mem_set_unit]
  exact Iff.rfl

/-- Row `r` of the output is in the block of point `r / 128`, which writes back like every point. -/
private theorem covered (i : S2048x2.Idx) :
    ∃ t : Fin cfg1.N, (cfg1.win 8).flush t = true ∧ i ∈ ((cfg1.win 8).blk t).view.set := by
  have h0 : (i 0).val < 2048 := idx2_lt0 i
  have h1 : (i 1).val < 2 := idx2_lt1 i
  have hlt : (i 0).val / 128 < cfg1.N := lt_of_lt_of_eq (by omega : (i 0).val / 128 < 16) N_1.symm
  obtain ⟨-, -, -, -, -, -, -, -, e0, e1⟩ := idx_facts ⟨(i 0).val / 128, hlt⟩
  refine ⟨⟨(i 0).val / 128, hlt⟩, flush1_8 _, ?_⟩
  rw [mem_blk]
  intro a
  match a with
  | ⟨0, _⟩ =>
    show win1_8.index ⟨(i 0).val / 128, hlt⟩ (0 : Fin 2) * 128 ≤ (i 0).val ∧ (i 0).val < win1_8.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win1_8.index ⟨(i 0).val / 128, hlt⟩ (1 : Fin 2) * 2 ≤ (i 1).val ∧ (i 1).val < win1_8.index ⟨(i 0).val / 128, hlt⟩ (1 : Fin 2) * 2 + 2
    rw [e1]
    omega

/-- The region's output array after its last grid point. -/
theorem final (c : Dev nD) :
    (dat1 (F := Ideal) V c).arrAt 8 cfg1.N
      = fun j => aaK (V c main_v19) (V c main_v20) (V c main_v21) (V c main_v22) (V c main_v23) (V c main_v24) (V c main_v25) (V c main_v26) (j 0) (j 1) :=
  (dat1 (F := Ideal) V c).arrAt_eq_of_cover 8 _ (fun t _ => written_block V c t) (fun i => covered i)

end Cert.KernelIdeal.Region1

end
-- ==== Proof.Region2.lean ====
/-
  Region 2 (circle against box, the push on the circle), at any contents `V` the region is entered from: its output array
  after the last grid point is the tiled reading `cacK` of its seven window arrays.

  Block `t` of the output holds rows `128·t … 128·t + 127`. Row `p` of a block has two entries, the lane sums over the
  2048 boxes of the push along x and along y; the columns `x y r` of the circles are read at row `128·t + p`, the rows
  `x y hx hy` of the boxes whole. The 32 blocks fill the `[4096, 2]` array, row `r` lying in block `r / 128`.
-/
import proofs.«173810_j58935541236175_1_alg».proof.Proof.KernelIdealFrame
import proofs.«173810_j58935541236175_1_alg».proof.Proof.Spec
import proofs.«173810_j58935541236175_1_alg».proof.Proof.LibRowwise

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Collide

/-! ## The body's layout operations, read at an index -/

/-- A row `[1, B]` broadcast down the rows to `[A, B]` reads, at `(p, q)`, the row at `(0, q)`. -/
private theorem rowBroadcast_apply {A B : Nat} {α : Type} (v : (⟨2, ![1, B]⟩ : Shape).Idx → α)
    (h : (⟨2, ![1, B]⟩ : Shape).Broadcasts ⟨2, ![A, B]⟩) (hB : B ≠ 1) (p : Fin A) (q : Fin B) :
    broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

/-- The same broadcast as a function of the index: it forgets the row. -/
private theorem rowBroadcast_eq {A B : Nat} {α : Type} (v : (⟨2, ![1, B]⟩ : Shape).Idx → α)
    (h : (⟨2, ![1, B]⟩ : Shape).Broadcasts ⟨2, ![A, B]⟩) (hB : B ≠ 1) :
    broadcastTo ⟨2, ![A, B]⟩ v h = fun j => v (ix2 0 (j 1)) := by
  funext j
  obtain ⟨p, q, rfl⟩ : ∃ (p : Fin A) (q : Fin B), j = ix2 p q := ⟨j 0, j 1, eq_ix2 j⟩
  exact rowBroadcast_apply v h hB p q

/-- A column `[A, 1]` broadcast along the lanes to `[A, B]`, as a function of the index: it forgets the lane. -/
private theorem colBroadcast_eq {A B : Nat} {α : Type} (v : (⟨2, ![A, 1]⟩ : Shape).Idx → α)
    (h : (⟨2, ![A, 1]⟩ : Shape).Broadcasts ⟨2, ![A, B]⟩) (hA : A ≠ 1) :
    broadcastTo ⟨2, ![A, B]⟩ v h = fun j => v (ix2 (j 0) 0) := by
  funext j
  obtain ⟨p, q, rfl⟩ : ∃ (p : Fin A) (q : Fin B), j = ix2 p q := ⟨j 0, j 1, eq_ix2 j⟩
  exact Cert.Lib.Rowwise.columnBroadcast_apply v h hA p q

/-- Two columns `[A, 1]` set side by side as `[A, 2]`: entry `(p, 0)` is the first column's row `p`. -/
private theorem sideBySide_left {A : Nat} {α : Type} (x₁ x₂ : (⟨2, ![A, 1]⟩ : Shape).Idx → α)
    (h : Shape.Concatenates [(⟨2, ![A, 1]⟩ : Shape), ⟨2, ![A, 1]⟩] ⟨2, ![A, 2]⟩ 1) (p : Fin A) :
    concatenate ⟨2, ![A, 2]⟩ 1 [⟨⟨2, ![A, 1]⟩, x₁⟩, ⟨⟨2, ![A, 1]⟩, x₂⟩] h (ix2 p 0) = x₁ (ix2 p 0) := by
  refine concatenate_pair_apply_left 1 x₁ x₂ h (ix2 p 0) rfl (ix2 p 0) fun b => ?_
  match b with
  | ⟨0, _⟩ => rfl
  | ⟨1, _⟩ => rfl

/-- … and entry `(p, 1)` is the second column's row `p`. -/
private theorem sideBySide_right {A : Nat} {α : Type} (x₁ x₂ : (⟨2, ![A, 1]⟩ : Shape).Idx → α)
    (h : Shape.Concatenates [(⟨2, ![A, 1]⟩ : Shape), ⟨2, ![A, 1]⟩] ⟨2, ![A, 2]⟩ 1) (p : Fin A) :
    concatenate ⟨2, ![A, 2]⟩ 1 [⟨⟨2, ![A, 1]⟩, x₁⟩, ⟨⟨2, ![A, 1]⟩, x₂⟩] h (ix2 p 1) = x₂ (ix2 p 0) := by
  refine concatenate_pair_apply_right 1 x₁ x₂ h (ix2 p 1) rfl rfl (ix2 p 0) (fun b hb => ?_) rfl
  match b with
  | ⟨0, _⟩ => rfl
  | ⟨1, _⟩ => exact absurd rfl hb

/-! ## The body's stored value at an entry of the block -/

/-- Entry `(p, 0)` of what the body stores, from the blocks it loads: the sum over the boxes of the push along x of
    circle row `p`, the offset taken from the box's closest point. -/
private theorem stored_x (x0 x1 x2 : Arr 128 1) (x3 x4 x5 x6 : Arr 1 2048) (p : Fin 128) :
    k2_pay1 (F := Ideal) (k2_pay2 (F := Ideal) x2) (k2_pay3 (F := Ideal) x0 x3 x5) (k2_pay4 (F := Ideal) x1 x4 x6) (k2_pay5 (F := Ideal) x0 x1 x3 x4 x5 x6) (k2_pay6 (F := Ideal) x0 x1 x3 x4 x5 x6) (ix2 p 0)
      = ∑ a : Fin 2048, pushK (diffK (x0 (ix2 p 0) - x3 (ix2 0 a)) (x5 (ix2 0 a))) (diffK (x1 (ix2 p 0) - x4 (ix2 0 a)) (x6 (ix2 0 a)))
          (x2 (ix2 p 0)) (diffK (x0 (ix2 p 0) - x3 (ix2 0 a)) (x5 (ix2 0 a))) := by
  unfold k2_pay1 k2_pay2 k2_pay6 k2_pay5 k2_pay3 k2_pay4
  simp only [colBroadcast_eq _ _ (show (128 : Nat) ≠ 1 by decide), rowBroadcast_eq _ _ (show (2048 : Nat) ≠ 1 by decide), shapeCast_self]
  refine (sideBySide_left _ _ _ p).trans ?_
  refine (Cert.Lib.Rowwise.column_apply _ _ p 0).trans ?_
  refine (Cert.Lib.Rowwise.laneSum_apply _ _ _ _ _ p).trans ?_
  exact Finset.sum_congr rfl fun a _ => rfl

/-- Entry `(p, 1)`: the same sum of the push along y. -/
private theorem stored_y (x0 x1 x2 : Arr 128 1) (x3 x4 x5 x6 : Arr 1 2048) (p : Fin 128) :
    k2_pay1 (F := Ideal) (k2_pay2 (F := Ideal) x2) (k2_pay3 (F := Ideal) x0 x3 x5) (k2_pay4 (F := Ideal) x1 x4 x6) (k2_pay5 (F := Ideal) x0 x1 x3 x4 x5 x6) (k2_pay6 (F := Ideal) x0 x1 x3 x4 x5 x6) (ix2 p 1)
      = ∑ a : Fin 2048, pushK (diffK (x0 (ix2 p 0) - x3 (ix2 0 a)) (x5 (ix2 0 a))) (diffK (x1 (ix2 p 0) - x4 (ix2 0 a)) (x6 (ix2 0 a)))
          (x2 (ix2 p 0)) (diffK (x1 (ix2 p 0) - x4 (ix2 0 a)) (x6 (ix2 0 a))) := by
  unfold k2_pay1 k2_pay2 k2_pay6 k2_pay5 k2_pay3 k2_pay4
  simp only [colBroadcast_eq _ _ (show (128 : Nat) ≠ 1 by decide), rowBroadcast_eq _ _ (show (2048 : Nat) ≠ 1 by decide), shapeCast_self]
  refine (sideBySide_right _ _ _ p).trans ?_
  refine (Cert.Lib.Rowwise.column_apply _ _ p 0).trans ?_
  refine (Cert.Lib.Rowwise.laneSum_apply _ _ _ _ _ p).trans ?_
  exact Finset.sum_congr rfl fun a _ => rfl

/-- The stored value at entry `y = (p, q)` of the block is the tiled reading at entry `i = (P, q)` of the array, once the
    column blocks at row `p` are the column arrays at row `P` and the row blocks are the row arrays. -/
private theorem stored_eq (x0 x1 x2 : Arr 128 1) (x3 x4 x5 x6 : Arr 1 2048) (X0 X1 X2 : Arr 4096 1) (X3 X4 X5 X6 : Arr 1 2048)
    (y : S128x2.Idx) (i : S4096x2.Idx) (p : Fin 128) (q : Fin 2) (P : Fin 4096) (hy : y = ix2 p q) (hi : i = ix2 P q)
    (h0 : x0 (ix2 p 0) = X0 (ix2 P 0)) (h1 : x1 (ix2 p 0) = X1 (ix2 P 0)) (h2 : x2 (ix2 p 0) = X2 (ix2 P 0))
    (h3 : x3 = X3) (h4 : x4 = X4) (h5 : x5 = X5) (h6 : x6 = X6) :
    k2_pay1 (F := Ideal) (k2_pay2 (F := Ideal) x2) (k2_pay3 (F := Ideal) x0 x3 x5) (k2_pay4 (F := Ideal) x1 x4 x6) (k2_pay5 (F := Ideal) x0 x1 x3 x4 x5 x6) (k2_pay6 (F := Ideal) x0 x1 x3 x4 x5 x6) y
      = cacK X0 X1 X2 X3 X4 X5 X6 (i 0) (i 1) := by
  subst hy hi h3 h4 h5 h6
  show k2_pay1 (F := Ideal) (k2_pay2 (F := Ideal) x2) (k2_pay3 (F := Ideal) x0 x3 x5) (k2_pay4 (F := Ideal) x1 x4 x6) (k2_pay5 (F := Ideal) x0 x1 x3 x4 x5 x6) (k2_pay6 (F := Ideal) x0 x1 x3 x4 x5 x6) (ix2 p q)
      = cacK X0 X1 X2 x3 x4 x5 x6 P q
  revert q
  refine Fin.forall_fin_two.mpr ⟨?_, ?_⟩
  · refine (stored_x x0 x1 x2 x3 x4 x5 x6 p).trans ?_
    rw [h0, h1, h2]
    exact (if_pos rfl).symm
  · refine (stored_y x0 x1 x2 x3 x4 x5 x6 p).trans ?_
    rw [h0, h1, h2]
    exact (if_neg (by decide)).symm

variable (V : (c : Dev nD) → (b : Ref sig .tc) → Buf (Elt Ideal) ((c : Thread nD τ).loc b))

/-! ## Where each window's block sits in its array -/

private theorem zeroOffsets : (![0, 0] : Fin 2 → Nat) = fun _ => 0 := funext fun a => by fin_cases a <;> rfl

/-- The block indices at point `t`, decided over the 32 points: the three column windows and the output move with `t`
    along the rows; the four row windows stay at block `(0, 0)`. -/
private theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Column window 0's block at point `t` is rows `128·t … 128·t + 127` of its array. -/
private theorem xBlock (c : Dev nD) (t : Fin cfg2.N) (p : Fin 128) (P : Fin 4096) (hP : P.val = 128 * t.val + p.val) :
    (iblk2 V c 0 t : Arr 128 1) (ix2 p 0) = (V c main_v40 : Arr 4096 1) (ix2 P 0) := by
  obtain ⟨e00, e01, e10, e11, e20, e21, e30, e31, e40, e41, e50, e51, e60, e61, e70, e71⟩ := blockIndex t
  unfold iblk2
  rw [View.read_apply]
  show V c main_v40 _ = V c main_v40 _
  congr 1
  funext a
  apply Fin.ext
  match a with
  | ⟨0, _⟩ => show win2_0.index t (0 : Fin 2) * 128 + 1 * p.val = P.val; omega
  | ⟨1, _⟩ => show win2_0.index t (1 : Fin 2) * 1 + 1 * 0 = 0; omega

/-- Column window 1's block at point `t` is rows `128·t … 128·t + 127` of its array. -/
private theorem yBlock (c : Dev nD) (t : Fin cfg2.N) (p : Fin 128) (P : Fin 4096) (hP : P.val = 128 * t.val + p.val) :
    (iblk2 V c 1 t : Arr 128 1) (ix2 p 0) = (V c main_v41 : Arr 4096 1) (ix2 P 0) := by
  obtain ⟨e00, e01, e10, e11, e20, e21, e30, e31, e40, e41, e50, e51, e60, e61, e70, e71⟩ := blockIndex t
  unfold iblk2
  rw [View.read_apply]
  show V c main_v41 _ = V c main_v41 _
  congr 1
  funext a
  apply Fin.ext
  match a with
  | ⟨0, _⟩ => show win2_1.index t (0 : Fin 2) * 128 + 1 * p.val = P.val; omega
  | ⟨1, _⟩ => show win2_1.index t (1 : Fin 2) * 1 + 1 * 0 = 0; omega

/-- Column window 2's block at point `t` is rows `128·t … 128·t + 127` of its array. -/
private theorem rBlock (c : Dev nD) (t : Fin cfg2.N) (p : Fin 128) (P : Fin 4096) (hP : P.val = 128 * t.val + p.val) :
    (iblk2 V c 2 t : Arr 128 1) (ix2 p 0) = (V c main_v42 : Arr 4096 1) (ix2 P 0) := by
  obtain ⟨e00, e01, e10, e11, e20, e21, e30, e31, e40, e41, e50, e51, e60, e61, e70, e71⟩ := blockIndex t
  unfold iblk2
  rw [View.read_apply]
  show V c main_v42 _ = V c main_v42 _
  congr 1
  funext a
  apply Fin.ext
  match a with
  | ⟨0, _⟩ => show win2_2.index t (0 : Fin 2) * 128 + 1 * p.val = P.val; omega
  | ⟨1, _⟩ => show win2_2.index t (1 : Fin 2) * 1 + 1 * 0 = 0; omega

/-- Row window 3's block at every point is its whole array. -/
private theorem boxXBlock (c : Dev nD) (t : Fin cfg2.N) : (iblk2 V c 3 t : Arr 1 2048) = (V c main_v43 : Arr 1 2048) := by
  obtain ⟨e00, e01, e10, e11, e20, e21, e30, e31, e40, e41, e50, e51, e60, e61, e70, e71⟩ := blockIndex t
  funext y
  unfold iblk2
  rw [View.read_apply]
  show V c main_v43 _ = V c main_v43 _
  congr 1
  funext a
  apply Fin.ext
  match a with
  | ⟨0, _⟩ => show win2_3.index t (0 : Fin 2) * 1 + 1 * (y 0).val = (y 0).val; omega
  | ⟨1, _⟩ => show win2_3.index t (1 : Fin 2) * 2048 + 1 * (y 1).val = (y 1).val; omega

/-- Row window 4's block at every point is its whole array. -/
private theorem boxYBlock (c : Dev nD) (t : Fin cfg2.N) : (iblk2 V c 4 t : Arr 1 2048) = (V c main_v44 : Arr 1 2048) := by
  obtain ⟨e00, e01, e10, e11, e20, e21, e30, e31, e40, e41, e50, e51, e60, e61, e70, e71⟩ := blockIndex t
  funext y
  unfold iblk2
  rw [View.read_apply]
  show V c main_v44 _ = V c main_v44 _
  congr 1
  funext a
  apply Fin.ext
  match a with
  | ⟨0, _⟩ => show win2_4.index t (0 : Fin 2) * 1 + 1 * (y 0).val = (y 0).val; omega
  | ⟨1, _⟩ => show win2_4.index t (1 : Fin 2) * 2048 + 1 * (y 1).val = (y 1).val; omega

/-- Row window 5's block at every point is its whole array. -/
private theorem boxHxBlock (c : Dev nD) (t : Fin cfg2.N) : (iblk2 V c 5 t : Arr 1 2048) = (V c main_v45 : Arr 1 2048) := by
  obtain ⟨e00, e01, e10, e11, e20, e21, e30, e31, e40, e41, e50, e51, e60, e61, e70, e71⟩ := blockIndex t
  funext y
  unfold iblk2
  rw [View.read_apply]
  show V c main_v45 _ = V c main_v45 _
  congr 1
  funext a
  apply Fin.ext
  match a with
  | ⟨0, _⟩ => show win2_5.index t (0 : Fin 2) * 1 + 1 * (y 0).val = (y 0).val; omega
  | ⟨1, _⟩ => show win2_5.index t (1 : Fin 2) * 2048 + 1 * (y 1).val = (y 1).val; omega

/-- Row window 6's block at every point is its whole array. -/
private theorem boxHyBlock (c : Dev nD) (t : Fin cfg2.N) : (iblk2 V c 6 t : Arr 1 2048) = (V c main_v46 : Arr 1 2048) := by
  obtain ⟨e00, e01, e10, e11, e20, e21, e30, e31, e40, e41, e50, e51, e60, e61, e70, e71⟩ := blockIndex t
  funext y
  unfold iblk2
  rw [View.read_apply]
  show V c main_v46 _ = V c main_v46 _
  congr 1
  funext a
  apply Fin.ext
  match a with
  | ⟨0, _⟩ => show win2_6.index t (0 : Fin 2) * 1 + 1 * (y 0).val = (y 0).val; omega
  | ⟨1, _⟩ => show win2_6.index t (1 : Fin 2) * 2048 + 1 * (y 1).val = (y 1).val; omega

/-! ## From blocks to the array -/

/-- What the output array holds in the end: the tiled reading of the seven window arrays. -/
private abbrev reading (c : Dev nD) : S4096x2.Idx → EReal :=
  fun i => cacK (V c main_v40) (V c main_v41) (V c main_v42) (V c main_v43) (V c main_v44) (V c main_v45) (V c main_v46) (i 0) (i 1)

/-- What point `t` writes back is block `t` of the reading. -/
private theorem flushed_eq (c : Dev nD) (t : Fin cfg2.N) :
    (dat2 (F := Ideal) V c).flushed 7 t = ((cfg2.win 7).blk t).view.read (Elt Ideal) (reading V c) := by
  show (cfg2.win 7).cut (grid2.coords t) ((dat2 (F := Ideal) V c).after 7 t) = _
  rw [after2_7]
  unfold out2_7
  rw [View.canon_unit_zero zeroOffsets]
  simp only [View.ld_unit_zero (S := S128x1) zeroOffsets, View.ld_unit_zero (S := S1x2048) zeroOffsets]
  funext j
  obtain ⟨e00, e01, e10, e11, e20, e21, e30, e31, e40, e41, e50, e51, e60, e61, e70, e71⟩ := blockIndex t
  have hN : t.val < 32 := by have h := t.isLt; have e : cfg2.N = 32 := N_2; omega
  have hp : (j 0).val < 128 := (j 0).isLt
  have hq : (j 1).val < 2 := (j 1).isLt
  exact stored_eq (iblk2 V c 0 t) (iblk2 V c 1 t) (iblk2 V c 2 t) (iblk2 V c 3 t) (iblk2 V c 4 t) (iblk2 V c 5 t) (iblk2 V c 6 t)
    (V c main_v40) (V c main_v41) (V c main_v42) (V c main_v43) (V c main_v44) (V c main_v45) (V c main_v46)
    ((cfg2.win 7).xinj (grid2.coords t) j) (((cfg2.win 7).blk t).view.emb j)
    ⟨(j 0).val, hp⟩ ⟨(j 1).val, hq⟩ ⟨128 * t.val + (j 0).val, by omega⟩
    (funext fun a => by match a with | ⟨0, _⟩ => rfl | ⟨1, _⟩ => rfl)
    (funext fun a => Fin.ext (by
      match a with
      | ⟨0, _⟩ => show win2_7.index t (0 : Fin 2) * 128 + 1 * (j 0).val = 128 * t.val + (j 0).val; omega
      | ⟨1, _⟩ => show win2_7.index t (1 : Fin 2) * 2 + 1 * (j 1).val = (j 1).val; omega))
    (xBlock V c t _ _ rfl) (yBlock V c t _ _ rfl) (rBlock V c t _ _ rfl)
    (boxXBlock V c t) (boxYBlock V c t) (boxHxBlock V c t) (boxHyBlock V c t)

/-- An entry of the array is in point `t`'s block iff each coordinate is in the block's range on its axis. -/
private theorem mem_block (t : Fin cfg2.N) (i : S4096x2.Idx) :
    i ∈ ((cfg2.win 7).blk t).view.set ↔ ∀ a : Fin 2, win2_7.index t a * S128x2.size a ≤ (i a).val ∧ (i a).val < win2_7.index t a * S128x2.size a + S128x2.size a := by
  show i ∈ ((View.whole main_v47).slice (win2_7.rect t)).set ↔ _
  rw [View.set_slice_whole, Rect.mem_set_unit]
  exact Iff.rfl

/-- Every entry is in some point's block: row `r` in that of point `r / 128`. -/
private theorem covered (i : S4096x2.Idx) :
    ∃ t : Fin cfg2.N, (cfg2.win 7).flush t = true ∧ i ∈ ((cfg2.win 7).blk t).view.set := by
  have hi0 : (i 0).val < 4096 := idx2_lt0 i
  have hi1 : (i 1).val < 2 := idx2_lt1 i
  obtain ⟨t, ht⟩ : ∃ t : Fin cfg2.N, t.val = (i 0).val / 128 :=
    ⟨⟨(i 0).val / 128, by rw [show cfg2.N = 32 from N_2]; omega⟩, rfl⟩
  obtain ⟨e00, e01, e10, e11, e20, e21, e30, e31, e40, e41, e50, e51, e60, e61, e70, e71⟩ := blockIndex t
  refine ⟨t, flush2_7 t, ?_⟩
  rw [mem_block]
  intro a
  match a with
  | ⟨0, _⟩ => show win2_7.index t (0 : Fin 2) * 128 ≤ (i 0).val ∧ (i 0).val < win2_7.index t (0 : Fin 2) * 128 + 128; omega
  | ⟨1, _⟩ => show win2_7.index t (1 : Fin 2) * 2 ≤ (i 1).val ∧ (i 1).val < win2_7.index t (1 : Fin 2) * 2 + 2; omega

/-- The region's output array after its last grid point. -/
theorem final (c : Dev nD) :
    (dat2 (F := Ideal) V c).arrAt 7 cfg2.N
      = fun j => cacK (V c main_v40) (V c main_v41) (V c main_v42) (V c main_v43) (V c main_v44) (V c main_v45) (V c main_v46) (j 0) (j 1) :=
  (dat2 (F := Ideal) V c).arrAt_eq_of_cover 7 (reading V c) (fun t _ => flushed_eq V c t) (covered)

end Cert.KernelIdeal.Region2

end
-- ==== Proof.Region3.lean ====
/-
  Region 3 (circle against box, the equal and opposite push on the box), at any contents `V` the region is entered from:
  its output array after the last grid point is the tiled reading `caaK` of its seven window arrays.
-/
import proofs.«173810_j58935541236175_1_alg».proof.Proof.KernelIdealFrame
import proofs.«173810_j58935541236175_1_alg».proof.Proof.Spec
import proofs.«173810_j58935541236175_1_alg».proof.Proof.LibRowwise

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Collide

variable (V : (c : Dev nD) → (b : Ref sig .tc) → Buf (Elt Ideal) ((c : Thread nD τ).loc b))

/-! ## Two columns side by side -/

section Columns
variable {A : Nat} {α : Type}

/-- Two columns `[A, 1]` put side by side along axis 1 read, at `(p, 0)`, the first column at `(p, 0)`. -/
private theorem columns_apply_zero (x₁ x₂ : (⟨2, ![A, 1]⟩ : Shape).Idx → α)
    (h : Shape.Concatenates [(⟨2, ![A, 1]⟩ : Shape), ⟨2, ![A, 1]⟩] ⟨2, ![A, 2]⟩ 1) (p : Fin A) :
    concatenate ⟨2, ![A, 2]⟩ 1 [⟨⟨2, ![A, 1]⟩, x₁⟩, ⟨⟨2, ![A, 1]⟩, x₂⟩] h (ix2 p (0 : Fin 2)) = x₁ (ix2 p (0 : Fin 1)) := by
  refine concatenate_pair_apply_left 1 x₁ x₂ h (ix2 p (0 : Fin 2)) rfl (ix2 p (0 : Fin 1)) fun b => ?_
  match b with
  | ⟨0, _⟩ => rfl
  | ⟨1, _⟩ => rfl

/-- … and, at `(p, 1)`, the second column at `(p, 0)`. -/
private theorem columns_apply_one (x₁ x₂ : (⟨2, ![A, 1]⟩ : Shape).Idx → α)
    (h : Shape.Concatenates [(⟨2, ![A, 1]⟩ : Shape), ⟨2, ![A, 1]⟩] ⟨2, ![A, 2]⟩ 1) (p : Fin A) :
    concatenate ⟨2, ![A, 2]⟩ 1 [⟨⟨2, ![A, 1]⟩, x₁⟩, ⟨⟨2, ![A, 1]⟩, x₂⟩] h (ix2 p (1 : Fin 2)) = x₂ (ix2 p (0 : Fin 1)) := by
  refine concatenate_pair_apply_right 1 x₁ x₂ h (ix2 p (1 : Fin 2)) rfl rfl (ix2 p (0 : Fin 1)) (fun b hb => ?_) ?_
  · match b with
    | ⟨0, _⟩ => rfl
    | ⟨1, _⟩ => exact absurd (Fin.ext rfl) hb
  · rfl

end Columns

/-! ## The body's arithmetic at an index -/

/-- One lane's term as the body computes it from the reach `s`, the offset `d` along the axis, the squared
    length `d2` and the root's argument `sel`: the selected half penetration times the unit offset. -/
private def lane (s d d2 sel : EReal) : EReal :=
  Scalar.select (IntOp.andi (gt d2 ε) (gt (s - Ideal.sqrt sel) c0)) (ch * (s - Ideal.sqrt sel)) c0 * Ideal.div d (Ideal.sqrt sel)

/-- With the squared length and the root's argument those of the offset `(dx, dy)`, a lane's term is the push. -/
private theorem lane_eq_pushK (dx dy s d : EReal) :
    lane s d (dx * dx + dy * dy) (Scalar.select (gt (dx * dx + dy * dy) ε) (dx * dx + dy * dy) c1) = pushK dx dy s d := rfl

/-- Row `p`'s two results: zero less the lane sums of the pushes along x and along y, the kept box at `(x, y)` with
    half-extents `(hx, hy)` against every circle of the rows. -/
private def rowK (x y hx hy : EReal) (xr yr rr : Arr 1 4096) (q : Fin 2) : EReal :=
  if q.val = 0 then
    c0 - ∑ a : Fin 4096, pushK (diffK (xr (ix2 0 a) - x) hx) (diffK (yr (ix2 0 a) - y) hy) (rr (ix2 0 a)) (diffK (xr (ix2 0 a) - x) hx)
  else
    c0 - ∑ a : Fin 4096, pushK (diffK (xr (ix2 0 a) - x) hx) (diffK (yr (ix2 0 a) - y) hy) (rr (ix2 0 a)) (diffK (yr (ix2 0 a) - y) hy)

private theorem caaK_eq_rowK (xc yc hxc hyc : Arr 2048 1) (xr yr rr : Arr 1 4096) (p : Fin 2048) (q : Fin 2) :
    caaK xc yc hxc hyc xr yr rr p q = rowK (xc (ix2 p 0)) (yc (ix2 p 0)) (hxc (ix2 p 0)) (hyc (ix2 p 0)) xr yr rr q := rfl

section Payloads

variable (x0 x1 x2 x3 : Vec Ideal S128x1 .f32) (x4 x5 x6 : Vec Ideal S1x4096 .f32)

/-- The clamped offset (a row entry less a column entry, less its clamp to the half-extent) at `(p, a)`. -/
private theorem pay3_apply (p : Fin 128) (a : Fin 4096) :
    (k3_pay3 x0 x2 x4 : FVec Ideal S128x4096 .f32) (ix2 p a) = diffK (x4 (ix2 0 a) - x0 (ix2 p 0)) (x2 (ix2 p 0)) := by
  have er : broadcastTo S128x4096 x4 broadcasts_S1x4096_S128x4096 (ix2 p a) = x4 (ix2 (0 : Fin 1) a) :=
    broadcastTo_1b_ab_apply x4 _ p a
  have ec : ∀ v : FVec Ideal S128x1 .f32, broadcastTo S128x4096 v broadcasts_S128x1_S128x4096 (ix2 p a) = v (ix2 p (0 : Fin 1)) :=
    fun v => Cert.Lib.Rowwise.columnBroadcast_apply v _ (by decide) p a
  unfold k3_pay3
  simp only [shapeCast_self]
  show (broadcastTo S128x4096 x4 _ (ix2 p a) - broadcastTo S128x4096 x0 _ (ix2 p a))
      - min (broadcastTo S128x4096 x2 _ (ix2 p a))
          (max (broadcastTo S128x4096 (subf (F := Ideal) (broadcast S128x1 (Scalar.ofBits (F := Ideal) .f32 0x00000000#32)) x2) _ (ix2 p a))
            (broadcastTo S128x4096 x4 _ (ix2 p a) - broadcastTo S128x4096 x0 _ (ix2 p a))) = _
  rw [er, ec, ec, ec]
  rfl

private theorem pay4_apply (p : Fin 128) (a : Fin 4096) :
    (k3_pay4 x1 x3 x5 : FVec Ideal S128x4096 .f32) (ix2 p a) = diffK (x5 (ix2 0 a) - x1 (ix2 p 0)) (x3 (ix2 p 0)) := by
  have er : broadcastTo S128x4096 x5 broadcasts_S1x4096_S128x4096 (ix2 p a) = x5 (ix2 (0 : Fin 1) a) :=
    broadcastTo_1b_ab_apply x5 _ p a
  have ec : ∀ v : FVec Ideal S128x1 .f32, broadcastTo S128x4096 v broadcasts_S128x1_S128x4096 (ix2 p a) = v (ix2 p (0 : Fin 1)) :=
    fun v => Cert.Lib.Rowwise.columnBroadcast_apply v _ (by decide) p a
  unfold k3_pay4
  simp only [shapeCast_self]
  show (broadcastTo S128x4096 x5 _ (ix2 p a) - broadcastTo S128x4096 x1 _ (ix2 p a))
      - min (broadcastTo S128x4096 x3 _ (ix2 p a))
          (max (broadcastTo S128x4096 (subf (F := Ideal) (broadcast S128x1 (Scalar.ofBits (F := Ideal) .f32 0x00000000#32)) x3) _ (ix2 p a))
            (broadcastTo S128x4096 x5 _ (ix2 p a) - broadcastTo S128x4096 x1 _ (ix2 p a))) = _
  rw [er, ec, ec, ec]
  rfl

end Payloads

section Payloads2

variable (x0 x1 x2 x3 : Vec Ideal S128x1 .f32) (x4 x5 x6 : Vec Ideal S1x4096 .f32)

/-- The squared length of the clamped offset at `(p, a)`. -/
private theorem pay5_apply (p : Fin 128) (a : Fin 4096) :
    (k3_pay5 x0 x1 x2 x3 x4 x5 : FVec Ideal S128x4096 .f32) (ix2 p a)
      = diffK (x4 (ix2 0 a) - x0 (ix2 p 0)) (x2 (ix2 p 0)) * diffK (x4 (ix2 0 a) - x0 (ix2 p 0)) (x2 (ix2 p 0))
        + diffK (x5 (ix2 0 a) - x1 (ix2 p 0)) (x3 (ix2 p 0)) * diffK (x5 (ix2 0 a) - x1 (ix2 p 0)) (x3 (ix2 p 0)) := by
  unfold k3_pay5
  show (k3_pay3 x0 x2 x4 : FVec Ideal S128x4096 .f32) (ix2 p a) * (k3_pay3 x0 x2 x4 : FVec Ideal S128x4096 .f32) (ix2 p a)
      + (k3_pay4 x1 x3 x5 : FVec Ideal S128x4096 .f32) (ix2 p a) * (k3_pay4 x1 x3 x5 : FVec Ideal S128x4096 .f32) (ix2 p a) = _
  rw [pay3_apply, pay4_apply]

/-- The root's argument at `(p, a)`: the squared length where it exceeds the threshold, else one. -/
private theorem pay6_apply (p : Fin 128) (a : Fin 4096) :
    (k3_pay6 x0 x1 x2 x3 x4 x5 : FVec Ideal S128x4096 .f32) (ix2 p a)
      = Scalar.select (gt ((k3_pay5 x0 x1 x2 x3 x4 x5 : FVec Ideal S128x4096 .f32) (ix2 p a)) ε)
          ((k3_pay5 x0 x1 x2 x3 x4 x5 : FVec Ideal S128x4096 .f32) (ix2 p a)) c1 := rfl

end Payloads2

section Stored

variable (s : FVec Ideal S1x4096 .f32) (dx dy d2 sel : FVec Ideal S128x4096 .f32)

/-- The stored block at `(p, 0)`: zero less the lane sum of the pushes along x. -/
private theorem pay1_apply_zero (p : Fin 128) :
    (k3_pay1 s dx dy d2 sel : FVec Ideal S128x2 .f32) (ix2 p (0 : Fin 2))
      = c0 - ∑ a : Fin 4096, lane (s (ix2 0 a)) (dx (ix2 p a)) (d2 (ix2 p a)) (sel (ix2 p a)) := by
  unfold k3_pay1
  refine (columns_apply_zero _ _ _ p).trans ?_
  show c0 - shapeCast S128x1 _ shapeCasts_S128_S128x1 (ix2 p (0 : Fin 1)) = _
  refine congrArg (c0 - ·) ?_
  refine (Cert.Lib.Rowwise.column_apply _ _ p 0).trans ?_
  refine (Cert.Lib.Rowwise.laneSum_apply _ _ _ _ _ p).trans ?_
  refine Finset.sum_congr rfl fun a _ => ?_
  show lane (broadcastTo S128x4096 s broadcasts_S1x4096_S128x4096 (ix2 p a)) (dx (ix2 p a)) (d2 (ix2 p a)) (sel (ix2 p a)) = _
  rw [broadcastTo_1b_ab_apply s _ p a]

/-- The stored block at `(p, 1)`: zero less the lane sum of the pushes along y. -/
private theorem pay1_apply_one (p : Fin 128) :
    (k3_pay1 s dx dy d2 sel : FVec Ideal S128x2 .f32) (ix2 p (1 : Fin 2))
      = c0 - ∑ a : Fin 4096, lane (s (ix2 0 a)) (dy (ix2 p a)) (d2 (ix2 p a)) (sel (ix2 p a)) := by
  unfold k3_pay1
  refine (columns_apply_one _ _ _ p).trans ?_
  show c0 - shapeCast S128x1 _ shapeCasts_S128_S128x1 (ix2 p (0 : Fin 1)) = _
  refine congrArg (c0 - ·) ?_
  refine (Cert.Lib.Rowwise.column_apply _ _ p 0).trans ?_
  refine (Cert.Lib.Rowwise.laneSum_apply _ _ _ _ _ p).trans ?_
  refine Finset.sum_congr rfl fun a _ => ?_
  show lane (broadcastTo S128x4096 s broadcasts_S1x4096_S128x4096 (ix2 p a)) (dy (ix2 p a)) (d2 (ix2 p a)) (sel (ix2 p a)) = _
  rw [broadcastTo_1b_ab_apply s _ p a]

end Stored

/-- THE BODY'S STORED BLOCK AT `(p, q)`, over any seven blocks: row `p`'s result `q` of the four column entries at
    `(p, 0)` against the three rows. -/
private theorem point_value (x0 x1 x2 x3 : Vec Ideal S128x1 .f32) (x4 x5 x6 : Vec Ideal S1x4096 .f32) (p : Fin 128) (q : Fin 2) :
    (k3_pay1 (k3_pay2 x6) (k3_pay3 x0 x2 x4) (k3_pay4 x1 x3 x5) (k3_pay5 x0 x1 x2 x3 x4 x5) (k3_pay6 x0 x1 x2 x3 x4 x5)
        : FVec Ideal S128x2 .f32) (ix2 p q)
      = rowK (x0 (ix2 p 0)) (x1 (ix2 p 0)) (x2 (ix2 p 0)) (x3 (ix2 p 0)) x4 x5 x6 q := by
  have e2 : (k3_pay2 x6 : FVec Ideal S1x4096 .f32) = x6 := by unfold k3_pay2; exact shapeCast_self _ _
  match q with
  | ⟨0, _⟩ =>
    refine (pay1_apply_zero _ _ _ _ _ p).trans ?_
    show _ = c0 - ∑ a : Fin 4096, _
    refine congrArg (c0 - ·) (Finset.sum_congr rfl fun a _ => ?_)
    rw [e2, pay6_apply, pay5_apply, pay3_apply]
    exact lane_eq_pushK _ _ _ _
  | ⟨1, _⟩ =>
    refine (pay1_apply_one _ _ _ _ _ p).trans ?_
    show _ = c0 - ∑ a : Fin 4096, _
    refine congrArg (c0 - ·) (Finset.sum_congr rfl fun a _ => ?_)
    rw [e2, pay6_apply, pay5_apply, pay4_apply]
    exact lane_eq_pushK _ _ _ _

/-! ## From blocks to the array -/

private theorem hz : (![0, 0] : Fin 2 → Nat) = fun _ => 0 := funext fun a => by fin_cases a <;> rfl

/-! The printed index maps, decided over the sixteen points: the four column windows and the output move with the
    point along the rows and stay at block 0 along the lanes; the three row windows stay at block 0 on both axes. -/

private theorem idx0 : ∀ t : Fin cfg3.N, win3_0.index t (0 : Fin 2) = t.val ∧ win3_0.index t (1 : Fin 2) = 0 :=
  (by decide +kernel : ∀ t : Fin grid3.N, _)
private theorem idx1 : ∀ t : Fin cfg3.N, win3_1.index t (0 : Fin 2) = t.val ∧ win3_1.index t (1 : Fin 2) = 0 :=
  (by decide +kernel : ∀ t : Fin grid3.N, _)
private theorem idx2 : ∀ t : Fin cfg3.N, win3_2.index t (0 : Fin 2) = t.val ∧ win3_2.index t (1 : Fin 2) = 0 :=
  (by decide +kernel : ∀ t : Fin grid3.N, _)
private theorem idx3 : ∀ t : Fin cfg3.N, win3_3.index t (0 : Fin 2) = t.val ∧ win3_3.index t (1 : Fin 2) = 0 :=
  (by decide +kernel : ∀ t : Fin grid3.N, _)
private theorem idx4 : ∀ t : Fin cfg3.N, win3_4.index t (0 : Fin 2) = 0 ∧ win3_4.index t (1 : Fin 2) = 0 :=
  (by decide +kernel : ∀ t : Fin grid3.N, _)
private theorem idx5 : ∀ t : Fin cfg3.N, win3_5.index t (0 : Fin 2) = 0 ∧ win3_5.index t (1 : Fin 2) = 0 :=
  (by decide +kernel : ∀ t : Fin grid3.N, _)
private theorem idx6 : ∀ t : Fin cfg3.N, win3_6.index t (0 : Fin 2) = 0 ∧ win3_6.index t (1 : Fin 2) = 0 :=
  (by decide +kernel : ∀ t : Fin grid3.N, _)
private theorem idx7 : ∀ t : Fin cfg3.N, win3_7.index t (0 : Fin 2) = t.val ∧ win3_7.index t (1 : Fin 2) = 0 :=
  (by decide +kernel : ∀ t : Fin grid3.N, _)

/-- The grid has sixteen points. -/
private theorem point_lt (t : Fin cfg3.N) : t.val < 16 := N_3 ▸ t.isLt

/-- Column window 0's block at point `t` is rows `128 t … 128 t + 127` of the boxes' x column. -/
private theorem block0_apply (c : Dev nD) (t : Fin cfg3.N) (p : Fin 128) (k : Fin 2048) (hk : k.val = 128 * t.val + p.val) :
    (iblk3 V c 0 t : Vec Ideal S128x1 .f32) (ix2 p 0) = (V c main_v60 : S2048x1.Idx → Elt Ideal .f32) (ix2 k 0) := by
  obtain ⟨e0, e1⟩ := idx0 t
  unfold iblk3
  rw [View.read_apply]
  show V c main_v60 _ = V c main_v60 _
  congr 1
  funext a
  apply Fin.ext
  match a with
  | ⟨0, _⟩ => show win3_0.index t (0 : Fin 2) * 128 + 1 * p.val = k.val; rw [e0, hk]; omega
  | ⟨1, _⟩ => show win3_0.index t (1 : Fin 2) * 1 + 1 * 0 = 0; rw [e1]

/-- Column window 1's block at point `t` is rows `128 t … 128 t + 127` of the boxes' y column. -/
private theorem block1_apply (c : Dev nD) (t : Fin cfg3.N) (p : Fin 128) (k : Fin 2048) (hk : k.val = 128 * t.val + p.val) :
    (iblk3 V c 1 t : Vec Ideal S128x1 .f32) (ix2 p 0) = (V c main_v61 : S2048x1.Idx → Elt Ideal .f32) (ix2 k 0) := by
  obtain ⟨e0, e1⟩ := idx1 t
  unfold iblk3
  rw [View.read_apply]
  show V c main_v61 _ = V c main_v61 _
  congr 1
  funext a
  apply Fin.ext
  match a with
  | ⟨0, _⟩ => show win3_1.index t (0 : Fin 2) * 128 + 1 * p.val = k.val; rw [e0, hk]; omega
  | ⟨1, _⟩ => show win3_1.index t (1 : Fin 2) * 1 + 1 * 0 = 0; rw [e1]

/-- Column window 2's block at point `t` is rows `128 t … 128 t + 127` of the boxes' half-width column. -/
private theorem block2_apply (c : Dev nD) (t : Fin cfg3.N) (p : Fin 128) (k : Fin 2048) (hk : k.val = 128 * t.val + p.val) :
    (iblk3 V c 2 t : Vec Ideal S128x1 .f32) (ix2 p 0) = (V c main_v62 : S2048x1.Idx → Elt Ideal .f32) (ix2 k 0) := by
  obtain ⟨e0, e1⟩ := idx2 t
  unfold iblk3
  rw [View.read_apply]
  show V c main_v62 _ = V c main_v62 _
  congr 1
  funext a
  apply Fin.ext
  match a with
  | ⟨0, _⟩ => show win3_2.index t (0 : Fin 2) * 128 + 1 * p.val = k.val; rw [e0, hk]; omega
  | ⟨1, _⟩ => show win3_2.index t (1 : Fin 2) * 1 + 1 * 0 = 0; rw [e1]

/-- Column window 3's block at point `t` is rows `128 t … 128 t + 127` of the boxes' half-height column. -/
private theorem block3_apply (c : Dev nD) (t : Fin cfg3.N) (p : Fin 128) (k : Fin 2048) (hk : k.val = 128 * t.val + p.val) :
    (iblk3 V c 3 t : Vec Ideal S128x1 .f32) (ix2 p 0) = (V c main_v63 : S2048x1.Idx → Elt Ideal .f32) (ix2 k 0) := by
  obtain ⟨e0, e1⟩ := idx3 t
  unfold iblk3
  rw [View.read_apply]
  show V c main_v63 _ = V c main_v63 _
  congr 1
  funext a
  apply Fin.ext
  match a with
  | ⟨0, _⟩ => show win3_3.index t (0 : Fin 2) * 128 + 1 * p.val = k.val; rw [e0, hk]; omega
  | ⟨1, _⟩ => show win3_3.index t (1 : Fin 2) * 1 + 1 * 0 = 0; rw [e1]

/-- Row window 4's block at every point is the whole of the circles' x row. -/
private theorem block4_eq (c : Dev nD) (t : Fin cfg3.N) :
    (iblk3 V c 4 t : Vec Ideal S1x4096 .f32) = (V c main_v64 : S1x4096.Idx → Elt Ideal .f32) := by
  obtain ⟨e0, e1⟩ := idx4 t
  funext y
  unfold iblk3
  rw [View.read_apply]
  show V c main_v64 _ = V c main_v64 y
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 4096 + 1 * (y 1).val = (y 1).val; rw [e1]; omega

/-- Row window 5's block at every point is the whole of the circles' y row. -/
private theorem block5_eq (c : Dev nD) (t : Fin cfg3.N) :
    (iblk3 V c 5 t : Vec Ideal S1x4096 .f32) = (V c main_v65 : S1x4096.Idx → Elt Ideal .f32) := by
  obtain ⟨e0, e1⟩ := idx5 t
  funext y
  unfold iblk3
  rw [View.read_apply]
  show V c main_v65 _ = V c main_v65 y
  congr 1
  funext a
  apply Fin.ext
  match a with
  | ⟨0, _⟩ => show win3_5.index t (0 : Fin 2) * 1 + 1 * (y 0).val = (y 0).val; rw [e0]; omega
  | ⟨1, _⟩ => show win3_5.index t (1 : Fin 2) * 4096 + 1 * (y 1).val = (y 1).val; rw [e1]; omega

/-- Row window 6's block at every point is the whole of the circles' radius row. -/
private theorem block6_eq (c : Dev nD) (t : Fin cfg3.N) :
    (iblk3 V c 6 t : Vec Ideal S1x4096 .f32) = (V c main_v66 : S1x4096.Idx → Elt Ideal .f32) := by
  obtain ⟨e0, e1⟩ := idx6 t
  funext y
  unfold iblk3
  rw [View.read_apply]
  show V c main_v66 _ = V c main_v66 y
  congr 1
  funext a
  apply Fin.ext
  match a with
  | ⟨0, _⟩ => show win3_6.index t (0 : Fin 2) * 1 + 1 * (y 0).val = (y 0).val; rw [e0]; omega
  | ⟨1, _⟩ => show win3_6.index t (1 : Fin 2) * 4096 + 1 * (y 1).val = (y 1).val; rw [e1]; omega

/-- What the region's output array ends holding: the tiled reading of the seven window arrays. -/
private abbrev G (c : Dev nD) : S2048x2.Idx → Elt Ideal .f32 :=
  fun j => caaK (V c main_v60) (V c main_v61) (V c main_v62) (V c main_v63) (V c main_v64) (V c main_v65) (V c main_v66) (j 0) (j 1)

/-- WHAT POINT `t` WRITES BACK is block `t` of `G`. -/
private theorem flushed_eq (c : Dev nD) (t : Fin cfg3.N) :
    (dat3 (F := Ideal) V c).flushed 7 t = ((cfg3.win 7).blk t).view.read (Elt Ideal) (G V c) := by
  obtain ⟨e0, e1⟩ := idx7 t
  have ht : t.val < 16 := point_lt t
  show (cfg3.win 7).cut (grid3.coords t) ((dat3 V c).after 7 t) = _
  rw [after3_7]
  unfold out3_7
  rw [View.canon_unit_zero hz]
  simp only [View.ld_unit_zero (S := S128x1) hz, View.ld_unit_zero (S := S1x4096) hz]
  funext j
  obtain ⟨p, q, rfl⟩ : ∃ (p : Fin 128) (q : Fin 2), j = ix2 p q := ⟨j 0, j 1, eq_ix2 j⟩
  rw [View.read_apply]
  have hk : 128 * t.val + p.val < 2048 := by have := p.isLt; omega
  refine (point_value _ _ _ _ _ _ _ p q).trans ?_
  rw [block0_apply V c t p ⟨_, hk⟩ rfl, block1_apply V c t p ⟨_, hk⟩ rfl, block2_apply V c t p ⟨_, hk⟩ rfl,
    block3_apply V c t p ⟨_, hk⟩ rfl, block4_eq V c t, block5_eq V c t, block6_eq V c t]
  have i0 : (((cfg3.win 7).blk t).view.emb (ix2 p q)) 0 = (⟨128 * t.val + p.val, hk⟩ : Fin 2048) :=
    Fin.ext (by show win3_7.index t (0 : Fin 2) * 128 + 1 * p.val = 128 * t.val + p.val; rw [e0]; omega)
  have i1 : (((cfg3.win 7).blk t).view.emb (ix2 p q)) 1 = q :=
    Fin.ext (by show win3_7.index t (1 : Fin 2) * 2 + 1 * q.val = q.val; rw [e1]; omega)
  show _ = caaK (V c main_v60) (V c main_v61) (V c main_v62) (V c main_v63) (V c main_v64) (V c main_v65) (V c main_v66)
    ((((cfg3.win 7).blk t).view.emb (ix2 p q)) 0) ((((cfg3.win 7).blk t).view.emb (ix2 p q)) 1)
  rw [i0, i1]
  rfl

/-- An index of the array is in point `t`'s block iff each coordinate is in the block's range on its axis. -/
private theorem mem_blk (t : Fin cfg3.N) (i : S2048x2.Idx) :
    i ∈ ((cfg3.win 7).blk t).view.set ↔ ∀ a : Fin 2, win3_7.index t a * S128x2.size a ≤ (i a).val ∧ (i a).val < win3_7.index t a * S128x2.size a + S128x2.size a := by
  show i ∈ ((View.whole main_v67).slice (win3_7.rect t)).set ↔ _
  rw [View.set_slice_whole, Rect.mem_set_unit]
  exact Iff.rfl

/-- Every row of the array is in some point's block: row `r` in point `r / 128`'s. -/
private theorem cover (i : S2048x2.Idx) : ∃ t : Fin cfg3.N, (cfg3.win 7).flush t = true ∧ i ∈ ((cfg3.win 7).blk t).view.set := by
  have hi0 : (i 0).val < 2048 := (i 0).isLt
  have hi1 : (i 1).val < 2 := (i 1).isLt
  have hN : cfg3.N = 16 := N_3
  obtain ⟨e0, e1⟩ := idx7 ⟨(i 0).val / 128, by rw [hN]; omega⟩
  refine ⟨⟨(i 0).val / 128, by rw [hN]; omega⟩, flush3_7 _, ?_⟩
  rw [mem_blk]
  intro a
  match a with
  | ⟨0, _⟩ =>
    show win3_7.index ⟨(i 0).val / 128, _⟩ (0 : Fin 2) * 128 ≤ (i 0).val ∧ (i 0).val < win3_7.index ⟨(i 0).val / 128, _⟩ (0 : Fin 2) * 128 + 128
    rw [e0]; show (i 0).val / 128 * 128 ≤ (i 0).val ∧ (i 0).val < (i 0).val / 128 * 128 + 128; omega
  | ⟨1, _⟩ =>
    show win3_7.index ⟨(i 0).val / 128, _⟩ (1 : Fin 2) * 2 ≤ (i 1).val ∧ (i 1).val < win3_7.index ⟨(i 0).val / 128, _⟩ (1 : Fin 2) * 2 + 2
    rw [e1]; omega

/-- The region's output array after its last grid point. -/
theorem final (c : Dev nD) :
    (dat3 (F := Ideal) V c).arrAt 7 cfg3.N
      = fun j => caaK (V c main_v60) (V c main_v61) (V c main_v62) (V c main_v63) (V c main_v64) (V c main_v65) (V c main_v66) (j 0) (j 1) :=
  (dat3 (F := Ideal) V c).arrAt_eq_of_cover 7 (G V c) (fun t _ => flushed_eq V c t) cover

end Cert.KernelIdeal.Region3

end
-- ==== Proof.Algebra.lean ====
/-
  The two readings of each correction are one function.

  For a pair the tiled reading is `select(hit, ½·pen, 0) · (d / dist)` and the array reading `select(hit, (½·pen) · (d /
  dist), 0)`: equal on the extended reals because `0 · x = 0` there for every `x`. The array reading's sums start from the
  zero word's value, which is `0`; its squared length is `0 + (dx² + dy²)`; its negation `−x` is the tiled `0 − x`.
  Only the circle–circle term needs the inputs finite: the array reading masks the diagonal, the tiled reading does not, and
  on the diagonal the offset is `x − x`, which is `0` — so the squared length is `0`, not above `ε`, and the pair is not
  pushed — exactly when `x` is a real number.
-/
import proofs.«173810_j58935541236175_1_alg».proof.Proof.Spec

noncomputable section

namespace Cert.Collide

open Idealize.ShloMosaic Idealize.ShloMosaic.ValueIdx

/-! ## Small facts -/

/-- The zero word's value is zero. -/
theorem c0_eq : c0 = 0 := Ideal.ofBits_zero_f32

/-- The threshold is not negative: its word is a positive normal number. -/
theorem ε_nonneg : (0 : EReal) ≤ ε := by
  unfold ε
  simp [Ideal.ofBits, Ideal.ieee]
  positivity

/-- Zero is not above the threshold. -/
theorem gt_zero_ε : gt 0 ε = 0#1 := by
  have h : ¬ ε < 0 := not_lt.mpr ε_nonneg
  simp [gt, Ideal.cmp, h]

theorem one_andi (x : BitVec 1) : IntOp.andi 1#1 x = x := by revert x; decide
theorem zero_andi (x : BitVec 1) : IntOp.andi 0#1 x = 0#1 := by revert x; decide

/-- Selecting against zero and then multiplying is multiplying and then selecting against zero: `0 · y = 0`. -/
theorem select_mul (b : BitVec 1) (x y : EReal) : Scalar.select b x c0 * y = Scalar.select b (x * y) c0 := by
  by_cases hb : b = 1#1
  · subst hb; rw [select_one, select_one]
  · have h0 := eq_zero_of_ne_one hb; subst h0; rw [select_zero, select_zero, c0_eq, zero_mul]

/-- The squared length summed from zero over the two coordinates is `dx² + dy²`. -/
theorem d2R_eq (D : Fin 2 → EReal) : d2R D = D 0 * D 0 + D 1 * D 1 := by
  unfold d2R; rw [c0_eq, zero_add, Fin.sum_univ_two]

/-- Without a diagonal mask the two readings of a pair's push agree. -/
theorem pushK_eq_pushR' (D : Fin 2 → EReal) (s : EReal) (q : Fin 2) : pushK (D 0) (D 1) s (D q) = pushR' D s q := by
  unfold pushK pushR' coef hit
  rw [d2R_eq, select_mul]

/-- Off the diagonal the mask is the identity. -/
theorem pushR_one (D : Fin 2 → EReal) (s : EReal) (q : Fin 2) : pushR 1#1 D s q = pushR' D s q := by
  unfold pushR pushR'; rw [one_andi]

/-- On the diagonal the array reading pushes by nothing. -/
theorem pushR_zero (D : Fin 2 → EReal) (s : EReal) (q : Fin 2) : pushR 0#1 D s q = 0 := by
  unfold pushR; rw [zero_andi, zero_andi, select_zero, c0_eq]

/-- A pair at zero offset is not pushed in the tiled reading either: its squared length is not above `ε`. -/
theorem pushK_zero (s d : EReal) : pushK 0 0 s d = 0 := by
  unfold pushK coef hit
  have h : (0 : EReal) * 0 + 0 * 0 = 0 := by simp
  rw [h, gt_zero_ε, zero_andi, select_zero, c0_eq, zero_mul]

/-- The clamp's lower end `0 − h` is `−h`. -/
theorem diffK_eq_diffR (rel h : EReal) : diffK rel h = diffR rel h := by
  unfold diffK diffR; rw [c0_eq, zero_sub]

/-! ## The four corrections -/

theorem ccK_eq_ccR (P : Arr 4096 2) (R : Arr1 4096) (hP : ∀ i, ∃ r : ℝ, P i = (r : EReal)) (p : Fin 4096) (q : Fin 2) :
    ccK (colOf P 0) (colOf P 1) (colOf1 R) (rowOf P 0) (rowOf P 1) (rowOf1 R) p q = ccR P R p q := by
  have key : ∀ (a : Fin 4096) (q : Fin 2),
      pushK (P (ix2 p 0) - P (ix2 a 0)) (P (ix2 p 1) - P (ix2 a 1)) (R (ix1 p) + R (ix1 a)) (P (ix2 p q) - P (ix2 a q))
        = pushR (offdiag p.val a.val) (fun k => P (ix2 p k) - P (ix2 a k)) (R (ix1 p) + R (ix1 a)) q := by
    intro a q
    by_cases hpa : p = a
    · subst hpa
      have hz : ∀ k : Fin 2, P (ix2 p k) - P (ix2 p k) = 0 := fun k => by
        obtain ⟨r, hr⟩ := hP (ix2 p k)
        rw [hr, ← EReal.coe_sub, sub_self, EReal.coe_zero]
      have ho : offdiag p.val p.val = 0#1 := by unfold offdiag; rw [if_pos rfl]
      rw [hz 0, hz 1, hz q, pushK_zero, ho, pushR_zero]
    · have ho : offdiag p.val a.val = 1#1 := by
        unfold offdiag; rw [if_neg (fun h => hpa (Fin.ext h))]
      rw [ho, pushR_one]
      exact pushK_eq_pushR' (fun k => P (ix2 p k) - P (ix2 a k)) _ q
  unfold ccK ccR
  rw [c0_eq, zero_add]
  match q with
  | ⟨0, _⟩ => rw [if_pos rfl]; exact Finset.sum_congr rfl fun a _ => key a 0
  | ⟨1, _⟩ => rw [if_neg Nat.one_ne_zero]; exact Finset.sum_congr rfl fun a _ => key a 1

theorem aaK_eq_aaR (A H : Arr 2048 2) (p : Fin 2048) (q : Fin 2) :
    aaK (colOf A 0) (colOf A 1) (colOf H 0) (colOf H 1) (rowOf A 0) (rowOf A 1) (rowOf H 0) (rowOf H 1) p q = aaR A H p q := by
  unfold aaK aaR
  rw [c0_eq, zero_add]
  match q with
  | ⟨0, _⟩ => rw [if_pos rfl]; exact Finset.sum_congr rfl fun a _ => rfl
  | ⟨1, _⟩ => rw [if_neg Nat.one_ne_zero]; exact Finset.sum_congr rfl fun a _ => rfl

theorem cacK_eq_cacR (P : Arr 4096 2) (R : Arr1 4096) (A H : Arr 2048 2) (p : Fin 4096) (q : Fin 2) :
    cacK (colOf P 0) (colOf P 1) (colOf1 R) (rowOf A 0) (rowOf A 1) (rowOf H 0) (rowOf H 1) p q = cacR P R A H p q := by
  unfold cacK cacR caTerm
  rw [c0_eq, zero_add]
  match q with
  | ⟨0, _⟩ =>
    rw [if_pos rfl]
    refine Finset.sum_congr rfl fun a _ => ?_
    simp only [diffK_eq_diffR]
    exact pushK_eq_pushR' (fun k => diffR (P (ix2 p k) - A (ix2 a k)) (H (ix2 a k))) (R (ix1 p)) 0
  | ⟨1, _⟩ =>
    rw [if_neg Nat.one_ne_zero]
    refine Finset.sum_congr rfl fun a _ => ?_
    simp only [diffK_eq_diffR]
    exact pushK_eq_pushR' (fun k => diffR (P (ix2 p k) - A (ix2 a k)) (H (ix2 a k))) (R (ix1 p)) 1

theorem caaK_eq_caaR (P : Arr 4096 2) (R : Arr1 4096) (A H : Arr 2048 2) (p : Fin 2048) (q : Fin 2) :
    caaK (colOf A 0) (colOf A 1) (colOf H 0) (colOf H 1) (rowOf P 0) (rowOf P 1) (rowOf1 R) p q = caaR P R A H p q := by
  unfold caaK caaR caTerm
  rw [c0_eq, zero_add]
  match q with
  | ⟨0, _⟩ =>
    rw [if_pos rfl, zero_sub]
    refine congrArg Neg.neg (Finset.sum_congr rfl fun a _ => ?_)
    simp only [diffK_eq_diffR]
    exact pushK_eq_pushR' (fun k => diffR (P (ix2 a k) - A (ix2 p k)) (H (ix2 p k))) (R (ix1 a)) 0
  | ⟨1, _⟩ =>
    rw [if_neg Nat.one_ne_zero, zero_sub]
    refine congrArg Neg.neg (Finset.sum_congr rfl fun a _ => ?_)
    simp only [diffK_eq_diffR]
    exact pushK_eq_pushR' (fun k => diffR (P (ix2 a k) - A (ix2 p k)) (H (ix2 p k))) (R (ix1 a)) 1

/-! ## The step's result as one function of the four inputs -/

/-- The new positions in the array reading. -/
def out (P : Arr 4096 2) (R : Arr1 4096) (A H : Arr 2048 2) : Arr 6144 2 :=
  result P (fun j => ccR P R (j 0) (j 1)) (fun j => cacR P R A H (j 0) (j 1))
    A (fun j => aaR A H (j 0) (j 1)) (fun j => caaR P R A H (j 0) (j 1))

/-- The tiled reading of the result, over the columns and rows the tiled program makes of its inputs, is the array
    reading, the circle positions being real. -/
theorem result_tiled (P : Arr 4096 2) (R : Arr1 4096) (A H : Arr 2048 2) (hP : ∀ i, ∃ r : ℝ, P i = (r : EReal)) :
    result P (fun j => ccK (colOf P 0) (colOf P 1) (colOf1 R) (rowOf P 0) (rowOf P 1) (rowOf1 R) (j 0) (j 1))
        (fun j => cacK (colOf P 0) (colOf P 1) (colOf1 R) (rowOf A 0) (rowOf A 1) (rowOf H 0) (rowOf H 1) (j 0) (j 1))
      A (fun j => aaK (colOf A 0) (colOf A 1) (colOf H 0) (colOf H 1) (rowOf A 0) (rowOf A 1) (rowOf H 0) (rowOf H 1) (j 0) (j 1))
        (fun j => caaK (colOf A 0) (colOf A 1) (colOf H 0) (colOf H 1) (rowOf P 0) (rowOf P 1) (rowOf1 R) (j 0) (j 1))
      = out P R A H := by
  have e0 : (fun j : (⟨2, ![4096, 2]⟩ : Shape).Idx => ccK (colOf P 0) (colOf P 1) (colOf1 R) (rowOf P 0) (rowOf P 1) (rowOf1 R) (j 0) (j 1))
      = fun j => ccR P R (j 0) (j 1) := funext fun j => ccK_eq_ccR P R hP (j 0) (j 1)
  have e1 : (fun j : (⟨2, ![4096, 2]⟩ : Shape).Idx => cacK (colOf P 0) (colOf P 1) (colOf1 R) (rowOf A 0) (rowOf A 1) (rowOf H 0) (rowOf H 1) (j 0) (j 1))
      = fun j => cacR P R A H (j 0) (j 1) := funext fun j => cacK_eq_cacR P R A H (j 0) (j 1)
  have e2 : (fun j : (⟨2, ![2048, 2]⟩ : Shape).Idx => aaK (colOf A 0) (colOf A 1) (colOf H 0) (colOf H 1) (rowOf A 0) (rowOf A 1) (rowOf H 0) (rowOf H 1) (j 0) (j 1))
      = fun j => aaR A H (j 0) (j 1) := funext fun j => aaK_eq_aaR A H (j 0) (j 1)
  have e3 : (fun j : (⟨2, ![2048, 2]⟩ : Shape).Idx => caaK (colOf A 0) (colOf A 1) (colOf H 0) (colOf H 1) (rowOf P 0) (rowOf P 1) (rowOf1 R) (j 0) (j 1))
      = fun j => caaR P R A H (j 0) (j 1) := funext fun j => caaK_eq_caaR P R A H (j 0) (j 1)
  rw [e0, e1, e2, e3]
  rfl

end Cert.Collide

end
-- ==== Proof.KernelValue.lean ====
/-
  The tiled program's run with its result named, and that result as the array reading of the step.

  Every weakly fair execution ends with each unscoped buffer at the last boundary's contents; the result buffer there is
  the host tail of the four regions' output arrays; each output array is the tiled reading of its region's window arrays;
  the window arrays are columns and rows of the inputs; and the tiled reading over those is the array reading.
-/
import proofs.«173810_j58935541236175_1_alg».proof.Proof.KernelIdealFrame
import proofs.«173810_j58935541236175_1_alg».proof.Proof.Spec
import proofs.«173810_j58935541236175_1_alg».proof.Proof.LibRowwise
import proofs.«173810_j58935541236175_1_alg».proof.Proof.KernelArgs
import proofs.«173810_j58935541236175_1_alg».proof.Proof.KernelCols01
import proofs.«173810_j58935541236175_1_alg».proof.Proof.KernelCols23
import proofs.«173810_j58935541236175_1_alg».proof.Proof.KernelTail
import proofs.«173810_j58935541236175_1_alg».proof.Proof.Region0
import proofs.«173810_j58935541236175_1_alg».proof.Proof.Region1
import proofs.«173810_j58935541236175_1_alg».proof.Proof.Region2
import proofs.«173810_j58935541236175_1_alg».proof.Proof.Region3
import proofs.«173810_j58935541236175_1_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Host

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Collide

variable (m : (ℓ : Loc nD τ sig) → Buf (Elt Ideal) ℓ) (ρ : Dev nD → PrngReg)

/-- Equal corrections give equal results. -/
theorem result_congr {P : Arr 4096 2} {A : Arr 2048 2} {cc cc' cac cac' : Arr 4096 2} {aa aa' caa caa' : Arr 2048 2}
    (h0 : cc = cc') (h1 : cac = cac') (h2 : aa = aa') (h3 : caa = caa') :
    result P cc cac A aa caa = result P cc' cac' A aa' caa' := by
  subst h0 h1 h2 h3; rfl

/-- Region 0's output array over the columns and rows of the inputs. -/
theorem arr0 (c : Dev nD) : (dat0 (F := Ideal) (V1 m ρ) c).arrAt 6 cfg0.N
    = fun j => ccK (colOf (Pc m c) 0) (colOf (Pc m c) 1) (colOf1 (Rc m c)) (rowOf (Pc m c) 0) (rowOf (Pc m c) 1) (rowOf1 (Rc m c)) (j 0) (j 1) := by
  rw [Cert.KernelIdeal.Region0.final (V1 m ρ) c, V1_v4, V1_v5, V1_v6, V1_v7, V1_v8, V1_v9]

/-- Region 1's output array over the columns and rows of the inputs. -/
theorem arr1 (c : Dev nD) : (dat1 (F := Ideal) (V3 m ρ) c).arrAt 8 cfg1.N
    = fun j => aaK (colOf (Ab m c) 0) (colOf (Ab m c) 1) (colOf (Hb m c) 0) (colOf (Hb m c) 1)
        (rowOf (Ab m c) 0) (rowOf (Ab m c) 1) (rowOf (Hb m c) 0) (rowOf (Hb m c) 1) (j 0) (j 1) := by
  rw [Cert.KernelIdeal.Region1.final (V3 m ρ) c, V3_v19, V3_v20, V3_v21, V3_v22, V3_v23, V3_v24, V3_v25, V3_v26]

/-- Region 2's output array over the columns and rows of the inputs. -/
theorem arr2 (c : Dev nD) : (dat2 (F := Ideal) (V5 m ρ) c).arrAt 7 cfg2.N
    = fun j => cacK (colOf (Pc m c) 0) (colOf (Pc m c) 1) (colOf1 (Rc m c))
        (rowOf (Ab m c) 0) (rowOf (Ab m c) 1) (rowOf (Hb m c) 0) (rowOf (Hb m c) 1) (j 0) (j 1) := by
  rw [Cert.KernelIdeal.Region2.final (V5 m ρ) c, V5_v40, V5_v41, V5_v42, V5_v43, V5_v44, V5_v45, V5_v46]

/-- Region 3's output array over the columns and rows of the inputs. -/
theorem arr3 (c : Dev nD) : (dat3 (F := Ideal) (V7 m ρ) c).arrAt 7 cfg3.N
    = fun j => caaK (colOf (Ab m c) 0) (colOf (Ab m c) 1) (colOf (Hb m c) 0) (colOf (Hb m c) 1)
        (rowOf (Pc m c) 0) (rowOf (Pc m c) 1) (rowOf1 (Rc m c)) (j 0) (j 1) := by
  rw [Cert.KernelIdeal.Region3.final (V7 m ρ) c, V7_v60, V7_v61, V7_v62, V7_v63, V7_v64, V7_v65, V7_v66]

/-- The result buffer at the last boundary is the step's result, the circle positions being real. -/
theorem W9_value (c : Dev nD) (hP : ∀ i, ∃ r : ℝ, Pc m c i = (r : EReal)) :
    W9 m ρ c (Proc.devRef .tc main_v72) = out (Pc m c) (Rc m c) (Ab m c) (Hb m c) :=
  (W9_v72 m ρ c).trans
    ((result_congr (arr0 m ρ c) (arr2 m ρ c) (arr1 m ρ c) (arr3 m ρ c)).trans
      (result_tiled (Pc m c) (Rc m c) (Ab m c) (Hb m c) hP))

/-- The run: it ends, nothing faulting, with the result buffer at the last boundary's contents and the inputs as launched. -/
theorem run_value : θ_run defs (onTc (τ := τ) (main (F := Ideal))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨h c _ (mem_uc main_v72 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c)⟩)
    (run_held m ρ)

end Cert.KernelIdeal.Host

end
-- ==== Proof.RefCC.lean ====
/-
  The array program's circle–circle correction (its operations 0 to 39) read at an index: the sum over every circle `a`,
  from the zero word's value, of the masked pair push — offsets `P(p,·) − P(a,·)`, squared length summed over the two
  coordinates, reach `R(p) + R(a)`, the mask the off-diagonal bit and-ed with `d² > ε` and `pen > 0`.
-/
import proofs.«173810_j58935541236175_1_alg».proof.Proof.Gen.ReferenceIdeal.Read
import proofs.«173810_j58935541236175_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Collide

/-! ## The diagonal bit

For naturals below 4096 the 32-bit words of `p` and `a` are equal exactly when `p = a` (both are below `2 ^ 32`, so
neither wraps), and adding the zero word changes nothing: the negated equality test is the off-diagonal mask. -/

private theorem diag_bit (p a : Nat) (hp : p < 4096) (ha : a < 4096) :
    ~~~(IntOp.cmpi .eq (IntOp.addi (BitVec.ofNat 32 p) 0#32) (BitVec.ofNat 32 a)) = offdiag p a := by
  have hp' : p < 2 ^ 32 := Nat.lt_of_lt_of_le hp (by decide)
  have ha' : a < 2 ^ 32 := Nat.lt_of_lt_of_le ha (by decide)
  show ~~~(BitVec.ofBool (BitVec.ofNat 32 p + 0#32 == BitVec.ofNat 32 a)) = if p = a then 0#1 else 1#1
  rw [BitVec.add_zero]
  by_cases h : p = a
  · subst h
    rw [beq_self_eq_true, if_pos rfl]
    decide
  · have hne : (BitVec.ofNat 32 p == BitVec.ofNat 32 a) = false := by
      refine beq_eq_false_iff_ne.mpr fun e => h ?_
      have e' := congrArg BitVec.toNat e
      rwa [BitVec.toNat_ofNat, BitVec.toNat_ofNat, Nat.mod_eq_of_lt hp', Nat.mod_eq_of_lt ha'] at e'
    rw [hne, if_neg h]
    decide

/-- The mask's first conjunct at `(p, a)`: row number plus the zero word, compared with the column number, negated. -/
private theorem od_at (p a : Fin 4096) :
    val_main_v12 (F := Ideal) (ix2 p a) = offdiag p.val a.val := by
  rw [val_main_v12_apply, val_main_v11_apply, val_main_v10_apply, val_main_v9_apply, val_main_c_apply,
    val_main_v7_apply, val_main_v8_apply]
  exact diag_bit p.val a.val p.isLt a.isLt

/-! ## The intermediate arrays, each at explicit coordinates -/

/-- The offset of circle `p` from circle `a` along coordinate `k`. -/
private theorem off_at (P : Arr 4096 2) (p a : Fin 4096) (k : Fin 2) :
    val_main_v4 (F := Ideal) P (ix3 p a k) = P (ix2 p k) - P (ix2 a k) := by
  have e0 : idx_main_v0 (idx_main_v2 (ix3 p a k)) = ix2 p k :=
    funext fun d => Fin.ext (by match d with | ⟨0, _⟩ => rfl | ⟨1, _⟩ => rfl)
  have e1 : idx_main_v1 (idx_main_v3 (ix3 p a k)) = ix2 a k :=
    funext fun d => Fin.ext (by match d with | ⟨0, _⟩ => rfl | ⟨1, _⟩ => rfl)
  rw [val_main_v4_apply, val_main_v2_apply, val_main_v0_apply, val_main_v3_apply, val_main_v1_apply, e0, e1] <;> rfl

/-- The squared length of that offset: the sum over the two coordinates, from the zero word's value. -/
private theorem d2_at (P : Arr 4096 2) (p a : Fin 4096) :
    val_main_v6 (F := Ideal) P (ix2 p a) = d2R (fun k => P (ix2 p k) - P (ix2 a k)) := by
  have hk : ∀ k : Fin 2, val_main_v5 (F := Ideal) P (idx_main_v6 (ix2 p a) k)
      = (P (ix2 p k) - P (ix2 a k)) * (P (ix2 p k) - P (ix2 a k)) := fun k => by
    have e : idx_main_v6 (ix2 p a) k = ix3 p a k :=
      funext fun d => Fin.ext (by match d with | ⟨0, _⟩ => rfl | ⟨1, _⟩ => rfl | ⟨2, _⟩ => rfl)
    rw [e, val_main_v5_apply, off_at] <;> rfl
  rw [val_main_v6_apply]
  unfold d2R
  exact congrArg (_ + ·) (Finset.sum_congr rfl fun k _ => hk k)

/-- The distance: the root of the squared length where it exceeds the threshold, else the root of one. -/
private theorem dist_at (P : Arr 4096 2) (p a : Fin 4096) :
    val_main_v16 (F := Ideal) P (ix2 p a) = Cert.Collide.dist (d2R (fun k => P (ix2 p k) - P (ix2 a k))) := by
  rw [val_main_v16_apply, val_main_v15_apply, val_main_v14_apply, val_main_v13_apply, val_main_cst_0_apply,
    val_main_call0_v1_apply, val_main_call0_v0_apply, val_main_cst_1_apply, d2_at] <;> rfl

/-- The reach of the pair: the two radii summed. -/
private theorem reach_at (R : Arr1 4096) (p a : Fin 4096) :
    val_main_v21 (F := Ideal) R (ix2 p a) = R (ix1 p) + R (ix1 a) := by
  have e0 : idx_main_v17 (idx_main_v19 (ix2 p a)) = ix1 p :=
    funext fun d => Fin.ext (by match d with | ⟨0, _⟩ => rfl)
  have e1 : idx_main_v18 (idx_main_v20 (ix2 p a)) = ix1 a :=
    funext fun d => Fin.ext (by match d with | ⟨0, _⟩ => rfl)
  rw [val_main_v21_apply, val_main_v19_apply, val_main_v17_apply, val_main_v20_apply, val_main_v18_apply, e0, e1] <;> rfl

/-- The penetration: the reach less the distance. -/
private theorem pen_at (P : Arr 4096 2) (R : Arr1 4096) (p a : Fin 4096) :
    val_main_v22 (F := Ideal) P R (ix2 p a)
      = pen (d2R (fun k => P (ix2 p k) - P (ix2 a k))) (R (ix1 p) + R (ix1 a)) := by
  rw [val_main_v22_apply, reach_at, dist_at] <;> rfl

/-- The mask: off the diagonal, apart by more than the threshold, and penetrating. -/
private theorem mask_at (P : Arr 4096 2) (R : Arr1 4096) (p a : Fin 4096) :
    val_main_v28 (F := Ideal) P R (ix2 p a)
      = IntOp.andi (IntOp.andi (offdiag p.val a.val) (gt (d2R (fun k => P (ix2 p k) - P (ix2 a k))) ε))
          (gt (pen (d2R (fun k => P (ix2 p k) - P (ix2 a k))) (R (ix1 p) + R (ix1 a))) c0) := by
  rw [val_main_v28_apply, val_main_v25_apply, val_main_v24_apply, val_main_v23_apply, val_main_cst_2_apply,
    val_main_v27_apply, val_main_v26_apply, val_main_cst_3_apply, od_at, d2_at, pen_at] <;> rfl

/-- The masked pair push of circle `p` by circle `a` along coordinate `q`: half the penetration times the unit
    offset where the mask holds, the zero word's value elsewhere. -/
private theorem term_at (P : Arr 4096 2) (R : Arr1 4096) (p a : Fin 4096) (q : Fin 2) :
    val_main_v38 (F := Ideal) P R (ix3 p a q)
      = pushR (offdiag p.val a.val) (fun k => P (ix2 p k) - P (ix2 a k)) (R (ix1 p) + R (ix1 a)) q := by
  have em : idx_main_v32 (idx_main_call1_v1 (ix3 p a q)) = ix2 p a :=
    funext fun d => Fin.ext (by match d with | ⟨0, _⟩ => rfl | ⟨1, _⟩ => rfl)
  have ep : idx_main_v33 (idx_main_v36 (ix3 p a q)) = ix2 p a :=
    funext fun d => Fin.ext (by match d with | ⟨0, _⟩ => rfl | ⟨1, _⟩ => rfl)
  have ed : idx_main_v29 (idx_main_v30 (ix3 p a q)) = ix2 p a :=
    funext fun d => Fin.ext (by match d with | ⟨0, _⟩ => rfl | ⟨1, _⟩ => rfl)
  rw [val_main_v38_apply, val_main_call1_v1_apply, val_main_v32_apply, em, mask_at,
    val_main_v37_apply, val_main_v36_apply, val_main_v35_apply, val_main_v34_apply, val_main_cst_4_apply,
    val_main_v33_apply, ep, pen_at, val_main_v31_apply, off_at, val_main_v30_apply, val_main_v29_apply, ed, dist_at,
    val_main_call1_v2_apply, val_main_call1_v0_apply, val_main_cst_5_apply] <;> rfl

/-! ## The correction: the sum of the terms over every circle -/

theorem v39_eq (P : Arr 4096 2) (R : Arr1 4096) :
    val_main_v39 (F := Ideal) P R = fun j => ccR P R (j 0) (j 1) := by
  funext j
  obtain ⟨p, q, rfl⟩ : ∃ (p : Fin 4096) (q : Fin 2), j = ix2 p q := ⟨j 0, j 1, eq_ix2 j⟩
  have hk : ∀ a : Fin 4096, val_main_v38 (F := Ideal) P R (idx_main_v39 (ix2 p q) a)
      = pushR (offdiag p.val a.val) (fun k => P (ix2 p k) - P (ix2 a k)) (R (ix1 p) + R (ix1 a)) q := fun a => by
    have e : idx_main_v39 (ix2 p q) a = ix3 p a q :=
      funext fun d => Fin.ext (by match d with | ⟨0, _⟩ => rfl | ⟨1, _⟩ => rfl | ⟨2, _⟩ => rfl)
    rw [e, term_at]
  rw [val_main_v39_apply]
  show _ = ccR P R p q
  unfold ccR
  exact congrArg (_ + ·) (Finset.sum_congr rfl fun a _ => hk a)

end Cert.ReferenceIdeal.RefValue

end
-- ==== Proof.RefAA.lean ====
/-
  The array program's box–box correction (its operations 40 to 105) read at an index: the sum over every box `a`, from the
  zero word's value, of the push along the axis of least overlap — x in coordinate 0, y in coordinate 1 — masked by the
  off-diagonal bit and both overlaps positive. The two stacked pairs `[½·ovx·sgnx, 0]` and `[0, ½·ovy·sgny]` are read by
  the coordinate on the stacked axis.
-/
import proofs.«173810_j58935541236175_1_alg».proof.Proof.Gen.ReferenceIdeal.Read
import proofs.«173810_j58935541236175_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Collide

/-! ## Indices

A `[2048, 2048]` position `(p, a)` flattened row-major is `p·2048 + a`; dividing it back by the trailing extents gives
`p` and `a` again. A unit slice of the last axis followed by dropping that axis therefore reads coordinate `0` or `1`. -/

/-- Closes `slice ∘ reshape (p, a) = (p, a, k)`: the first two coordinates by the division above, the last by computation. -/
local macro "flat_split " p:ident a:ident : tactic => `(tactic|
  (funext b; apply Fin.ext; have hp := Fin.isLt $p; have ha := Fin.isLt $a;
   match b with
   | ⟨0, _⟩ => (show ((Fin.val $p) * 2048 + (Fin.val $a)) / 2048 = (Fin.val $p); omega)
   | ⟨1, _⟩ => (show ((Fin.val $p) * 2048 + (Fin.val $a)) / 1 % 2048 = (Fin.val $a); omega)
   | ⟨2, _⟩ => rfl))

/-- Closes an index equation whose every coordinate computes. -/
local macro "coords2" : tactic => `(tactic|
  (funext b; apply Fin.ext; match b with | ⟨0, _⟩ => rfl | ⟨1, _⟩ => rfl))
local macro "coords3" : tactic => `(tactic|
  (funext b; apply Fin.ext; match b with | ⟨0, _⟩ => rfl | ⟨1, _⟩ => rfl | ⟨2, _⟩ => rfl))

/-! ## The diagonal bit

Row number plus the zero word, compared for equality with the column number, then complemented. Both numbers are below
`2048 < 2^32`, so their 32-bit words are equal exactly when the numbers are. -/

private theorem offdiag_word (p a : Nat) (hp : p < 2048) (ha : a < 2048) :
    ~~~(IntOp.cmpi .eq (IntOp.addi (BitVec.ofNat 32 p) 0#32) (BitVec.ofNat 32 a)) = offdiag p a := by
  have hiff : (BitVec.ofNat 32 p + 0#32 == BitVec.ofNat 32 a) = decide (p = a) := by
    rw [BitVec.add_zero]
    by_cases h : p = a
    · subst h; rw [decide_eq_true rfl]; exact beq_self_eq_true _
    · have hne : BitVec.ofNat 32 p ≠ BitVec.ofNat 32 a := fun e => h (by
        have := congrArg BitVec.toNat e
        simp only [BitVec.toNat_ofNat] at this
        omega)
      rw [decide_eq_false h]; exact beq_eq_false_iff_ne.mpr hne
  show ~~~(BitVec.ofBool (BitVec.ofNat 32 p + 0#32 == BitVec.ofNat 32 a)) = if p = a then 0#1 else 1#1
  rw [hiff]
  by_cases h : p = a
  · rw [if_pos h, decide_eq_true h]; decide
  · rw [if_neg h, decide_eq_false h]; decide

private theorem od_at (p a : Fin 2048) :
    val_main_v57 (F := Ideal) (ix2 p a) = offdiag p.val a.val := by
  rw [val_main_v57_apply, val_main_v56_apply, val_main_v55_apply, val_main_v52_apply, val_main_v53_apply,
    val_main_v54_apply, val_main_c_7_apply]
  exact offdiag_word p.val a.val p.isLt a.isLt

/-! ## The offset, the summed half-extents, the overlap -/

/-- The offset of box `p` from box `a` on axis `k`. -/
private theorem d_at (A : Arr 2048 2) (p a : Fin 2048) (k : Fin 2) :
    val_main_v44 (F := Ideal) A (ix3 p a k) = A (ix2 p k) - A (ix2 a k) := by
  rw [val_main_v44_apply, val_main_v42_apply, val_main_v40_apply, val_main_v43_apply, val_main_v41_apply,
    show idx_main_v40 (idx_main_v42 (ix3 p a k)) = ix2 p k from by coords2,
    show idx_main_v41 (idx_main_v43 (ix3 p a k)) = ix2 a k from by coords2]
  rfl

/-- The two half-extents on axis `k`, summed. -/
private theorem h_at (H : Arr 2048 2) (p a : Fin 2048) (k : Fin 2) :
    val_main_v49 (F := Ideal) H (ix3 p a k) = H (ix2 p k) + H (ix2 a k) := by
  rw [val_main_v49_apply, val_main_v47_apply, val_main_v45_apply, val_main_v48_apply, val_main_v46_apply,
    show idx_main_v45 (idx_main_v47 (ix3 p a k)) = ix2 p k from by coords2,
    show idx_main_v46 (idx_main_v48 (ix3 p a k)) = ix2 a k from by coords2]
  rfl

/-- The overlap on axis `k`. -/
private theorem ov_at (A H : Arr 2048 2) (p a : Fin 2048) (k : Fin 2) :
    val_main_v51 (F := Ideal) A H (ix3 p a k)
      = ov (H (ix2 p k)) (H (ix2 a k)) (A (ix2 p k) - A (ix2 a k)) := by
  rw [val_main_v51_apply, val_main_v50_apply, h_at, d_at]
  rfl

/-- The sign of the offset on axis `k`. -/
private theorem sgn_at (A : Arr 2048 2) (p a : Fin 2048) (k : Fin 2) :
    val_main_v70 (F := Ideal) A (ix3 p a k) = sgn (A (ix2 p k) - A (ix2 a k)) := by
  rw [val_main_v70_apply, val_main_v69_apply, d_at, val_main_v68_apply, val_main_cst_10_apply,
    val_main_call2_v0_apply, val_main_cst_11_apply, val_main_call2_v1_apply, val_main_cst_12_apply]
  rfl

/-! ## The unit slices of the stacked axis, with that axis dropped -/

private theorem v59_at (A H : Arr 2048 2) (p a : Fin 2048) :
    val_main_v59 (F := Ideal) A H (ix2 p a) = val_main_v51 (F := Ideal) A H (ix3 p a (0 : Fin 2)) := by
  rw [val_main_v59_apply, val_main_v58_apply,
    show idx_main_v58 (idx_main_v59 (ix2 p a)) = ix3 p a (0 : Fin 2) from by flat_split p a]

private theorem v64_at (A H : Arr 2048 2) (p a : Fin 2048) :
    val_main_v64 (F := Ideal) A H (ix2 p a) = val_main_v51 (F := Ideal) A H (ix3 p a (1 : Fin 2)) := by
  rw [val_main_v64_apply, val_main_v63_apply,
    show idx_main_v63 (idx_main_v64 (ix2 p a)) = ix3 p a (1 : Fin 2) from by flat_split p a]

private theorem v72_at (A H : Arr 2048 2) (p a : Fin 2048) :
    val_main_v72 (F := Ideal) A H (ix2 p a) = val_main_v51 (F := Ideal) A H (ix3 p a (0 : Fin 2)) := by
  rw [val_main_v72_apply, val_main_v71_apply,
    show idx_main_v71 (idx_main_v72 (ix2 p a)) = ix3 p a (0 : Fin 2) from by flat_split p a]

private theorem v74_at (A H : Arr 2048 2) (p a : Fin 2048) :
    val_main_v74 (F := Ideal) A H (ix2 p a) = val_main_v51 (F := Ideal) A H (ix3 p a (1 : Fin 2)) := by
  rw [val_main_v74_apply, val_main_v73_apply,
    show idx_main_v73 (idx_main_v74 (ix2 p a)) = ix3 p a (1 : Fin 2) from by flat_split p a]

private theorem v80_at (A H : Arr 2048 2) (p a : Fin 2048) :
    val_main_v80 (F := Ideal) A H (ix2 p a) = val_main_v51 (F := Ideal) A H (ix3 p a (0 : Fin 2)) := by
  rw [val_main_v80_apply, val_main_v79_apply,
    show idx_main_v79 (idx_main_v80 (ix2 p a)) = ix3 p a (0 : Fin 2) from by flat_split p a]

private theorem v91_at (A H : Arr 2048 2) (p a : Fin 2048) :
    val_main_v91 (F := Ideal) A H (ix2 p a) = val_main_v51 (F := Ideal) A H (ix3 p a (1 : Fin 2)) := by
  rw [val_main_v91_apply, val_main_v90_apply,
    show idx_main_v90 (idx_main_v91 (ix2 p a)) = ix3 p a (1 : Fin 2) from by flat_split p a]

private theorem v84_at (A : Arr 2048 2) (p a : Fin 2048) :
    val_main_v84 (F := Ideal) A (ix2 p a) = val_main_v70 (F := Ideal) A (ix3 p a (0 : Fin 2)) := by
  rw [val_main_v84_apply, val_main_v83_apply,
    show idx_main_v83 (idx_main_v84 (ix2 p a)) = ix3 p a (0 : Fin 2) from by flat_split p a]

private theorem v95_at (A : Arr 2048 2) (p a : Fin 2048) :
    val_main_v95 (F := Ideal) A (ix2 p a) = val_main_v70 (F := Ideal) A (ix3 p a (1 : Fin 2)) := by
  rw [val_main_v95_apply, val_main_v94_apply,
    show idx_main_v94 (idx_main_v95 (ix2 p a)) = ix3 p a (1 : Fin 2) from by flat_split p a]

/-! ## The mask, the comparison of the two overlaps, the two signed half overlaps -/

/-- Off the diagonal and overlapping on both axes. -/
private theorem hit_at (A H : Arr 2048 2) (p a : Fin 2048) :
    val_main_v67 (F := Ideal) A H (ix2 p a)
      = boxHit (offdiag p.val a.val)
          (ov (H (ix2 p 0)) (H (ix2 a 0)) (A (ix2 p 0) - A (ix2 a 0)))
          (ov (H (ix2 p 1)) (H (ix2 a 1)) (A (ix2 p 1) - A (ix2 a 1))) := by
  rw [val_main_v67_apply, val_main_v62_apply, val_main_v66_apply, val_main_v61_apply, od_at,
    v59_at, v64_at, ov_at A H p a 0, ov_at A H p a 1,
    val_main_v60_apply, val_main_cst_8_apply, val_main_v65_apply, val_main_cst_9_apply]
  rfl

/-- Whether x is the axis of least overlap. -/
private theorem le_at (A H : Arr 2048 2) (p a : Fin 2048) :
    val_main_v75 (F := Ideal) A H (ix2 p a)
      = le (ov (H (ix2 p 0)) (H (ix2 a 0)) (A (ix2 p 0) - A (ix2 a 0)))
          (ov (H (ix2 p 1)) (H (ix2 a 1)) (A (ix2 p 1) - A (ix2 a 1))) := by
  rw [val_main_v75_apply, v72_at, v74_at, ov_at A H p a 0, ov_at A H p a 1]
  rfl

/-- Half the x overlap, signed by the x offset. -/
private theorem px_at (A H : Arr 2048 2) (p a : Fin 2048) :
    val_main_v86 (F := Ideal) A H (ix2 p a)
      = (ch * ov (H (ix2 p 0)) (H (ix2 a 0)) (A (ix2 p 0) - A (ix2 a 0))) * sgn (A (ix2 p 0) - A (ix2 a 0)) := by
  rw [val_main_v86_apply, val_main_v82_apply, val_main_v85_apply, v84_at, sgn_at, v80_at, ov_at,
    val_main_v81_apply, val_main_cst_14_apply]
  rfl

/-- Half the y overlap, signed by the y offset. -/
private theorem py_at (A H : Arr 2048 2) (p a : Fin 2048) :
    val_main_v97 (F := Ideal) A H (ix2 p a)
      = (ch * ov (H (ix2 p 1)) (H (ix2 a 1)) (A (ix2 p 1) - A (ix2 a 1))) * sgn (A (ix2 p 1) - A (ix2 a 1)) := by
  rw [val_main_v97_apply, val_main_v93_apply, val_main_v96_apply, v95_at, sgn_at, v91_at, ov_at,
    val_main_v92_apply, val_main_cst_15_apply]
  rfl

/-- The array of zeros. -/
private theorem zero_at (p a : Fin 2048) : val_main_v78 (F := Ideal) (ix2 p a) = c0 := by
  rw [val_main_v78_apply, val_main_cst_13_apply]
  rfl

/-! ## The two stacked pairs, read by the coordinate on the stacked axis

Each pair joins two `[2048, 2048, 1]` pieces along the last axis: coordinate `0` falls in the first piece and coordinate
`1` in the second, at its coordinate `0`. -/

private theorem v89_at0 (A H : Arr 2048 2) (p a : Fin 2048) :
    val_main_v89 (F := Ideal) A H (ix3 p a (0 : Fin 2)) = val_main_v86 (F := Ideal) A H (ix2 p a) := by
  unfold val_main_v89
  refine (concatenate_pair_apply_left (t := S2048x2048x2) (s₁ := S2048x2048x1) (s₂ := S2048x2048x1) (2 : Fin S2048x2048x2.rank) _ _ _ (ix3 p a (0 : Fin 2)) rfl (ix3 p a (0 : Fin 1))
    (fun b => by match b with | ⟨0, _⟩ => rfl | ⟨1, _⟩ => rfl | ⟨2, _⟩ => rfl)).trans ?_
  rw [val_main_v87_apply, show idx_main_v87 (ix3 p a (0 : Fin 1)) = ix2 p a from by coords2]

private theorem v89_at1 (A H : Arr 2048 2) (p a : Fin 2048) :
    val_main_v89 (F := Ideal) A H (ix3 p a (1 : Fin 2)) = c0 := by
  unfold val_main_v89
  refine (concatenate_pair_apply_right (t := S2048x2048x2) (s₁ := S2048x2048x1) (s₂ := S2048x2048x1) (2 : Fin S2048x2048x2.rank) _ _ _ (ix3 p a (1 : Fin 2)) rfl rfl (ix3 p a (0 : Fin 1))
    (fun b => by
      match b with
      | ⟨0, _⟩ => exact fun _ => rfl
      | ⟨1, _⟩ => exact fun _ => rfl
      | ⟨2, _⟩ => exact fun h => (h (Fin.ext rfl)).elim)
    rfl).trans ?_
  rw [val_main_v88_apply, show idx_main_v88 (ix3 p a (0 : Fin 1)) = ix2 p a from by coords2, zero_at]

private theorem v100_at0 (A H : Arr 2048 2) (p a : Fin 2048) :
    val_main_v100 (F := Ideal) A H (ix3 p a (0 : Fin 2)) = c0 := by
  unfold val_main_v100
  refine (concatenate_pair_apply_left (t := S2048x2048x2) (s₁ := S2048x2048x1) (s₂ := S2048x2048x1) (2 : Fin S2048x2048x2.rank) _ _ _ (ix3 p a (0 : Fin 2)) rfl (ix3 p a (0 : Fin 1))
    (fun b => by match b with | ⟨0, _⟩ => rfl | ⟨1, _⟩ => rfl | ⟨2, _⟩ => rfl)).trans ?_
  rw [val_main_v98_apply, show idx_main_v98 (ix3 p a (0 : Fin 1)) = ix2 p a from by coords2, zero_at]

private theorem v100_at1 (A H : Arr 2048 2) (p a : Fin 2048) :
    val_main_v100 (F := Ideal) A H (ix3 p a (1 : Fin 2)) = val_main_v97 (F := Ideal) A H (ix2 p a) := by
  unfold val_main_v100
  refine (concatenate_pair_apply_right (t := S2048x2048x2) (s₁ := S2048x2048x1) (s₂ := S2048x2048x1) (2 : Fin S2048x2048x2.rank) _ _ _ (ix3 p a (1 : Fin 2)) rfl rfl (ix3 p a (0 : Fin 1))
    (fun b => by
      match b with
      | ⟨0, _⟩ => exact fun _ => rfl
      | ⟨1, _⟩ => exact fun _ => rfl
      | ⟨2, _⟩ => exact fun h => (h (Fin.ext rfl)).elim)
    rfl).trans ?_
  rw [val_main_v99_apply, show idx_main_v99 (ix3 p a (0 : Fin 1)) = ix2 p a from by coords2]

/-! ## The masked push of box `p` by box `a`, along x and along y -/

private theorem term_x (A H : Arr 2048 2) (p a : Fin 2048) :
    val_main_v104 (F := Ideal) A H (ix3 p a (0 : Fin 2))
      = boxX (offdiag p.val a.val) (A (ix2 p 0) - A (ix2 a 0)) (A (ix2 p 1) - A (ix2 a 1))
          (ov (H (ix2 p 0)) (H (ix2 a 0)) (A (ix2 p 0) - A (ix2 a 0)))
          (ov (H (ix2 p 1)) (H (ix2 a 1)) (A (ix2 p 1) - A (ix2 a 1))) := by
  rw [val_main_v104_apply, val_main_call4_v1_apply, val_main_v103_apply,
    show idx_main_v103 (idx_main_call4_v1 (ix3 p a (0 : Fin 2))) = ix2 p a from by coords2, hit_at,
    val_main_v102_apply, val_main_call3_v0_apply, val_main_v101_apply,
    show idx_main_v101 (idx_main_call3_v0 (ix3 p a (0 : Fin 2))) = ix2 p a from by coords2, le_at,
    v89_at0, px_at, v100_at0,
    val_main_call4_v2_apply, val_main_call4_v0_apply, val_main_cst_16_apply]
  rfl

private theorem term_y (A H : Arr 2048 2) (p a : Fin 2048) :
    val_main_v104 (F := Ideal) A H (ix3 p a (1 : Fin 2))
      = boxY (offdiag p.val a.val) (A (ix2 p 0) - A (ix2 a 0)) (A (ix2 p 1) - A (ix2 a 1))
          (ov (H (ix2 p 0)) (H (ix2 a 0)) (A (ix2 p 0) - A (ix2 a 0)))
          (ov (H (ix2 p 1)) (H (ix2 a 1)) (A (ix2 p 1) - A (ix2 a 1))) := by
  rw [val_main_v104_apply, val_main_call4_v1_apply, val_main_v103_apply,
    show idx_main_v103 (idx_main_call4_v1 (ix3 p a (1 : Fin 2))) = ix2 p a from by coords2, hit_at,
    val_main_v102_apply, val_main_call3_v0_apply, val_main_v101_apply,
    show idx_main_v101 (idx_main_call3_v0 (ix3 p a (1 : Fin 2))) = ix2 p a from by coords2, le_at,
    v89_at1, v100_at1, py_at,
    val_main_call4_v2_apply, val_main_call4_v0_apply, val_main_cst_16_apply]
  rfl

/-! ## The sum over every box -/

theorem v105_eq (A H : Arr 2048 2) :
    val_main_v105 (F := Ideal) A H = fun j => aaR A H (j 0) (j 1) := by
  funext j
  obtain ⟨p, q, rfl⟩ : ∃ (p : Fin 2048) (q : Fin 2), j = ix2 p q := ⟨j 0, j 1, eq_ix2 j⟩
  refine (val_main_v105_apply A H (ix2 p q)).trans ?_
  show c0 + ∑ a : Fin 2048, val_main_v104 (F := Ideal) A H (idx_main_v105 (ix2 p q) a) = aaR A H p q
  unfold aaR
  refine congrArg (c0 + ·) (Finset.sum_congr rfl fun a _ => ?_)
  rw [show idx_main_v105 (ix2 p q) a = ix3 p a q from by coords3]
  match q with
  | ⟨0, _⟩ => exact term_x A H p a
  | ⟨1, _⟩ => exact term_y A H p a

end Cert.ReferenceIdeal.RefValue

end
-- ==== Proof.RefCA.lean ====
/-
  The array program's circle–box corrections (its operations 106 to 142) read at an index. The shared term is the push of
  circle `p` by box `a` along axis `q` (`caTerm`): the offset from the box's closest point, `rel − clamp(rel, −h, h)` with
  `rel = P(p,·) − A(a,·)`, reach `R(p)`. The circles' correction sums it over the boxes; the boxes' is minus its sum over
  the circles.
-/
import proofs.«173810_j58935541236175_1_alg».proof.Proof.Gen.ReferenceIdeal.Read
import proofs.«173810_j58935541236175_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Collide

/-! ## The layout operations' composed index maps, at explicit coordinates -/

/-- Pair `(p, a)`, axis `k`, read back through the two broadcasts of the circles' positions: row `p`, column `k`. -/
private theorem ixP (p : Fin 4096) (a : Fin 2048) (k : Fin 2) :
    idx_main_v106 (idx_main_v108 (ix3 p a k)) = ix2 p k :=
  funext fun d => Fin.ext (by match d with | ⟨0, _⟩ => rfl | ⟨1, _⟩ => rfl)

/-- … through the two broadcasts of the boxes' positions: row `a`, column `k`. -/
private theorem ixA (p : Fin 4096) (a : Fin 2048) (k : Fin 2) :
    idx_main_v107 (idx_main_v109 (ix3 p a k)) = ix2 a k :=
  funext fun d => Fin.ext (by match d with | ⟨0, _⟩ => rfl | ⟨1, _⟩ => rfl)

/-- … through the two broadcasts of the half-extents, the clamp's upper bound: row `a`, column `k`. -/
private theorem ixHhi (p : Fin 4096) (a : Fin 2048) (k : Fin 2) :
    idx_main_v113 (idx_main_call5_v2 (ix3 p a k)) = ix2 a k :=
  funext fun d => Fin.ext (by match d with | ⟨0, _⟩ => rfl | ⟨1, _⟩ => rfl)

/-- … and of the negated half-extents, the clamp's lower bound: row `a`, column `k`. -/
private theorem ixHlo (p : Fin 4096) (a : Fin 2048) (k : Fin 2) :
    idx_main_v111 (idx_main_call5_v0 (ix3 p a k)) = ix2 a k :=
  funext fun d => Fin.ext (by match d with | ⟨0, _⟩ => rfl | ⟨1, _⟩ => rfl)

/-- The sum over the two axes reads the squares at `(p, a, k)`. -/
private theorem ixSq (p : Fin 4096) (a : Fin 2048) (k : Fin 2) :
    idx_main_v117 (ix2 p a) k = ix3 p a k :=
  funext fun d => Fin.ext (by match d with | ⟨0, _⟩ => rfl | ⟨1, _⟩ => rfl | ⟨2, _⟩ => rfl)

/-- Pair `(p, a)` read back through the two broadcasts of the radii: circle `p`. -/
private theorem ixR (p : Fin 4096) (a : Fin 2048) :
    idx_main_v122 (idx_main_v123 (ix2 p a)) = ix1 p :=
  funext fun d => Fin.ext (by match d with | ⟨0, _⟩ => rfl)

/-- A per-pair quantity spread over the two axes is read at the pair: the distance … -/
private theorem ixDist (p : Fin 4096) (a : Fin 2048) (q : Fin 2) :
    idx_main_v130 (idx_main_v131 (ix3 p a q)) = ix2 p a :=
  funext fun d => Fin.ext (by match d with | ⟨0, _⟩ => rfl | ⟨1, _⟩ => rfl)

/-- … the mask … -/
private theorem ixMask (p : Fin 4096) (a : Fin 2048) (q : Fin 2) :
    idx_main_v133 (idx_main_call7_v1 (ix3 p a q)) = ix2 p a :=
  funext fun d => Fin.ext (by match d with | ⟨0, _⟩ => rfl | ⟨1, _⟩ => rfl)

/-- … and the penetration. -/
private theorem ixPen (p : Fin 4096) (a : Fin 2048) (q : Fin 2) :
    idx_main_v134 (idx_main_v137 (ix3 p a q)) = ix2 p a :=
  funext fun d => Fin.ext (by match d with | ⟨0, _⟩ => rfl | ⟨1, _⟩ => rfl)

/-- The sum over the boxes reads the term at `(p, a, q)`. -/
private theorem ixBoxes (p : Fin 4096) (q : Fin 2) (a : Fin 2048) :
    idx_main_v140 (ix2 p q) a = ix3 p a q :=
  funext fun d => Fin.ext (by match d with | ⟨0, _⟩ => rfl | ⟨1, _⟩ => rfl | ⟨2, _⟩ => rfl)

/-- The sum over the circles reads the term at `(p, a, q)`. -/
private theorem ixCircles (a : Fin 2048) (q : Fin 2) (p : Fin 4096) :
    idx_main_v141 (ix2 a q) p = ix3 p a q :=
  funext fun d => Fin.ext (by match d with | ⟨0, _⟩ => rfl | ⟨1, _⟩ => rfl | ⟨2, _⟩ => rfl)

/-! ## The named intermediate arrays, each at a pair -/

/-- The offset of circle `p` from the closest point of box `a`, axis by axis: `rel − clamp(rel, −h, h)`. -/
private abbrev off (P : Arr 4096 2) (A H : Arr 2048 2) (p : Fin 4096) (a : Fin 2048) : Fin 2 → EReal :=
  fun k => diffR (P (ix2 p k) - A (ix2 a k)) (H (ix2 a k))

/-- The offset array: the relative position less its clamp to the box, `min h (max (−h) rel)`. -/
private theorem off_eq (P : Arr 4096 2) (A H : Arr 2048 2) (p : Fin 4096) (a : Fin 2048) (k : Fin 2) :
    val_main_v115 (F := Ideal) P A H (ix3 p a k) = off P A H p a k := by
  rw [val_main_v115_apply, val_main_v114_apply, val_main_call5_v1_apply, val_main_call5_v2_apply, val_main_v113_apply,
    val_main_call5_v0_apply, val_main_v112_apply, val_main_v111_apply, val_main_v110_apply, val_main_v108_apply,
    val_main_v106_apply, val_main_v109_apply, val_main_v107_apply, ixP, ixA, ixHhi, ixHlo]
  rfl

/-- The squared length of the offset: the sum of its two squares from the zero word's value. -/
private theorem d2_eq (P : Arr 4096 2) (A H : Arr 2048 2) (p : Fin 4096) (a : Fin 2048) :
    val_main_v117 (F := Ideal) P A H (ix2 p a) = d2R (off P A H p a) := by
  rw [val_main_v117_apply]
  simp only [ixSq, val_main_v116_apply, off_eq]
  rfl

/-- The distance: the root of the squared length where that exceeds `ε`, else of one. -/
private theorem dist_eq (P : Arr 4096 2) (A H : Arr 2048 2) (p : Fin 4096) (a : Fin 2048) :
    val_main_v121 (F := Ideal) P A H (ix2 p a) = Cert.Collide.dist (d2R (off P A H p a)) := by
  rw [val_main_v121_apply, val_main_v120_apply, val_main_v119_apply, val_main_v118_apply, val_main_call6_v1_apply, d2_eq]
  rfl

/-- The penetration: the circle's radius less the distance. -/
private theorem pen_eq (P : Arr 4096 2) (R : Arr1 4096) (A H : Arr 2048 2) (p : Fin 4096) (a : Fin 2048) :
    val_main_v124 (F := Ideal) P R A H (ix2 p a) = pen (d2R (off P A H p a)) (R (ix1 p)) := by
  rw [val_main_v124_apply, val_main_v123_apply, val_main_v122_apply, ixR, dist_eq]
  rfl

/-- The mask: the squared length exceeds `ε`, and the penetration is positive. -/
private theorem mask_eq (P : Arr 4096 2) (R : Arr1 4096) (A H : Arr 2048 2) (p : Fin 4096) (a : Fin 2048) :
    val_main_v129 (F := Ideal) P R A H (ix2 p a)
      = IntOp.andi (gt (d2R (off P A H p a)) ε) (gt (pen (d2R (off P A H p a)) (R (ix1 p))) c0) := by
  rw [val_main_v129_apply, val_main_v126_apply, val_main_v125_apply, val_main_v128_apply, val_main_v127_apply, d2_eq,
    pen_eq]
  rfl

/-- The term: under the mask, half the penetration times the unit offset along axis `q`; elsewhere zero. -/
private theorem term_eq (P : Arr 4096 2) (R : Arr1 4096) (A H : Arr 2048 2) (p : Fin 4096) (a : Fin 2048) (q : Fin 2) :
    val_main_v139 (F := Ideal) P R A H (ix3 p a q) = caTerm P R A H p a q := by
  rw [val_main_v139_apply, val_main_call7_v1_apply, val_main_v133_apply, val_main_v138_apply, val_main_v137_apply,
    val_main_v136_apply, val_main_v135_apply, val_main_v134_apply, val_main_v132_apply, val_main_v131_apply,
    val_main_v130_apply, val_main_call7_v2_apply, ixMask, ixPen, ixDist, mask_eq, pen_eq, dist_eq, off_eq]
  rfl

/-! ## The two corrections -/

/-- The circles' correction: the term summed over the boxes, from the zero word's value. -/
theorem v140_eq (P : Arr 4096 2) (R : Arr1 4096) (A H : Arr 2048 2) :
    val_main_v140 (F := Ideal) P R A H = fun j => cacR P R A H (j 0) (j 1) := by
  funext j
  obtain ⟨p, q, rfl⟩ : ∃ (p : Fin 4096) (q : Fin 2), j = ix2 p q := ⟨j 0, j 1, eq_ix2 j⟩
  rw [val_main_v140_apply]
  simp only [ixBoxes, term_eq]
  rfl

/-- The boxes' correction: minus the term summed over the circles, from the zero word's value. -/
theorem v142_eq (P : Arr 4096 2) (R : Arr1 4096) (A H : Arr 2048 2) :
    val_main_v142 (F := Ideal) P R A H = fun j => caaR P R A H (j 0) (j 1) := by
  funext j
  obtain ⟨a, q, rfl⟩ : ∃ (a : Fin 2048) (q : Fin 2), j = ix2 a q := ⟨j 0, j 1, eq_ix2 j⟩
  rw [val_main_v142_apply, val_main_v141_apply]
  simp only [ixCircles, term_eq]
  rfl

end Cert.ReferenceIdeal.RefValue

end
-- ==== Proof.RefTail.lean ====
/-
  The array program's result: each position array plus its two corrections, circles stacked over boxes — the step's
  result in the array reading, each correction read at an index.
-/
import proofs.«173810_j58935541236175_1_alg».proof.Proof.Gen.ReferenceIdeal.Read
import proofs.«173810_j58935541236175_1_alg».proof.Proof.Spec
import proofs.«173810_j58935541236175_1_alg».proof.Proof.Algebra
import proofs.«173810_j58935541236175_1_alg».proof.Proof.RefCC
import proofs.«173810_j58935541236175_1_alg».proof.Proof.RefAA
import proofs.«173810_j58935541236175_1_alg».proof.Proof.RefCA
import proofs.«173810_j58935541236175_1_alg».proof.Proof.Gen.ReferenceIdeal.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Collide

/-- The last stage is the host tail of the four correction stages. -/
theorem v147_tail (P : Arr 4096 2) (R : Arr1 4096) (A H : Arr 2048 2) :
    val_main_v147 (F := Ideal) P R A H
      = result P (val_main_v39 (F := Ideal) P R) (val_main_v140 (F := Ideal) P R A H)
          A (val_main_v105 (F := Ideal) A H) (val_main_v142 (F := Ideal) P R A H) := by
  unfold val_main_v147 val_main_v144 val_main_v143 val_main_v146 val_main_v145 result
  rfl

/-- The array program's result is the step's result. -/
theorem v147_eq (P : Arr 4096 2) (R : Arr1 4096) (A H : Arr 2048 2) :
    val_main_v147 (F := Ideal) P R A H = out P R A H := by
  rw [v147_tail, v39_eq, v105_eq, v140_eq, v142_eq]
  rfl

end Cert.ReferenceIdeal.RefValue

end
-- ==== Proof.Finite.lean ====
/-
  What the precondition gives: where every input's entries are below `+∞` in absolute value, each entry of the circle
  positions is a real number (an extended real `x` with `max x (−x) < ⊤` is neither `⊤` nor `⊥`).
-/
import proofs.«173810_j58935541236175_1_alg».proof.Pre_finite_inputs
import Idealize.ShloMosaic.PureOps.Ideal
import Idealize.ShloMosaic.Lib.ReduceAll
import Idealize.ShloMosaic.Lib.ValueIdx

noncomputable section

namespace Cert.Collide.Finite

open Idealize.ShloMosaic Idealize.ShloMosaic.ValueIdx

/-- The scalar shape has exactly one index. -/
private instance : Subsingleton (Cert.Pre_finite_inputs.S_).Idx := ⟨fun a b => funext fun d => d.elim0⟩

/-- An extended real whose absolute value `max x (−x)` is strictly below the value of the pattern `0x7F800000`
    (which is `⊤`) is a real number: at `⊤` and at `⊥` the maximum is `⊤`, and `⊤ < ⊤` fails. -/
private theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at hx
  induction x using EReal.rec with
  | bot => simp [Ideal.cmp] at hx
  | coe r => exact ⟨r, rfl⟩
  | top => simp [Ideal.cmp] at hx

/-- Under the printed precondition every circle position is a real number. -/
theorem pos_real [Cert.Pre_finite_inputs.Facts]
    (P : FVec Ideal ⟨2, ![4096, 2]⟩ .f32) (R : FVec Ideal ⟨1, ![4096]⟩ .f32) (A H : FVec Ideal ⟨2, ![2048, 2]⟩ .f32)
    (h : Cert.Pre_finite_inputs.fn (F := Ideal) P R A H = fun _ => 1#1) (i : (⟨2, ![4096, 2]⟩ : Shape).Idx) :
    ∃ r : ℝ, P i = (r : EReal) := by
  -- the precondition at its one index: a conjunction of four all-reductions, the first over the positions
  have h0 := congrFun h ValueIdx.ix0
  dsimp only [Cert.Pre_finite_inputs.fn, Cert.Pre_finite_inputs.fn_part1] at h0
  -- keep the first conjunct of ((c₀ ∧ c₁) ∧ c₂) ∧ c₃
  have h1 : IntOp.andi _ _ = 1#1 := h0
  have h2 : IntOp.andi _ _ = 1#1 := (IntOp.andi_eq_one.1 h1).1
  have h3 : IntOp.andi _ _ = 1#1 := (IntOp.andi_eq_one.1 h2).1
  -- an all-reduction by `and` that is 1 had a 1 at every index: |P i| < +∞
  have h4 := Host.reduce_andi_all _ _ _ _ _ (IntOp.andi_eq_one.1 h3).1 i
  exact real_of_abs_lt (P i) h4

end Cert.Collide.Finite

end
-- ==== Proof.lean ====
/-
  One collision step over 4096 circles and 2048 boxes: the tiled program against the array program.

  Both push every circle off every other circle and off every box, and every box off every other box and off every circle,
  by half the penetration along the unit offset (circles) or half the least overlap (boxes), and return the new positions,
  circles stacked over boxes. The tiled program makes columns and rows of the inputs and runs four tiled regions — one per
  interaction —, each writing, block by block of 128 kept bodies, the lane sums of the pair pushes; the array program
  forms the full pair arrays and reduces them. On the extended reals the two differ in grouping (a selected coefficient
  times a unit offset against a selected product; `0 − x` against `−x`; sums from zero) and in one mask: only the array
  program masks the diagonal of the circle–circle pairs. There the offset is `x − x`, zero for a real `x`, so the squared
  length is not above the threshold and the pair is not pushed either way: the one use of the inputs' finiteness.

  The three frames: the tiled programs' are the launch of their nine segments (five host stretches around four regions);
  the array program's is its run with the result dropped. The idealization rewrote nothing, so nothing is to preserve.
-/
import proofs.«173810_j58935541236175_1_alg».proof.Defs
import proofs.«173810_j58935541236175_1_alg».proof.Proof.Gen.Kernel
import proofs.«173810_j58935541236175_1_alg».proof.Proof.Gen.KernelIdeal
import proofs.«173810_j58935541236175_1_alg».proof.Proof.Gen.ReferenceIdeal
import proofs.«173810_j58935541236175_1_alg».proof.Proof.Gen.Pre_finite_inputs
import proofs.«173810_j58935541236175_1_alg».proof.Proof.Gen.ReferenceIdeal.Run
import proofs.«173810_j58935541236175_1_alg».proof.Proof.Gen.ReferenceIdeal.Read
import proofs.«173810_j58935541236175_1_alg».proof.Proof.KernelFrame
import proofs.«173810_j58935541236175_1_alg».proof.Proof.KernelIdealFrame
import proofs.«173810_j58935541236175_1_alg».proof.Proof.KernelValue
import proofs.«173810_j58935541236175_1_alg».proof.Proof.RefTail
import proofs.«173810_j58935541236175_1_alg».proof.Proof.Finite
import Idealize.ShloMosaic.Adequacy
import Idealize.ShloMosaic.Init

noncomputable section

namespace Cert.Proof

open Idealize.ShloMosaic Idealize.ShloMosaic.TcCoe Idealize.SL.Sem Cert.Collide

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the new positions `out` of the four inputs, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => out (Cert.KernelIdeal.Host.Pc m c) (Cert.KernelIdeal.Host.Rc m c) (Cert.KernelIdeal.Host.Ab m c) (Cert.KernelIdeal.Host.Hb m c), ?_, ?_⟩
  · refine (θ_run Cert.KernelIdeal.defs _ _).mono (fun r h c => ⟨(h c).1.trans ?_, (h c).2⟩) (Cert.KernelIdeal.Host.run_value m ρ)
    exact Cert.KernelIdeal.Host.W9_value m ρ c (Cert.Collide.Finite.pos_real _ _ _ _ (hpre c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v147_eq, (hagree c).1, (hagree c).2.1, (hagree c).2.2.1, (hagree c).2.2.2]
    exact Cert.ReferenceIdeal.RefValue.v147_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
